-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S64 .f32) (main_arg7 : FVec F S64x3 .f32) (main_arg8 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x3 .f32 := Host.absf main_arg7
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x3 .f32) (main_arg8 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x64 : Shape := ⟨2, ![1, 64]⟩
abbrev S1x3 : Shape := ⟨2, ![1, 3]⟩
abbrev S2000x64 : Shape := ⟨2, ![2000, 64]⟩
abbrev S2000x1 : Shape := ⟨2, ![2000, 1]⟩
abbrev S1600000x64 : Shape := ⟨2, ![1600000, 64]⟩
abbrev S64x1 : Shape := ⟨2, ![64, 1]⟩

abbrev nBuf : Space → Nat
  | .hbm => 67
  | .vmem => 49
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x1, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S_, .f32⟩
  | .hbm, ⟨25, _⟩ => ⟨S1600000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000, .f32⟩
  | .hbm, ⟨30, _⟩ => ⟨S100000x1, .f32⟩
  | .hbm, ⟨31, _⟩ => ⟨S1x64, .f32⟩
  | .hbm, ⟨32, _⟩ => ⟨S1x64, .f32⟩
  | .hbm, ⟨33, _⟩ => ⟨S1x3, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .hbm, ⟨66, _⟩ => ⟨S64x3, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S2000x1, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x1, .f32⟩
  | .local _ .vmem, ⟨37, _⟩ => ⟨S2000x1, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x1, .i32⟩
  | .local _ .vmem, ⟨43, _⟩ => ⟨S2000x1, .i32⟩
  | .local _ .vmem, ⟨44, _⟩ => ⟨S64x3, .f32⟩
  | .local _ .vmem, ⟨45, _⟩ => ⟨S1x3, .f32⟩
  | .local _ .vmem, ⟨46, _⟩ => ⟨S64x3, .f32⟩
  | .local _ .vmem, ⟨47, _⟩ => ⟨S64x64, .f32⟩
  | .local _ .vmem, ⟨48, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_scratch0 : Ref sig .tc := ⟨.vmem, 47, rfl⟩
abbrev cc4_scratch1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  shapeCasts_S3_S1x3 : S3.ShapeCasts S1x3
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x64 : S_.BroadcastsInDim S100000x64 (![] : Fin 0 → Fin S100000x64.rank)
  shapeCasts_S2000x64_S2000x64 : S2000x64.ShapeCasts S2000x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S2000x64_d1_w32 : S2000x64.Iotas .tc 32 [1]
  natLt_1_32 : 1 < 32
  broadcasts_S64x1_S64x64 : S64x1.Broadcasts S64x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S64x3 : S1x3.Broadcasts S64x3
  reduces_S64x3_S64 : S64x3.Reduces [1] S64
  shapeCasts_S64_S64x1 : S64.ShapeCasts S64x1
  broadcasts_S64x1_S64x3 : S64x1.Broadcasts S64x3
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S2000x64_S64x64_0_0_1_1_n_n_wf : DotDims.WF S2000x64 S2000x64 S64x64 [0] [0] [1] [1] [] []
  dot_S2000x64_S2000x1_S64x1_0_0_1_1_n_n_wf : DotDims.WF S2000x64 S2000x1 S64x1 [0] [0] [1] [1] [] []
  dot_S64x64_S64x3_S64x3_1_0_0_1_n_n_wf : DotDims.WF S64x64 S64x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x3.size a ≤ S64x3.size a
  hwx4_2 : ∀ i : grid4.Coords, EltTy.bits .f32 = 32 ∨ (Rect.block (s := S64x3) S64x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x3.size a ≤ S1x3.size a
  hwx4_3 : ∀ i : grid4.Coords, EltTy.bits .f32 = 32 ∨ (Rect.block (s := S1x3) S1x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x3.size a ≤ S64x3.size a
  hwx4_4 : ∀ i : grid4.Coords, EltTy.bits .f32 = 32 ∨ (Rect.block (s := S64x3) S64x3.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v33_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v33_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33_1) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S1x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S64x3.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x3 : Shape := ⟨2, ![1, 3]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x3, .f32⟩
  | 8 => ⟨S3, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S_, .f32⟩
  | 86 => ⟨S1600000, .f32⟩
  | 87 => ⟨S100000, .f32⟩
  | 88 => ⟨S100000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x1, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000, .f32⟩
  | 125 => ⟨S100000x1, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S64x64, .f32⟩
  | 6 => ⟨S100000x1, .i32⟩
  | 7 => ⟨S64x64, .f32⟩
  | 8 => ⟨S_, .f32⟩
  | 9 => ⟨S100000, .f32⟩
  | 10 => ⟨S_, .f32⟩
  | 11 => ⟨S64, .f32⟩
  | 12 => ⟨S100000x1, .i32⟩
  | 13 => ⟨S64, .f32⟩
  | 14 => ⟨S_, .f32⟩
  | 15 => ⟨S64, .f32⟩
  | 16 => ⟨S64, .f32⟩
  | 17 => ⟨S64x1, .f32⟩
  | 18 => ⟨S64x64, .f32⟩
  | 19 => ⟨S64x64, .f32⟩
  | 20 => ⟨S64x3, .f32⟩
  | 21 => ⟨S1x3, .f32⟩
  | 22 => ⟨S64x3, .f32⟩
  | 23 => ⟨S64x3, .f32⟩
  | 24 => ⟨S_, .f32⟩
  | 25 => ⟨S64, .f32⟩
  | 26 => ⟨S_, .f32⟩
  | 27 => ⟨S64, .f32⟩
  | 28 => ⟨S64, .f32⟩
  | 29 => ⟨S64x1, .f32⟩
  | 30 => ⟨S64x3, .f32⟩
  | 31 => ⟨S64x3, .f32⟩
  | 32 => ⟨S64x3, .f32⟩
  | 33 => ⟨S_, .f32⟩
  | 34 => ⟨S64, .f32⟩
  | 35 => ⟨S64x1, .f32⟩
  | 36 => ⟨S64x3, .f32⟩
  | 37 => ⟨S64x3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_cst : Ref sig .tc := ⟨.hbm, 71, rfl⟩
abbrev main_call0_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_cst_22 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_24 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_26 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  reducesTo_S64x3_S64_d1 : S64x3.ReducesTo [1] S64
  h_S_ : 0 < S_.numel
  bcast_S64x1_S64x3_0_1 : S64x1.BroadcastsInDim S64x3 (![0, 1] : Fin 2 → Fin S64x3.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x3_S64x3_1_0_0_1_n_n_wf : DotDims.WF S64x64 S64x3 S64x3 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x3_S64x3_1_0_0_1_n_n : DotDims S64x64 S64x3 S64x3 where
  lhsContracting := [1]
  rhsContracting := [0]
  lhsNonContracting := [0]
  rhsNonContracting := [1]
  lhsBatch := []
  rhsBatch := []
  wf := dot_S64x64_S64x3_S64x3_1_0_0_1_n_n_wf

class Facts : Prop extends Facts₀ where

variable [Facts]
-- ==== Proof.KbR0.lean ====
import proofs.«429222_j11897059409948_3_alg».proof.Proof.Gen.Kernel.Launch
import proofs.«429222_j11897059409948_3_alg».proof.Proof.Gen.Kernel.Skeleton
import proofs.«429222_j11897059409948_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node-transform region (pipeline 0): at every grid point the body reads one 2000 x 64 block of the features,
  the whole 64 x 64 weight, the 1 x 64 bias row and the 2000 x 1 blocks of the two degree scales, and stores two
  2000 x 64 blocks: the product scaled for the propagation, and the self-loop term with the bias.
  Stated at a parameter V, the contents of the core's buffers when the region is entered: the block each window
  holds at a point, what the body leaves in the two output buffers, the body's triple, the proof data and the body
  obligation at every point.
-/

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole rectangle of each buffer: every access of the body goes through one of them. -/
abbrev rBig : Rect S2000x64 := Rect.unit (s := S2000x64) ![0, 0] S2000x64.size inb_S2000x64_S2000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0
abbrev rCol : Rect S2000x1 := Rect.unit (s := S2000x1) ![0, 0] S2000x1.size inb_S2000x1_S2000x1_0_0

/-- What the body leaves in the first output buffer: its one store, the product scaled by the fifth window's column. -/
def out5 (x0 : Vec F S2000x64 .f32) (x1 : Vec F S64x64 .f32) (x4 : Vec F S2000x1 .f32) : Vec F S2000x64 .f32 :=
  View.canon [⟨rBig, k0_pay2 (View.ld x0 rBig) (View.ld x1 rW) (View.ld x4 rCol)⟩]

/-- What the body leaves in the second output buffer: its one store, the product scaled by the fourth window's column
    plus the bias row. -/
def out6 (x0 : Vec F S2000x64 .f32) (x1 : Vec F S64x64 .f32) (x2 : Vec F S1x64 .f32) (x3 : Vec F S2000x1 .f32) : Vec F S2000x64 .f32 :=
  View.canon [⟨rBig, k0_pay3 (View.ld x0 rBig) (View.ld x1 rW) (View.ld x3 rCol) (View.ld x2 rRow)⟩]

/-- One store through the whole rectangle covers the buffer. -/
theorem coverBig (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 2000000 in
/-- The body on whole staging buffers, the inputs at x0 … x4 and the outputs at anything, runs to the end holding the
    inputs as they were and the outputs at out5 and out6 of them. -/
theorem sound_kernel (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x64 .f32) (x2 : Vec F S1x64 .f32) (x3 x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x4) ∗ owns (c : Thread nD τ) arg7 fullShare (out6 x0 x1 x2 x3)) -∗ K ⟨⟩))
      ⊢ wp frame (wpE (defs₀ (F := F)) Variants.none c none) E (cc0__node_transform_kernel i arg1 harg1 arg2 harg2 arg3 harg3 arg4 harg4 arg5 harg5 arg6 harg6 arg7 harg7) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBig _)
  iexists _; isplitr
  swap; · iexact H6
  ipureintro
  exact View.read_writes_eq_canon _ _ _ (coverBig _)

/-- The proof data of the pipeline on core c: the arrays as the region finds them; after the body at point t each
    input buffer at its block and the output buffers at out5 and out6 of the blocks; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 4 t)
    | ⟨6, _⟩ => out6 (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = out5 (iblk V c 0 t) (iblk V c 1 t) (iblk V c 4 t) := by dsimp only [dat]
theorem after6 (c : Dev nD) (t : Fin cfg0.N) :
    (dat V c).after 6 t = out6 (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the triple applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KbR1.lean ====
import proofs.«429222_j11897059409948_3_alg».proof.Proof.Gen.Kernel.Launch
import proofs.«429222_j11897059409948_3_alg».proof.Proof.Gen.Kernel.Skeleton
import proofs.«429222_j11897059409948_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The combine region (pipeline 1): at every grid point the body reads one 2000 x 64 block of the aggregate, the
  matching block of the self term and the 2000 x 1 block of the degree scale, and stores one 2000 x 64 block.
  Stated at a parameter V, the contents of the core's buffers when the region is entered: the block each window
  holds at a point, what the body leaves in the output buffer, the body's triple, the proof data and the body
  obligation at every point.
-/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: every point fetches it. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 2000 x 64 rectangle and the whole 2000 x 1 rectangle: every access of the body goes through one of them. -/
abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0

/-- What the body leaves in the output buffer: its one store, of the payload of the three loaded blocks. -/
def out3 (x0 x1 : Vec F S2000x64 .f32) (x2 : Vec F S2000x1 .f32) : Vec F S2000x64 .f32 :=
  View.canon [⟨rBig, k1_pay1 (View.ld x0 rBig) (View.ld x2 rCol) (View.ld x1 rBig)⟩]

/-- The one store covers the buffer. -/
theorem cover3 (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 1000000 in
/-- The body on whole staging buffers, the inputs at x0, x1, x2 and the output at anything, runs to the end holding the
    inputs as they were and the output at out3 of them. -/
theorem sound_kernel (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S2000x1 .f32) (harg3 : arg3.IsWhole) (arg4 : Memref sig .tc .vmem S2000x64 .f32) (harg4 : arg4.IsWhole)
    (x0 x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc1__combine_kernel_relu i arg1 harg1 arg2 harg2 arg3 harg3 arg4 harg4) K := by
  simp only [cc1__combine_kernel_relu_eq_skeleton]; unfold cc1__combine_kernel_relu_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the pipeline on core c: the arrays as the region finds them; after the body at point t each
    input buffer at its block and the output buffer at out3 of the three blocks; the invariant is the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) :
    (dat V c).after 3 t = out3 (iblk V c 0 t) (iblk V c 1 t) (iblk V c 2 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the input buffers hold their blocks, so the triple applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KbR2.lean ====
import proofs.«429222_j11897059409948_3_alg».proof.Proof.Gen.Kernel.Launch
import proofs.«429222_j11897059409948_3_alg».proof.Proof.Gen.Kernel.Skeleton
import proofs.«429222_j11897059409948_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node-transform region (pipeline 2): at every grid point the body reads one 2000 x 64 block of the features,
  the whole 64 x 64 weight, the 1 x 64 bias row and the 2000 x 1 blocks of the two degree scales, and stores two
  2000 x 64 blocks: the product scaled for the propagation, and the self-loop term with the bias.
  Stated at a parameter V, the contents of the core's buffers when the region is entered: the block each window
  holds at a point, what the body leaves in the two output buffers, the body's triple, the proof data and the body
  obligation at every point.
-/

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole rectangle of each buffer: every access of the body goes through one of them. -/
abbrev rBig : Rect S2000x64 := Rect.unit (s := S2000x64) ![0, 0] S2000x64.size inb_S2000x64_S2000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0
abbrev rCol : Rect S2000x1 := Rect.unit (s := S2000x1) ![0, 0] S2000x1.size inb_S2000x1_S2000x1_0_0

/-- What the body leaves in the first output buffer: its one store, the product scaled by the fifth window's column. -/
def out5 (x0 : Vec F S2000x64 .f32) (x1 : Vec F S64x64 .f32) (x4 : Vec F S2000x1 .f32) : Vec F S2000x64 .f32 :=
  View.canon [⟨rBig, k2_pay2 (View.ld x0 rBig) (View.ld x1 rW) (View.ld x4 rCol)⟩]

/-- What the body leaves in the second output buffer: its one store, the product scaled by the fourth window's column
    plus the bias row. -/
def out6 (x0 : Vec F S2000x64 .f32) (x1 : Vec F S64x64 .f32) (x2 : Vec F S1x64 .f32) (x3 : Vec F S2000x1 .f32) : Vec F S2000x64 .f32 :=
  View.canon [⟨rBig, k2_pay3 (View.ld x0 rBig) (View.ld x1 rW) (View.ld x3 rCol) (View.ld x2 rRow)⟩]

/-- One store through the whole rectangle covers the buffer. -/
theorem coverBig (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 2000000 in
/-- The body on whole staging buffers, the inputs at x0 … x4 and the outputs at anything, runs to the end holding the
    inputs as they were and the outputs at out5 and out6 of them. -/
theorem sound_kernel (c : Dev nD) (E : Set ℕ) (i : grid2.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x64 .f32) (x2 : Vec F S1x64 .f32) (x3 x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x4) ∗ owns (c : Thread nD τ) arg7 fullShare (out6 x0 x1 x2 x3)) -∗ K ⟨⟩))
      ⊢ wp frame (wpE (defs₀ (F := F)) Variants.none c none) E (cc2__node_transform_kernel i arg1 harg1 arg2 harg2 arg3 harg3 arg4 harg4 arg5 harg5 arg6 harg6 arg7 harg7) K := by
  simp only [cc2__node_transform_kernel_eq_skeleton]; unfold cc2__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBig _)
  iexists _; isplitr
  swap; · iexact H6
  ipureintro
  exact View.read_writes_eq_canon _ _ _ (coverBig _)

/-- The proof data of the pipeline on core c: the arrays as the region finds them; after the body at point t each
    input buffer at its block and the output buffers at out5 and out6 of the blocks; the invariant is the scoped rest
    and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 4 t)
    | ⟨6, _⟩ => out6 (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) :
    (dat V c).after 5 t = out5 (iblk V c 0 t) (iblk V c 1 t) (iblk V c 4 t) := by dsimp only [dat]
theorem after6 (c : Dev nD) (t : Fin cfg2.N) :
    (dat V c).after 6 t = out6 (iblk V c 0 t) (iblk V c 1 t) (iblk V c 2 t) (iblk V c 3 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the input buffers hold their blocks, so the triple applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.KbR3.lean ====
import proofs.«429222_j11897059409948_3_alg».proof.Proof.Gen.Kernel.Launch
import proofs.«429222_j11897059409948_3_alg».proof.Proof.Gen.Kernel.Skeleton
import proofs.«429222_j11897059409948_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The combine region (pipeline 3): at every grid point the body reads one 2000 x 64 block of the aggregate, the
  matching block of the self term and the 2000 x 1 block of the degree scale, and stores one 2000 x 64 block.
  Stated at a parameter V, the contents of the core's buffers when the region is entered: the block each window
  holds at a point, what the body leaves in the output buffer, the body's triple, the proof data and the body
  obligation at every point.
-/

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: every point fetches it. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 2000 x 64 rectangle and the whole 2000 x 1 rectangle: every access of the body goes through one of them. -/
abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0

/-- What the body leaves in the output buffer: its one store, of the payload of the three loaded blocks. -/
def out3 (x0 x1 : Vec F S2000x64 .f32) (x2 : Vec F S2000x1 .f32) : Vec F S2000x64 .f32 :=
  View.canon [⟨rBig, k3_pay1 (View.ld x0 rBig) (View.ld x2 rCol) (View.ld x1 rBig)⟩]

/-- The one store covers the buffer. -/
theorem cover3 (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 1000000 in
/-- The body on whole staging buffers, the inputs at x0, x1, x2 and the output at anything, runs to the end holding the
    inputs as they were and the output at out3 of them. -/
theorem sound_kernel (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S2000x1 .f32) (harg3 : arg3.IsWhole) (arg4 : Memref sig .tc .vmem S2000x64 .f32) (harg4 : arg4.IsWhole)
    (x0 x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__combine_kernel_norelu i arg1 harg1 arg2 harg2 arg3 harg3 arg4 harg4) K := by
  simp only [cc3__combine_kernel_norelu_eq_skeleton]; unfold cc3__combine_kernel_norelu_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the pipeline on core c: the arrays as the region finds them; after the body at point t each
    input buffer at its block and the output buffer at out3 of the three blocks; the invariant is the scoped rest
    and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) :
    (dat V c).after 3 t = out3 (iblk V c 0 t) (iblk V c 1 t) (iblk V c 2 t) := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d

/-- What the body is called with at point t, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- The body at any point: the input buffers hold their blocks, so the triple applies; the invariant and what the core
    owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W3, bigSep_W3]
  exact sound_body V c t

end Cert.Kernel.R3

end
-- ==== Proof.LibReadNewest.lean ====
/-
  A load through the whole-shape rectangle of a buffer whose NEWEST store went through the whole-shape
  rectangle reads that store's payload, however many older stores lie under it: the newest piece covers
  every index, so the older pieces never show.

  (A scratch buffer rewritten whole once per unrolled step and read back whole after each rewrite is held
  by a run as the list of all its stores so far, newest first; this reads it.)
-/
import Idealize.ShloMosaic.Lib.Pipeline.Value

noncomputable section

namespace Idealize.ShloMosaic.ReadNewest

open Idealize.ShloMosaic

variable {Val : EltTy → Type} {S : Shape} {e : EltTy}

/-- The newest piece of a list of writes is the whole shape at zero offsets (however the zeros are spelt):
    a load through that rectangle reads the piece's payload, whatever the older pieces. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.ReadNewest

end
-- ==== Proof.KbR4.lean ====
import proofs.«429222_j11897059409948_3_alg».proof.Proof.Gen.Kernel.Launch
import proofs.«429222_j11897059409948_3_alg».proof.Proof.Gen.Kernel.Skeleton
import proofs.«429222_j11897059409948_3_alg».proof.Proof.Gen.Kernel.Points
import proofs.«429222_j11897059409948_3_alg».proof.Proof.LibReadNewest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The pooling region (pipeline 4): at every grid point the body reads one 2000 x 64 block of the node features and
  the 2000 x 1 block of graph ids, and adds into two accumulators kept in scratch between the points (per graph, the
  sum of its nodes' rows and the number of its nodes), which the first point resets; the last point divides, applies
  the linear layer and the softmax and stores the 64 x 3 result, the only block of the output that is written back.
  Stated at a parameter V, the contents of the core's buffers when the region is entered.
-/

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The two branch conditions of the body, from the grid coordinates. -/
abbrev cond1 (i : grid4.Coords) : Prop := (Scalar.cmpi .ne (Scalar.extui (Scalar.cmpi .eq (BitVec.ofNat 32 (i 0).val) 0#32)) 0#32) = 1#1
theorem hcond1 : ∀ t : Fin cfg4.N, cond1 (grid4.coords t) ↔ t.val = 0 :=
  (by decide +kernel : ∀ t : Fin grid4.N, cond1 (grid4.coords t) ↔ t.val = 0)
abbrev cond2 (i : grid4.Coords) : Prop := k4_cond2 i = 1#1
theorem hcond2 : ∀ t : Fin cfg4.N, cond2 (grid4.coords t) ↔ t.val = 49 :=
  (by decide +kernel : ∀ t : Fin grid4.N, cond2 (grid4.coords t) ↔ t.val = 49)

theorem liveAt (w : Fin 4) : ∀ t : Fin cfg4.N, cfg4.idle (w.castSucc) (grid4.coords t) = false := by
  revert w; decide +kernel
theorem idleAt4 : ∀ t : Fin cfg4.N, ¬cond2 (grid4.coords t) → cfg4.idle 4 (grid4.coords t) = true := by decide +kernel
theorem noFlush4 : ∀ t : Fin cfg4.N, ¬cond2 (grid4.coords t) → (cfg4.win 4).flush t = false := by decide +kernel
theorem liveAt4 : ∀ t : Fin cfg4.N, cond2 (grid4.coords t) → cfg4.idle 4 (grid4.coords t) = false := by decide +kernel

abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0
abbrev rAcc : Rect S64x64 := Rect.unit (s := S64x64) ![0, 0] S64x64.size inb_S64x64_S64x64_0_0
abbrev rCnt : Rect S64x1 := Rect.unit (s := S64x1) ![0, 0] S64x1.size inb_S64x1_S64x1_0_0
abbrev rWl : Rect S64x3 := Rect.unit (s := S64x3) ![0, 0] S64x3.size inb_S64x3_S64x3_0_0
abbrev rBl : Rect S1x3 := Rect.unit (s := S1x3) ![0, 0] S1x3.size inb_S1x3_S1x3_0_0

/-- The two scratch accumulators, whole scoped buffers of the kernel's own. -/
abbrev scM0 : Memref sig .tc .vmem S64x64 .f32 := Memref.whole cc4_scratch0
abbrev scM1 : Memref sig .tc .vmem S64x1 .f32 := Memref.whole cc4_scratch1

theorem hz2 : (![0, 0] : Fin 2 → ℕ) = fun _ => 0 := by funext a; fin_cases a <;> rfl

/-- What a point after the first leaves in the two accumulators, from the point's feature block x0, its graph-id
    block x1 and what the accumulators held (s0, s1); at the first point they are reset first (the zero payloads). -/
def accB (x0 : Vec F S2000x64 .f32) (x1 : Vec F S2000x1 .i32) (s0 : Vec F S64x64 .f32) : Vec F S64x64 .f32 :=
  k4_pay4 (View.ld x1 rCol) (View.ld x0 rBig) (View.ld s0 rAcc)
def cntB (x1 : Vec F S2000x1 .i32) (s1 : Vec F S64x1 .f32) : Vec F S64x1 .f32 :=
  k4_pay5 (View.ld x1 rCol) (View.ld s1 rCnt)
def accA (x0 : Vec F S2000x64 .f32) (x1 : Vec F S2000x1 .i32) : Vec F S64x64 .f32 :=
  k4_pay4 (View.ld x1 rCol) (View.ld x0 rBig) (k4_pay1 (F := F))
def cntA (x1 : Vec F S2000x1 .i32) : Vec F S64x1 .f32 :=
  k4_pay5 (View.ld x1 rCol) (k4_pay2 (F := F))
/-- What the last point stores in the output buffer, from the accumulators as the point leaves them (a0, a1), the
    weight block x2 and the bias block x3. -/
def outC (a0 : Vec F S64x64 .f32) (a1 : Vec F S64x1 .f32) (x2 : Vec F S64x3 .f32) (x3 : Vec F S1x3 .f32) : Vec F S64x3 .f32 :=
  k4_pay6 a0 a1 (View.ld x2 rWl) (View.ld x3 rBl)

/-- A buffer whose newest store went through the whole rectangle reads back that store's payload. -/
theorem read_newest {Val : EltTy → Type} [∀ e, Nonempty (Val e)] {κ : Kind} {sp : Space} {S : Shape} {e : EltTy}
    (v : View sig κ sp S e) {off : Fin S.rank → Nat} (h : off = fun _ => 0)
    (inb : ∀ a, off a + S.size a ≤ S.size a) (f) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩),
    View.canon_cons_unit_zero rfl]

set_option maxHeartbeats 2000000 in
/-- A point that is neither the first nor the last: the accumulators are added into; the output buffer is untouched. -/
theorem sound_kernelB (c : Dev nD) (E : Set ℕ) (i : grid4.Coords) (hc1 : ¬cond1 i) (hc2 : ¬cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32) (x4 : Vec F S64x3 .f32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (accB x0 x1 s0) ∗ owns (c : Thread nD τ) arg7 fullShare (cntB x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_newest _ hz2 _ _ _ _).trans rfl
  iexists _; isplitr
  swap; · iexact H6
  ipureintro
  exact (read_newest _ hz2 _ _ _ _).trans rfl

set_option maxHeartbeats 2000000 in
/-- The first point: the accumulators are reset, then added into; the output buffer is untouched. -/
theorem sound_kernelA (c : Dev nD) (E : Set ℕ) (i : grid4.Coords) (hc1 : cond1 i) (hc2 : ¬cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32) (x4 : Vec F S64x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (accA x0 x1) ∗ owns (c : Thread nD τ) arg7 fullShare (cntA x1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [ReadNewest.readCov_cons_unit_zero _ hz2]
    exact (read_newest _ hz2 _ _ _ _).trans rfl
  iexists _; isplitr
  swap; · iexact H6
  ipureintro
  sl_unfold_words
  rw [ReadNewest.readCov_cons_unit_zero _ hz2]
  exact (read_newest _ hz2 _ _ _ _).trans rfl

set_option maxHeartbeats 2000000 in
/-- The last point: the accumulators are added into, then read back and the result stored in the output buffer. -/
theorem sound_kernelC (c : Dev nD) (E : Set ℕ) (i : grid4.Coords) (hc1 : ¬cond1 i) (hc2 : cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outC (accB x0 x1 s0) (cntB x1 s1) x2 x3)
            ∗ owns (c : Thread nD τ) arg6 fullShare (accB x0 x1 s0) ∗ owns (c : Thread nD τ) arg7 fullShare (cntB x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [ReadNewest.readCov_cons_unit_zero _ hz2, ReadNewest.readCov_cons_unit_zero _ hz2]
    exact (read_newest _ hz2 _ _ _ _).trans rfl
  isplitl [H5]
  · iexists _; isplitr
    swap; · iexact H5
    ipureintro
    sl_unfold_words
    exact (read_newest _ hz2 _ _ _ _).trans rfl
  iexists _; isplitr
  swap; · iexact H6
  ipureintro
  sl_unfold_words
  exact (read_newest _ hz2 _ _ _ _).trans rfl

/-! ## The accumulators after each point, the invariant and the proof data -/

/-- What the two accumulators hold after point n: reset and added into at the first point, added into afterwards. -/
def accAt (c : Dev nD) : (n : ℕ) → n < cfg4.N → Vec F S64x64 .f32 × Vec F S64x1 .f32
  | 0, h => (accA (iblk V c 0 ⟨0, h⟩) (iblk V c 1 ⟨0, h⟩), cntA (iblk V c 1 ⟨0, h⟩))
  | n + 1, h => (accB (iblk V c 0 ⟨n + 1, h⟩) (iblk V c 1 ⟨n + 1, h⟩) (accAt c n (Nat.lt_of_succ_lt h)).1,
      cntB (iblk V c 1 ⟨n + 1, h⟩) (accAt c n (Nat.lt_of_succ_lt h)).2)

theorem accAt_zero (c : Dev nD) (t : Fin cfg4.N) (h0 : t.val = 0) :
    accAt V c t.val t.isLt = (accA (iblk V c 0 t) (iblk V c 1 t), cntA (iblk V c 1 t)) := by
  obtain ⟨n, hn⟩ := t
  cases n with
  | zero => rfl
  | succ n => exact absurd h0 (Nat.succ_ne_zero n)

theorem accAt_pos (c : Dev nD) (t : Fin cfg4.N) (h0 : t.val ≠ 0) :
    accAt V c t.val t.isLt = (accB (iblk V c 0 t) (iblk V c 1 t) (accAt V c (t.val - 1) (Nat.lt_of_le_of_lt (Nat.sub_le _ _) t.isLt)).1,
      cntB (iblk V c 1 t) (accAt V c (t.val - 1) (Nat.lt_of_le_of_lt (Nat.sub_le _ _) t.isLt)).2) := by
  obtain ⟨n, hn⟩ := t
  cases n with
  | zero => exact absurd rfl h0
  | succ n => rfl

/-- The class invariant with the two accumulators split out of the scoped rest. -/
theorem PhiA_eq (c : Dev nD) :
    (Pipeline.ΦA spec4 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM0, scM1, owns_whole]; try rfl

/-- The region's invariant before position n: before the first point the class's (the accumulators at anything);
    afterwards the accumulators at what the point before left, the rest of the scoped buffers and the generator register. -/
def Phi (c : Dev nD) : (n : ℕ) → n ≤ cfg4.N → sProp 𝕄
  | 0, _ => Pipeline.ΦA spec4 c
  | n + 1, hn => iprop(iprop(iprop(owns (c : Thread nD τ) scM0 fullShare (accAt V c n hn).1 ∗ owns (c : Thread nD τ) scM1 fullShare (accAt V c n hn).2)
      ∗ Pipeline.scopedRestBut (Ix := Unit) (Name := ℕ) (U := UR sig nD τ) (Lvl := ℕ) (Val := Elt F) spec4 c [cc4_scratch0, cc4_scratch1])
      ∗ (∃ r, prngReg c r))

theorem Phi_zero (c : Dev nD) (n : ℕ) (h : n ≤ cfg4.N) (hz : n = 0) : Phi V c n h = Pipeline.ΦA spec4 c := by
  subst hz; rfl
theorem Phi_succ (c : Dev nD) (n : ℕ) (hn : n < cfg4.N) :
    Phi V c (n + 1) hn = iprop(iprop(iprop(owns (c : Thread nD τ) scM0 fullShare (accAt V c n hn).1 ∗ owns (c : Thread nD τ) scM1 fullShare (accAt V c n hn).2)
      ∗ Pipeline.scopedRestBut (Ix := Unit) (Name := ℕ) (U := UR sig nD τ) (Lvl := ℕ) (Val := Elt F) spec4 c [cc4_scratch0, cc4_scratch1])
      ∗ (∃ r, prngReg c r)) := rfl
theorem Phi_pos (c : Dev nD) (n : ℕ) (h : n ≤ cfg4.N) (hz : n ≠ 0) :
    Phi V c n h = iprop(iprop(iprop(owns (c : Thread nD τ) scM0 fullShare (accAt V c (n - 1) (by omega)).1 ∗ owns (c : Thread nD τ) scM1 fullShare (accAt V c (n - 1) (by omega)).2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The proof data of the pipeline on core c: the arrays as the region finds them; after the body at point t each
    input buffer at its block, and the output buffer at the result computed from the accumulators as the point leaves
    them (only the last point stores it and only there is it written back); the invariant tracks the accumulators. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => outC (accAt V c t.val t.isLt).1 (accAt V c t.val t.isLt).2 (iblk V c 2 t) (iblk V c 3 t)
  Φ t := Phi V c t.val (Nat.le_of_lt_succ t.isLt)
  q _ := fullShare
  owed _ := 0

theorem A_eq (c : Dev nD) (w : Fin cfg4.W) : (dat V c).A w = V c (Pipeline.arrRef spec4 w) := by
  dsimp only [dat]

theorem Phi_castSucc (c : Dev nD) (t : Fin cfg4.N) :
    (dat V c).Φ t.castSucc = Phi V c t.val (Nat.le_of_lt t.isLt) := by
  dsimp only [dat]; simp only [Fin.coe_castSucc]

theorem after0 (c : Dev nD) (t : Fin cfg4.N) : (dat V c).after 0 t = iblk V c 0 t := by dsimp only [dat]
theorem after1 (c : Dev nD) (t : Fin cfg4.N) : (dat V c).after 1 t = iblk V c 1 t := by dsimp only [dat]
theorem after2 (c : Dev nD) (t : Fin cfg4.N) : (dat V c).after 2 t = iblk V c 2 t := by dsimp only [dat]
theorem after3 (c : Dev nD) (t : Fin cfg4.N) : (dat V c).after 3 t = iblk V c 3 t := by dsimp only [dat]
theorem after4 (c : Dev nD) (t : Fin cfg4.N) :
    (dat V c).after 4 t = outC (accAt V c t.val t.isLt).1 (accAt V c t.val t.isLt).2 (iblk V c 2 t) (iblk V c 3 t) := by dsimp only [dat]

theorem before0 (c : Dev nD) (t : Fin cfg4.N) (d) : (dat V c).before 0 t d = iblk V c 0 t :=
  before0_of V (dat V c) (A_eq V c 0) (after0 V c) t d
theorem before1 (c : Dev nD) (t : Fin cfg4.N) (d) : (dat V c).before 1 t d = iblk V c 1 t :=
  before1_of V (dat V c) (A_eq V c 1) (after1 V c) t d
theorem before2 (c : Dev nD) (t : Fin cfg4.N) (d) : (dat V c).before 2 t d = iblk V c 2 t :=
  before2_of V (dat V c) (A_eq V c 2) (after2 V c) t d
theorem before3 (c : Dev nD) (t : Fin cfg4.N) (d) : (dat V c).before 3 t d = iblk V c 3 t :=
  before3_of V (dat V c) (A_eq V c 3) (after3 V c) t d

/-- What the body is called with at point t, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem live0 : ∀ t : Fin cfg4.N, cfg4.idle 0 (grid4.coords t) = false := by decide +kernel
theorem live1 : ∀ t : Fin cfg4.N, cfg4.idle 1 (grid4.coords t) = false := by decide +kernel
theorem live2 : ∀ t : Fin cfg4.N, cfg4.idle 2 (grid4.coords t) = false := by decide +kernel
theorem live3 : ∀ t : Fin cfg4.N, cfg4.idle 3 (grid4.coords t) = false := by decide +kernel
theorem leaves0 (c : Dev nD) (t : Fin cfg4.N) : (dat V c).leavesExact 0 t = owns (c : Thread nD τ) (st4_0 t) fullShare ((dat V c).after 0 t) := by
  unfold Dat.leavesExact; rw [live0 t]
theorem leaves1 (c : Dev nD) (t : Fin cfg4.N) : (dat V c).leavesExact 1 t = owns (c : Thread nD τ) (st4_1 t) fullShare ((dat V c).after 1 t) := by
  unfold Dat.leavesExact; rw [live1 t]
theorem leaves2 (c : Dev nD) (t : Fin cfg4.N) : (dat V c).leavesExact 2 t = owns (c : Thread nD τ) (st4_2 t) fullShare ((dat V c).after 2 t) := by
  unfold Dat.leavesExact; rw [live2 t]
theorem leaves3 (c : Dev nD) (t : Fin cfg4.N) : (dat V c).leavesExact 3 t = owns (c : Thread nD τ) (st4_3 t) fullShare ((dat V c).after 3 t) := by
  unfold Dat.leavesExact; rw [live3 t]

set_option maxHeartbeats 4000000 in
/-- The body at any point, by the three cases of the two conditions: the input buffers hold their blocks; the
    invariant hands the body the accumulators (at anything at the first point, at what the point before left
    afterwards) and takes them back at this point's contents; the output buffer is stored only at the last point
    and handed back as found at the others. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3]
  rw [show (dat V c).owesAt () t.succ = (dat V c).owesAt () t.castSucc from rfl]
  rw [show (dat V c).Φ t.succ = Phi V c (t.val + 1) t.isLt from rfl, Phi_succ]
  rw [leaves0, leaves1, leaves2, leaves3, after0, after1, after2, after3]
  have hN : t.val < 50 := lt_of_lt_of_eq t.isLt (show cfg4.N = 50 from N_4)
  by_cases h0 : t.val = 0
  · have hc1 : cond1 (grid4.coords t) := (hcond1 t).mpr h0
    have hc2 : ¬cond2 (grid4.coords t) := fun h => by have := (hcond2 t).mp h; omega
    rw [Dat.leavesExact_idle (dat V c) 4 t (idleAt4 t hc2) (noFlush4 t hc2)]
    rw [accAt_zero V c t h0]; dsimp only
    rw [Phi_castSucc V c t, Phi_zero V c _ _ h0, PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernelA c Set.univ (grid4.coords t) hc1 hc2 _ _ _ _ _ _ _ _ _ _ _ _ _ _ (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexists _; iexact H4
  · have hc1 : ¬cond1 (grid4.coords t) := fun h => h0 ((hcond1 t).mp h)
    by_cases h49 : t.val = 49
    · have hc2 : cond2 (grid4.coords t) := (hcond2 t).mpr h49
      rw [show (dat V c).leavesExact 4 t = owns (c : Thread nD τ) (st4_4 t) fullShare ((dat V c).after 4 t) from by
        unfold Dat.leavesExact; rw [liveAt4 t hc2], after4]
      rw [accAt_pos V c t h0]; dsimp only
      rw [Phi_castSucc V c t, Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernelC c Set.univ (grid4.coords t) hc1 hc2 _ _ _ _ _ _ _ _ _ _ _ _ _ _ (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · have hc2 : ¬cond2 (grid4.coords t) := fun h => h49 ((hcond2 t).mp h)
      rw [Dat.leavesExact_idle (dat V c) 4 t (idleAt4 t hc2) (noFlush4 t hc2)]
      rw [accAt_pos V c t h0]; dsimp only
      rw [Phi_castSucc V c t, Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernelB c Set.univ (grid4.coords t) hc1 hc2 _ _ _ _ _ _ _ _ _ _ _ _ _ _ (iblk V c 0 t) (iblk V c 1 t) (iblk V c 2 t) (iblk V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem Phi_in (c : Dev nD) : Pipeline.ΦA spec4 c ⊢ (dat V c).Φ 0 := by
  rw [show (dat V c).Φ 0 = Phi V c 0 (Nat.zero_le _) from rfl, Phi_zero V c 0 _ rfl]
  try exact Idealize.SL.BI.Entails.refl _

/-- After the last point the invariant gives the class's back: what the accumulators hold is forgotten. -/
theorem Phi_out (c : Dev nD) : (dat V c).Φ (Fin.last cfg4.N) ⊢ Pipeline.ΦA spec4 c := by
  rw [show (dat V c).Φ (Fin.last cfg4.N) = Phi V c (Fin.last cfg4.N).val (Nat.le_of_lt_succ (Fin.last cfg4.N).isLt) from rfl,
    Phi_pos V c _ _ (by rw [Fin.val_last]; have : cfg4.N = 50 := N_4; omega), PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.R4

end
-- ==== Proof.LibRegionRecord.lean ====
/-
  A kernel region of a TensorCore program as a segment record, stated once for any pipeline of the simplest
  protocol: no prefetched table, no semaphore of the kernel's own, every array held at the full share, nothing
  owed at any point, and an invariant that takes in the core's generator register and the scoped buffers no
  window stages and gives both back at the last point.

  The thread state on either side of the region is "every unscoped buffer of the core held whole at a valuation,
  the generator register at some state, nothing owed". At entry the windows' arrays are split out of the unscoped
  buffers (they hold the entry valuation's contents); at exit they are put back at any valuation that has each
  array at what the pipeline's write-backs leave and agrees with the entry valuation everywhere else.

  Two companions: for a pipeline with one output window, the entry valuation updated at that window's array is such
  an exit valuation (`exit_arr`, `exit_rest`); and the invariant "the unstaged scoped buffers and the generator
  register" is entered from the two and gives them back (`ΦA_in`, `ΦA_out`).
-/
import Idealize.ShloMosaic.Lib.Pipeline.Regions
import Idealize.ShloMosaic.Lib.Pipeline.RegionsLoop
import Idealize.ShloMosaic.Lib.Pipeline.Frame
import Idealize.ShloMosaic.Lib.Pipeline.Kit

noncomputable section

namespace Cert.LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Record

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

/-- What rides beside the unscoped buffers between two items of the program: the core's generator register at
    some state, and the core owing nothing. -/
abbrev rest (c : Dev nD) : sProp 𝕄 :=
  iprop((∃ r, prngReg c r) ∗ ∃ W, owes (c : Thread nD τ) (0 : CellTallies nD τ sig Ix) W)

/-- The thread state between two items: every unscoped buffer of core `c` held whole at the valuation `V`, beside `rest`. -/
abbrev state (V : Valuation τ sig Val) (c : Dev nD) : sProp 𝕄 :=
  iprop(StableHlo.held (c : Thread nD τ) (ucRefs τ sig) V ∗ rest (Ix := Ix) (Name := Name) (U := U) (Lvl := Lvl) (Val := Val) (τ := τ) (sig := sig) c)

set_option backward.isDefEq.respectTransparency.types false in
/-- THE RECORD of region `p`, entered from `state (V c) c` and left at `state (V' c) c`: for proof data whose arrays are
    the entry valuation's (`hA`), that hold every input at the full share (`hq`), owe nothing (`howed`) and bound no
    recorded pair at entry (`hrec`), whose body obligation holds (`hbody`) and whose invariant is entered from the
    generator register and the unstaged scoped buffers (`hΦin`) and gives them back (`hΦout`); the exit valuation has
    each array at what the pipeline leaves (`hF`) and every other buffer as entered (`hrest`). -/
def regionRecord (pcs : P → PCfg sig Λ₀ Val) (a : (p : P) → (pcs p).Adm)
    (pdats : (p : P) → (c : Dev nD) → Dat τ Val Ix Name U Lvl (pin pcs a p) c) (ι : Ix)
    (defs₀ : Defs nD τ sig Val Λ₀) (𝒱₀ : Variants)
    (L : GSem nD τ sig → Finset Ix) (lv : GSem nD τ sig → Ix → Lvl) (p : P)
    (hw₀ : WinFacts₀ (pcs p).spec) (hw : WinFacts (pin pcs a p).spec)
    (hblock : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : IsEmpty (Fin (pcs p).pre.K))
    (hq : ∀ c w, (pdats p c).q w = fullShare)
    (howed : ∀ c t, (pdats p c).owed t = 0)
    (hrec : ∀ c, (pdats p c).recorded 0 = Set.univ)
    (hbody : ∀ c, BodyObligation (pdats p c) defs₀ 𝒱₀ ι Set.univ)
    (V V' : Dev nD → Valuation τ sig Val)
    (hA : ∀ c w, (pdats p c).A w = V c (arrRef (pin pcs a p).spec w))
    (hF : ∀ c w, (pdats p c).arrAt w (pin pcs a p).N = V' c (arrRef (pin pcs a p).spec w))
    (hrest : ∀ c (b : Ref sig .tc), b ∉ Finset.univ.image (arrRef (pin pcs a p).spec) → V' c b = V c b)
    (hΦin : ∀ c, iprop((∃ r, prngReg c r) ∗ scopedRest (pin pcs a p).spec c) ⊢ (pdats p c).Φ 0)
    (hΦout : ∀ c, (pdats p c).Φ (Fin.last (pin pcs a p).N) ⊢ iprop((∃ r, prngReg c r) ∗ scopedRest (pin pcs a p).spec c)) :
    RegionSeg pcs a pdats ι defs₀ 𝒱₀ L lv p where
  win := hw₀
  block_pos := hblock
  stage_whole := hstage
  K := PEmpty
  osem k := k.elim
  ho := OwnSemFacts.none _
  hbody c := (hbody c).loose
  hwaits := hwaits_of_owed_zero pcs a pdats ι L lv p howed
  pre c := state (V c) c
  post c := state (V' c) c
  X c := iprop(∃ r, prngReg c r)
  Y c := iprop(∃ r, prngReg c r)
  Z c := unscopedRest (Ix := Ix) (Name := Name) (U := U) (Lvl := Lvl) (pin pcs a p).spec c (fun b => V c b)
  hentry c := by
    rw [ownSems0_none]
    have hsplit := arrays_of_unscopedBufs (p := p) pcs a pdats hw harr c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · haveI := hK
      unfold prefHeld; rw [Finset.univ_eq_empty, BI.bigSep_empty]; iempintro
    isplitl [HO]
    · unfold Dat.owesAt owesWithin
      rw [howed c 0]
      icases HO with ⟨%W, HO⟩; iexists W; isplitr
      · ipureintro; exact fun x _ => Or.inl (by rw [hrec c]; trivial)
      iexact HO
    isplitl [Hp]; · iexact Hp
    iexact Hrest
  hin c := by
    iintro ⟨Hp, -, Hr⟩
    iapply (hΦin c)
    isplitl [Hp]; · iexact Hp
    iexact Hr
  hout c := by
    rw [ownSems0_none]
    iintro H
    ihave H' := (hΦout c) $$ H
    icases H' with ⟨Hp, Hr⟩
    isplitl [Hp]; · iexact Hp
    isplitr; · iempintro
    iexact Hr
  hexit c := by
    have hjoin := unscopedBufs_of_arrays (p := p) pcs a (Ix := Ix) (Name := Name) (U := U) (Lvl := Lvl)
      hw harr c pdats ((pdats p c).share_full (hq c))
      (fun b => V c b) (fun b => V' c b) ((pdats p c).arrAt · (pin pcs a p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%W, -, HO⟩; iexists W; iexact HO

end Record

/-! ## The exit valuation of a pipeline with one output window, and the class invariant -/

section Exit

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels}

/-- The exit valuation of a pipeline with ONE output window `wo`: the entry valuation `V` updated at that window's
    array with what its write-backs leave. Every array then holds what the pipeline leaves in it: the output's by
    the update, an input's because an input array is never written and its buffer is another one. -/
theorem exit_arr {cfg : Cfg sig Λ₀} {c : Dev nD} (dat : Dat τ Val Ix Name U Lvl cfg c) (V : Valuation τ sig Val)
    (hinj : Function.Injective (arrRef cfg.spec)) (wo : Fin cfg.W)
    (hin : ∀ w, w ≠ wo → (cfg.win w).isOut = false)
    (hA : ∀ w, dat.A w = V (arrRef cfg.spec w)) (w : Fin cfg.W) :
    dat.arrAt w cfg.N = Function.update V (Proc.devRef (τ := τ) .tc (arrRef cfg.spec wo)) (dat.arrAt wo cfg.N) (arrRef cfg.spec w) := by
  by_cases h : w = wo
  · subst h; rw [Function.update_self]
  · rw [Function.update_of_ne (StableHlo.devRef_ne_of_ne fun e => h (hinj e)), dat.arrAt_in w (hin w h), hA]

/-- and every buffer that is no window's array holds what it held. -/
theorem exit_rest {cfg : Cfg sig Λ₀} {c : Dev nD} (dat : Dat τ Val Ix Name U Lvl cfg c) (V : Valuation τ sig Val)
    (wo : Fin cfg.W) (b : Ref sig .tc) (hb : b ∉ Finset.univ.image (arrRef cfg.spec)) :
    Function.update V (Proc.devRef (τ := τ) .tc (arrRef cfg.spec wo)) (dat.arrAt wo cfg.N) b = V b :=
  Function.update_of_ne (StableHlo.devRef_ne_of_ne fun e => hb (Finset.mem_image.mpr ⟨wo, Finset.mem_univ _, e.symm⟩)) _ _

end Exit

section ClassInvariant

variable {nD : Nat} {τ : Topo} {sig : RefSig} {Val : EltTy → Type} {U : Type} [URA U]

local notation "𝕄" => MT nD τ sig Unit Val ℕ U ℕ

/-- The class invariant "the unstaged scoped buffers and the generator register" is entered from the two -/
theorem ΦA_in {gr : Nat} {W : Nat} (win : Fin W → WinSpec sig gr) (c : Dev nD) :
    (iprop((∃ r, prngReg c r) ∗ scopedRest (Ix := Unit) (Name := ℕ) (U := U) (Lvl := ℕ) (Val := Val) win c) : sProp 𝕄) ⊢ ΦA win c := by
  unfold ΦA
  iintro ⟨Hp, Hr⟩
  isplitl [Hr]; · iexact Hr
  iexact Hp

/-- and gives them back. -/
theorem ΦA_out {gr : Nat} {W : Nat} (win : Fin W → WinSpec sig gr) (c : Dev nD) :
    (ΦA win c : sProp 𝕄) ⊢ iprop((∃ r, prngReg c r) ∗ scopedRest (Ix := Unit) (Name := ℕ) (U := U) (Lvl := ℕ) (Val := Val) win c) := by
  unfold ΦA
  iintro ⟨Hr, Hp⟩
  isplitl [Hp]; · iexact Hp
  iexact Hr

end ClassInvariant

end Cert.LibRegionRecord

end
-- ==== Proof.KbRun.lean ====
import proofs.«429222_j11897059409948_3_alg».proof.Proof.KbRegionsV
import proofs.«429222_j11897059409948_3_alg».proof.Proof.KbR0
import proofs.«429222_j11897059409948_3_alg».proof.Proof.KbR1
import proofs.«429222_j11897059409948_3_alg».proof.Proof.KbR2
import proofs.«429222_j11897059409948_3_alg».proof.Proof.KbR3
import proofs.«429222_j11897059409948_3_alg».proof.Proof.KbR4
import proofs.«429222_j11897059409948_3_alg».proof.Proof.LibRegionRecord

/-!
  The five regions put together. The contents of the core's buffers at each boundary between two items of the
  program are built from the launch memory: a stretch of host operations applies them; a region leaves each of its
  output arrays at what its pipeline's write-backs leave (read off that region's proof data) and every other buffer
  as it found it. Each region is then a segment record between two such boundaries.
-/

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## The contents at each boundary -/

/-- After the first host stretch (region 0's entry). -/
abbrev U1 (c : Dev nD) : Valuation τ sig (Elt F) := V1 m c
/-- What region 0 leaves: its arrays at what its write-backs leave. -/
def o2 (r : Ref sig .tc) (c : Dev nD) : Buf (Elt F) ((c : Thread nD τ).loc r) :=
  Pipeline.withArrays spec0 c (U1 m c) (fun w => (R0.dat (atTc (U1 m)) c).arrAt w cfg0.N) r
abbrev U2 (c : Dev nD) : Valuation τ sig (Elt F) := Function.update (Function.update (U1 m c) main_v21_0 (o2 m main_v21_0 c)) main_v21_1 (o2 m main_v21_1 c)
abbrev U3 (c : Dev nD) : Valuation τ sig (Elt F) := StableHlo.after hostOps1 (U2 m c)
def o4 (r : Ref sig .tc) (c : Dev nD) : Buf (Elt F) ((c : Thread nD τ).loc r) :=
  Pipeline.withArrays spec1 c (U3 m c) (fun w => (R1.dat (atTc (U3 m)) c).arrAt w cfg1.N) r
abbrev U4 (c : Dev nD) : Valuation τ sig (Elt F) := Function.update (U3 m c) main_v32 (o4 m main_v32 c)
def o5 (r : Ref sig .tc) (c : Dev nD) : Buf (Elt F) ((c : Thread nD τ).loc r) :=
  Pipeline.withArrays spec2 c (U4 m c) (fun w => (R2.dat (atTc (U4 m)) c).arrAt w cfg2.N) r
abbrev U5 (c : Dev nD) : Valuation τ sig (Elt F) := Function.update (Function.update (U4 m c) main_v33_0 (o5 m main_v33_0 c)) main_v33_1 (o5 m main_v33_1 c)
abbrev U6 (c : Dev nD) : Valuation τ sig (Elt F) := StableHlo.after hostOps3 (U5 m c)
def o7 (r : Ref sig .tc) (c : Dev nD) : Buf (Elt F) ((c : Thread nD τ).loc r) :=
  Pipeline.withArrays spec3 c (U6 m c) (fun w => (R3.dat (atTc (U6 m)) c).arrAt w cfg3.N) r
abbrev U7 (c : Dev nD) : Valuation τ sig (Elt F) := Function.update (U6 m c) main_v44 (o7 m main_v44 c)
def o8 (r : Ref sig .tc) (c : Dev nD) : Buf (Elt F) ((c : Thread nD τ).loc r) :=
  Pipeline.withArrays spec4 c (U7 m c) (fun w => (R4.dat (atTc (U7 m)) c).arrAt w cfg4.N) r
abbrev U8 (c : Dev nD) : Valuation τ sig (Elt F) := Function.update (U7 m c) main_v45 (o8 m main_v45 c)

/-- What the regions leave, as the unknowns the generated boundary contents are written over. -/
def outs : Outs (F := F) := fun J r c =>
  match J with
  | 2 => o2 m r c
  | 4 => o4 m r c
  | 5 => o5 m r c
  | 7 => o7 m r c
  | 8 => o8 m r c
  | _ => V0 m c r

theorem V2_eq (c : Dev nD) : V2 m (outs m) c = U2 m c := rfl
theorem V3_eq (c : Dev nD) : V3 m (outs m) c = U3 m c := rfl
theorem V4_eq (c : Dev nD) : V4 m (outs m) c = U4 m c := rfl
theorem V5_eq (c : Dev nD) : V5 m (outs m) c = U5 m c := rfl
theorem V6_eq (c : Dev nD) : V6 m (outs m) c = U6 m c := rfl
theorem V7_eq (c : Dev nD) : V7 m (outs m) c = U7 m c := rfl
theorem V8_eq (c : Dev nD) : V8 m (outs m) c = U8 m c := rfl

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => R0.dat (atTc (U1 m)) c
  | ⟨1, _⟩ => fun c => R1.dat (atTc (U3 m)) c
  | ⟨2, _⟩ => fun c => R2.dat (atTc (U4 m)) c
  | ⟨3, _⟩ => fun c => R3.dat (atTc (U6 m)) c
  | ⟨4, _⟩ => fun c => R4.dat (atTc (U7 m)) c

abbrev 𝒱₀ : Variants := Variants.none
abbrev L : GSem nD τ sig → Finset Unit := fun _ => ∅
abbrev lv : GSem nD τ sig → Unit → ℕ := fun _ _ => 0

/-! ## Region 0: two output arrays -/

theorem o2_0 (c : Dev nD) : o2 m main_v21_0 c = (R0.dat (atTc (U1 m)) c).arrAt 5 cfg0.N :=
  Pipeline.withArrays_arr spec0 launch0.win.arr_inj c _ _ 5
theorem o2_1 (c : Dev nD) : o2 m main_v21_1 c = (R0.dat (atTc (U1 m)) c).arrAt 6 cfg0.N :=
  Pipeline.withArrays_arr spec0 launch0.win.arr_inj c _ _ 6

/-- At the region's exit each of its arrays holds what the pipeline leaves: an input array is never written and its
    buffer is none of the two outputs'; the outputs' by the two updates. -/
theorem hF0 (c : Dev nD) (w : Fin cfg0.W) : (R0.dat (atTc (U1 m)) c).arrAt w cfg0.N = U2 m c (Pipeline.arrRef spec0 w) := by
  have hin : ∀ w : Fin cfg0.W, (cfg0.win w).isOut = false → Pipeline.arrRef spec0 w ≠ main_v21_0 → Pipeline.arrRef spec0 w ≠ main_v21_1 →
      (R0.dat (atTc (U1 m)) c).arrAt w cfg0.N = U2 m c (Pipeline.arrRef spec0 w) := fun w hw h0 h1 => by
    rw [(R0.dat (atTc (U1 m)) c).arrAt_in w hw, R0.A_eq]
    exact ((Function.update_of_ne (StableHlo.devRef_ne_of_ne h1) _ _).trans (Function.update_of_ne (StableHlo.devRef_ne_of_ne h0) _ _)).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ =>
    show _ = Function.update (Function.update (U1 m c) main_v21_0 (o2 m main_v21_0 c)) main_v21_1 (o2 m main_v21_1 c) main_v21_0
    rw [Function.update_of_ne (StableHlo.devRef_ne_of_ne (by decide : (main_v21_0 : Ref sig .tc) ≠ main_v21_1)), Function.update_self]
    exact (o2_0 m c).symm
  | ⟨6, _⟩ =>
    show _ = Function.update (Function.update (U1 m c) main_v21_0 (o2 m main_v21_0 c)) main_v21_1 (o2 m main_v21_1 c) main_v21_1
    rw [Function.update_self]
    exact (o2_1 m c).symm

/-- and every buffer that is none of its arrays holds what it held. -/
theorem hrest0 (c : Dev nD) (b : Ref sig .tc) (hb : b ∉ Finset.univ.image (Pipeline.arrRef spec0)) : U2 m c b = U1 m c b :=
  (Function.update_of_ne (StableHlo.devRef_ne_of_ne fun e => hb (Finset.mem_image.mpr ⟨6, Finset.mem_univ _, e.symm⟩)) _ _).trans
    (Function.update_of_ne (StableHlo.devRef_ne_of_ne fun e => hb (Finset.mem_image.mpr ⟨5, Finset.mem_univ _, e.symm⟩)) _ _)

/-! ## Region 1: one output array -/

theorem o4_0 (c : Dev nD) : o4 m main_v32 c = (R1.dat (atTc (U3 m)) c).arrAt 3 cfg1.N :=
  Pipeline.withArrays_arr spec1 launch1.win.arr_inj c _ _ 3

theorem hF1 (c : Dev nD) (w : Fin cfg1.W) : (R1.dat (atTc (U3 m)) c).arrAt w cfg1.N = U4 m c (Pipeline.arrRef spec1 w) := by
  have hin : ∀ w : Fin cfg1.W, (cfg1.win w).isOut = false → Pipeline.arrRef spec1 w ≠ main_v32 →
      (R1.dat (atTc (U3 m)) c).arrAt w cfg1.N = U4 m c (Pipeline.arrRef spec1 w) := fun w hw h0 => by
    rw [(R1.dat (atTc (U3 m)) c).arrAt_in w hw, R1.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ =>
    show _ = Function.update (U3 m c) main_v32 (o4 m main_v32 c) main_v32
    rw [Function.update_self]
    exact (o4_0 m c).symm

theorem hrest1 (c : Dev nD) (b : Ref sig .tc) (hb : b ∉ Finset.univ.image (Pipeline.arrRef spec1)) : U4 m c b = U3 m c b :=
  Function.update_of_ne (StableHlo.devRef_ne_of_ne fun e => hb (Finset.mem_image.mpr ⟨3, Finset.mem_univ _, e.symm⟩)) _ _

/-! ## Region 2: two output arrays -/

theorem o5_0 (c : Dev nD) : o5 m main_v33_0 c = (R2.dat (atTc (U4 m)) c).arrAt 5 cfg2.N :=
  Pipeline.withArrays_arr spec2 launch2.win.arr_inj c _ _ 5
theorem o5_1 (c : Dev nD) : o5 m main_v33_1 c = (R2.dat (atTc (U4 m)) c).arrAt 6 cfg2.N :=
  Pipeline.withArrays_arr spec2 launch2.win.arr_inj c _ _ 6

/-- At the region's exit each of its arrays holds what the pipeline leaves: an input array is never written and its
    buffer is none of the two outputs'; the outputs' by the two updates. -/
theorem hF2 (c : Dev nD) (w : Fin cfg2.W) : (R2.dat (atTc (U4 m)) c).arrAt w cfg2.N = U5 m c (Pipeline.arrRef spec2 w) := by
  have hin : ∀ w : Fin cfg2.W, (cfg2.win w).isOut = false → Pipeline.arrRef spec2 w ≠ main_v33_0 → Pipeline.arrRef spec2 w ≠ main_v33_1 →
      (R2.dat (atTc (U4 m)) c).arrAt w cfg2.N = U5 m c (Pipeline.arrRef spec2 w) := fun w hw h0 h1 => by
    rw [(R2.dat (atTc (U4 m)) c).arrAt_in w hw, R2.A_eq]
    exact ((Function.update_of_ne (StableHlo.devRef_ne_of_ne h1) _ _).trans (Function.update_of_ne (StableHlo.devRef_ne_of_ne h0) _ _)).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ =>
    show _ = Function.update (Function.update (U4 m c) main_v33_0 (o5 m main_v33_0 c)) main_v33_1 (o5 m main_v33_1 c) main_v33_0
    rw [Function.update_of_ne (StableHlo.devRef_ne_of_ne (by decide : (main_v33_0 : Ref sig .tc) ≠ main_v33_1)), Function.update_self]
    exact (o5_0 m c).symm
  | ⟨6, _⟩ =>
    show _ = Function.update (Function.update (U4 m c) main_v33_0 (o5 m main_v33_0 c)) main_v33_1 (o5 m main_v33_1 c) main_v33_1
    rw [Function.update_self]
    exact (o5_1 m c).symm

/-- and every buffer that is none of its arrays holds what it held. -/
theorem hrest2 (c : Dev nD) (b : Ref sig .tc) (hb : b ∉ Finset.univ.image (Pipeline.arrRef spec2)) : U5 m c b = U4 m c b :=
  (Function.update_of_ne (StableHlo.devRef_ne_of_ne fun e => hb (Finset.mem_image.mpr ⟨6, Finset.mem_univ _, e.symm⟩)) _ _).trans
    (Function.update_of_ne (StableHlo.devRef_ne_of_ne fun e => hb (Finset.mem_image.mpr ⟨5, Finset.mem_univ _, e.symm⟩)) _ _)

/-! ## Region 3: one output array -/

theorem o7_0 (c : Dev nD) : o7 m main_v44 c = (R3.dat (atTc (U6 m)) c).arrAt 3 cfg3.N :=
  Pipeline.withArrays_arr spec3 launch3.win.arr_inj c _ _ 3

theorem hF3 (c : Dev nD) (w : Fin cfg3.W) : (R3.dat (atTc (U6 m)) c).arrAt w cfg3.N = U7 m c (Pipeline.arrRef spec3 w) := by
  have hin : ∀ w : Fin cfg3.W, (cfg3.win w).isOut = false → Pipeline.arrRef spec3 w ≠ main_v44 →
      (R3.dat (atTc (U6 m)) c).arrAt w cfg3.N = U7 m c (Pipeline.arrRef spec3 w) := fun w hw h0 => by
    rw [(R3.dat (atTc (U6 m)) c).arrAt_in w hw, R3.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ =>
    show _ = Function.update (U6 m c) main_v44 (o7 m main_v44 c) main_v44
    rw [Function.update_self]
    exact (o7_0 m c).symm

theorem hrest3 (c : Dev nD) (b : Ref sig .tc) (hb : b ∉ Finset.univ.image (Pipeline.arrRef spec3)) : U7 m c b = U6 m c b :=
  Function.update_of_ne (StableHlo.devRef_ne_of_ne fun e => hb (Finset.mem_image.mpr ⟨3, Finset.mem_univ _, e.symm⟩)) _ _

/-! ## Region 4: one output array -/

theorem o8_0 (c : Dev nD) : o8 m main_v45 c = (R4.dat (atTc (U7 m)) c).arrAt 4 cfg4.N :=
  Pipeline.withArrays_arr spec4 launch4.win.arr_inj c _ _ 4

theorem hF4 (c : Dev nD) (w : Fin cfg4.W) : (R4.dat (atTc (U7 m)) c).arrAt w cfg4.N = U8 m c (Pipeline.arrRef spec4 w) := by
  have hin : ∀ w : Fin cfg4.W, (cfg4.win w).isOut = false → Pipeline.arrRef spec4 w ≠ main_v45 →
      (R4.dat (atTc (U7 m)) c).arrAt w cfg4.N = U8 m c (Pipeline.arrRef spec4 w) := fun w hw h0 => by
    rw [(R4.dat (atTc (U7 m)) c).arrAt_in w hw, R4.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show _ = Function.update (U7 m c) main_v45 (o8 m main_v45 c) main_v45
    rw [Function.update_self]
    exact (o8_0 m c).symm

theorem hrest4 (c : Dev nD) (b : Ref sig .tc) (hb : b ∉ Finset.univ.image (Pipeline.arrRef spec4)) : U8 m c b = U7 m c b :=
  Function.update_of_ne (StableHlo.devRef_ne_of_ne fun e => hb (Finset.mem_image.mpr ⟨4, Finset.mem_univ _, e.symm⟩)) _ _

set_option backward.isDefEq.respectTransparency.types false in
/-- Region 0 as a segment between its two boundaries. -/
def reg0 : RegionSeg (pcfgs (F := F)) adm (pdats m) () defs₀ 𝒱₀ L lv 0 :=
  LibRegionRecord.regionRecord (pcfgs (F := F)) adm (pdats m) () defs₀ 𝒱₀ L lv 0
    launch0.win.to₀ launch0.win launch0.block_pos launch0.arr_whole launch0.stage_whole ⟨fun k => k.elim0⟩
    (fun _ _ => rfl) (fun _ _ => rfl) (fun _ => rfl)
    (fun c => R0.body_obligation (atTc (U1 m)) c)
    (fun c => U1 m c) (fun c => U2 m c)
    (fun c w => R0.A_eq (atTc (U1 m)) c w) (hF0 m) (hrest0 m)
    (fun c => LibRegionRecord.ΦA_in spec0 c) (fun c => LibRegionRecord.ΦA_out spec0 c)

set_option backward.isDefEq.respectTransparency.types false in
/-- Region 1 as a segment between its two boundaries. -/
def reg1 : RegionSeg (pcfgs (F := F)) adm (pdats m) () defs₀ 𝒱₀ L lv 1 :=
  LibRegionRecord.regionRecord (pcfgs (F := F)) adm (pdats m) () defs₀ 𝒱₀ L lv 1
    launch1.win.to₀ launch1.win launch1.block_pos launch1.arr_whole launch1.stage_whole ⟨fun k => k.elim0⟩
    (fun _ _ => rfl) (fun _ _ => rfl) (fun _ => rfl)
    (fun c => R1.body_obligation (atTc (U3 m)) c)
    (fun c => U3 m c) (fun c => U4 m c)
    (fun c w => R1.A_eq (atTc (U3 m)) c w) (hF1 m) (hrest1 m)
    (fun c => LibRegionRecord.ΦA_in spec1 c) (fun c => LibRegionRecord.ΦA_out spec1 c)

set_option backward.isDefEq.respectTransparency.types false in
/-- Region 2 as a segment between its two boundaries. -/
def reg2 : RegionSeg (pcfgs (F := F)) adm (pdats m) () defs₀ 𝒱₀ L lv 2 :=
  LibRegionRecord.regionRecord (pcfgs (F := F)) adm (pdats m) () defs₀ 𝒱₀ L lv 2
    launch2.win.to₀ launch2.win launch2.block_pos launch2.arr_whole launch2.stage_whole ⟨fun k => k.elim0⟩
    (fun _ _ => rfl) (fun _ _ => rfl) (fun _ => rfl)
    (fun c => R2.body_obligation (atTc (U4 m)) c)
    (fun c => U4 m c) (fun c => U5 m c)
    (fun c w => R2.A_eq (atTc (U4 m)) c w) (hF2 m) (hrest2 m)
    (fun c => LibRegionRecord.ΦA_in spec2 c) (fun c => LibRegionRecord.ΦA_out spec2 c)

set_option backward.isDefEq.respectTransparency.types false in
/-- Region 3 as a segment between its two boundaries. -/
def reg3 : RegionSeg (pcfgs (F := F)) adm (pdats m) () defs₀ 𝒱₀ L lv 3 :=
  LibRegionRecord.regionRecord (pcfgs (F := F)) adm (pdats m) () defs₀ 𝒱₀ L lv 3
    launch3.win.to₀ launch3.win launch3.block_pos launch3.arr_whole launch3.stage_whole ⟨fun k => k.elim0⟩
    (fun _ _ => rfl) (fun _ _ => rfl) (fun _ => rfl)
    (fun c => R3.body_obligation (atTc (U6 m)) c)
    (fun c => U6 m c) (fun c => U7 m c)
    (fun c w => R3.A_eq (atTc (U6 m)) c w) (hF3 m) (hrest3 m)
    (fun c => LibRegionRecord.ΦA_in spec3 c) (fun c => LibRegionRecord.ΦA_out spec3 c)

set_option backward.isDefEq.respectTransparency.types false in
/-- Region 4 as a segment between its two boundaries: its invariant is entered from the class's and gives it back. -/
def reg4 : RegionSeg (pcfgs (F := F)) adm (pdats m) () defs₀ 𝒱₀ L lv 4 :=
  LibRegionRecord.regionRecord (pcfgs (F := F)) adm (pdats m) () defs₀ 𝒱₀ L lv 4
    launch4.win.to₀ launch4.win launch4.block_pos launch4.arr_whole launch4.stage_whole ⟨fun k => k.elim0⟩
    (fun _ _ => rfl) (fun _ _ => rfl) (fun _ => rfl)
    (fun c => R4.body_obligation (atTc (U7 m)) c)
    (fun c => U7 m c) (fun c => U8 m c)
    (fun c w => R4.A_eq (atTc (U7 m)) c w) (hF4 m) (hrest4 m)
    (fun c => (LibRegionRecord.ΦA_in spec4 c).trans (R4.Phi_in (atTc (U7 m)) c))
    (fun c => (R4.Phi_out (atTc (U7 m)) c).trans (LibRegionRecord.ΦA_out spec4 c))

/-! ## The launch -/

/-- What rides beside the buffers between two items: the generator register at some state, nothing owed. -/
abbrev rest (c : Dev nD) : sProp 𝕄 := LibRegionRecord.rest (Ix := Unit) (Name := ℕ) (U := UR sig nD τ) (Lvl := ℕ) (Val := Elt F) (τ := τ) (sig := sig) c

set_option backward.isDefEq.respectTransparency.types false in
/-- Every weakly fair execution of the program from the memory m with zero counters terminates, and every final
    memory holds the result at the last boundary's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v45) = V8 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => rest c) : sProp 𝕄) := by
        have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ rest c := fun c => by
          iintro ⟨-, HO, -, Hp, -⟩
          isplitl [Hp]; · iexists _; iexact Hp
          iexists ∅; iexact HO
        exact bigSep_mono fun c _ => hc c
      iintro ⟨H, -⟩
      ihave H' := hmono $$ H
      imodintro
      iexact H')
    (hE5 := fun c => by
      iintro ⟨-, HO⟩
      iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)
    (R4 := reg4 m) (hpre4 := fun c => .rfl) (hpost4 := fun c => .rfl)

/-- The result the program ends with is what the last pipeline's write-backs leave in its output array. -/
theorem result_eq (c : Dev nD) : V8 m (outs m) c main_v45 = (R4.dat (atTc (U7 m)) c).arrAt 4 cfg4.N :=
  (Function.update_self _ _ _).trans (o8_0 m c)

/-- The frame: the program runs to the end and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Run

end
-- ==== Proof.KiR0.lean ====
import proofs.«429222_j11897059409948_3_alg».proof.Proof.Gen.KernelIdeal.Launch
import proofs.«429222_j11897059409948_3_alg».proof.Proof.Gen.KernelIdeal.Skeleton
import proofs.«429222_j11897059409948_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node-transform region (pipeline 0): at every grid point the body reads one 2000 x 64 block of the features,
  the whole 64 x 64 weight, the 1 x 64 bias row and the 2000 x 1 blocks of the two degree scales, and stores two
  2000 x 64 blocks: the product scaled for the propagation, and the self-loop term with the bias.
  Stated at a parameter V, the contents of the core's buffers when the region is entered: the block each window
  holds at a point, what the body leaves in the two output buffers, the body's triple, the proof data and the body
  obligation at every point.
-/

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole rectangle of each buffer: every access of the body goes through one of them. -/
abbrev rBig : Rect S2000x64 := Rect.unit (s := S2000x64) ![0, 0] S2000x64.size inb_S2000x64_S2000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0
abbrev rCol : Rect S2000x1 := Rect.unit (s := S2000x1) ![0, 0] S2000x1.size inb_S2000x1_S2000x1_0_0

/-- What the body leaves in the first output buffer: its one store, the product scaled by the fifth window's column. -/
def out5 (x0 : Vec F S2000x64 .f32) (x1 : Vec F S64x64 .f32) (x4 : Vec F S2000x1 .f32) : Vec F S2000x64 .f32 :=
  View.canon [⟨rBig, k0_pay2 (View.ld x0 rBig) (View.ld x1 rW) (View.ld x4 rCol)⟩]

/-- What the body leaves in the second output buffer: its one store, the product scaled by the fourth window's column
    plus the bias row. -/
def out6 (x0 : Vec F S2000x64 .f32) (x1 : Vec F S64x64 .f32) (x2 : Vec F S1x64 .f32) (x3 : Vec F S2000x1 .f32) : Vec F S2000x64 .f32 :=
  View.canon [⟨rBig, k0_pay3 (View.ld x0 rBig) (View.ld x1 rW) (View.ld x3 rCol) (View.ld x2 rRow)⟩]

/-- One store through the whole rectangle covers the buffer. -/
theorem coverBig (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 2000000 in
/-- The body on whole staging buffers, the inputs at x0 … x4 and the outputs at anything, runs to the end holding the
    inputs as they were and the outputs at out5 and out6 of them. -/
theorem sound_kernel (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x64 .f32) (x2 : Vec F S1x64 .f32) (x3 x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x4) ∗ owns (c : Thread nD τ) arg7 fullShare (out6 x0 x1 x2 x3)) -∗ K ⟨⟩))
      ⊢ wp frame (wpE (defs₀ (F := F)) Variants.none c none) E (cc0__node_transform_kernel i arg1 harg1 arg2 harg2 arg3 harg3 arg4 harg4 arg5 harg5 arg6 harg6 arg7 harg7) K := by
  simp only [cc0__node_transform_kernel_eq_skeleton]; unfold cc0__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBig _)
  iexists _; isplitr
  swap; · iexact H6
  ipureintro
  exact View.read_writes_eq_canon _ _ _ (coverBig _)

/-- The proof data of the pipeline on core c: the arrays as the region finds them; after the body at point t each
    input buffer at its block and the output buffers at out5 and out6 of the blocks; the invariant is the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 4 t)
    | ⟨6, _⟩ => out6 (iblk V c 0 t) (iblk V c 1 t) (iblk V c 2 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) :
    (dat V c).after 5 t = out5 (iblk V c 0 t) (iblk V c 1 t) (iblk V c 4 t) := by dsimp only [dat]
theorem after6 (c : Dev nD) (t : Fin cfg0.N) :
    (dat V c).after 6 t = out6 (iblk V c 0 t) (iblk V c 1 t) (iblk V c 2 t) (iblk V c 3 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the triple applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KiR1.lean ====
import proofs.«429222_j11897059409948_3_alg».proof.Proof.Gen.KernelIdeal.Launch
import proofs.«429222_j11897059409948_3_alg».proof.Proof.Gen.KernelIdeal.Skeleton
import proofs.«429222_j11897059409948_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The combine region (pipeline 1): at every grid point the body reads one 2000 x 64 block of the aggregate, the
  matching block of the self term and the 2000 x 1 block of the degree scale, and stores one 2000 x 64 block.
  Stated at a parameter V, the contents of the core's buffers when the region is entered: the block each window
  holds at a point, what the body leaves in the output buffer, the body's triple, the proof data and the body
  obligation at every point.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: every point fetches it. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 2000 x 64 rectangle and the whole 2000 x 1 rectangle: every access of the body goes through one of them. -/
abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0

/-- What the body leaves in the output buffer: its one store, of the payload of the three loaded blocks. -/
def out3 (x0 x1 : Vec F S2000x64 .f32) (x2 : Vec F S2000x1 .f32) : Vec F S2000x64 .f32 :=
  View.canon [⟨rBig, k1_pay1 (View.ld x0 rBig) (View.ld x2 rCol) (View.ld x1 rBig)⟩]

/-- The one store covers the buffer. -/
theorem cover3 (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 1000000 in
/-- The body on whole staging buffers, the inputs at x0, x1, x2 and the output at anything, runs to the end holding the
    inputs as they were and the output at out3 of them. -/
theorem sound_kernel (c : Dev nD) (E : Set ℕ) (i : grid1.Coords)
    (arg1 : Memref sig .tc .vmem S2000x64 .f32) (harg1 : arg1.IsWhole) (arg2 : Memref sig .tc .vmem S2000x64 .f32) (harg2 : arg2.IsWhole)
    (arg3 : Memref sig .tc .vmem S2000x1 .f32) (harg3 : arg3.IsWhole) (arg4 : Memref sig .tc .vmem S2000x64 .f32) (harg4 : arg4.IsWhole)
    (x0 x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc1__combine_kernel_relu i arg1 harg1 arg2 harg2 arg3 harg3 arg4 harg4) K := by
  simp only [cc1__combine_kernel_relu_eq_skeleton]; unfold cc1__combine_kernel_relu_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the pipeline on core c: the arrays as the region finds them; after the body at point t each
    input buffer at its block and the output buffer at out3 of the three blocks; the invariant is the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) :
    (dat V c).after 3 t = out3 (iblk V c 0 t) (iblk V c 1 t) (iblk V c 2 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the input buffers hold their blocks, so the triple applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KiR2.lean ====
import proofs.«429222_j11897059409948_3_alg».proof.Proof.Gen.KernelIdeal.Launch
import proofs.«429222_j11897059409948_3_alg».proof.Proof.Gen.KernelIdeal.Skeleton
import proofs.«429222_j11897059409948_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node-transform region (pipeline 2): at every grid point the body reads one 2000 x 64 block of the features,
  the whole 64 x 64 weight, the 1 x 64 bias row and the 2000 x 1 blocks of the two degree scales, and stores two
  2000 x 64 blocks: the product scaled for the propagation, and the self-loop term with the bias.
  Stated at a parameter V, the contents of the core's buffers when the region is entered: the block each window
  holds at a point, what the body leaves in the two output buffers, the body's triple, the proof data and the body
  obligation at every point.
-/

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole rectangle of each buffer: every access of the body goes through one of them. -/
abbrev rBig : Rect S2000x64 := Rect.unit (s := S2000x64) ![0, 0] S2000x64.size inb_S2000x64_S2000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0
abbrev rCol : Rect S2000x1 := Rect.unit (s := S2000x1) ![0, 0] S2000x1.size inb_S2000x1_S2000x1_0_0

/-- What the body leaves in the first output buffer: its one store, the product scaled by the fifth window's column. -/
def out5 (x0 : Vec F S2000x64 .f32) (x1 : Vec F S64x64 .f32) (x4 : Vec F S2000x1 .f32) : Vec F S2000x64 .f32 :=
  View.canon [⟨rBig, k2_pay2 (View.ld x0 rBig) (View.ld x1 rW) (View.ld x4 rCol)⟩]

/-- What the body leaves in the second output buffer: its one store, the product scaled by the fourth window's column
    plus the bias row. -/
def out6 (x0 : Vec F S2000x64 .f32) (x1 : Vec F S64x64 .f32) (x2 : Vec F S1x64 .f32) (x3 : Vec F S2000x1 .f32) : Vec F S2000x64 .f32 :=
  View.canon [⟨rBig, k2_pay3 (View.ld x0 rBig) (View.ld x1 rW) (View.ld x3 rCol) (View.ld x2 rRow)⟩]

/-- One store through the whole rectangle covers the buffer. -/
theorem coverBig (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 2000000 in
/-- The body on whole staging buffers, the inputs at x0 … x4 and the outputs at anything, runs to the end holding the
    inputs as they were and the outputs at out5 and out6 of them. -/
theorem sound_kernel (c : Dev nD) (E : Set ℕ) (i : grid2.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 : Vec F S2000x64 .f32) (x1 : Vec F S64x64 .f32) (x2 : Vec F S1x64 .f32) (x3 x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x4) ∗ owns (c : Thread nD τ) arg7 fullShare (out6 x0 x1 x2 x3)) -∗ K ⟨⟩))
      ⊢ wp frame (wpE (defs₀ (F := F)) Variants.none c none) E (cc2__node_transform_kernel i arg1 harg1 arg2 harg2 arg3 harg3 arg4 harg4 arg5 harg5 arg6 harg6 arg7 harg7) K := by
  simp only [cc2__node_transform_kernel_eq_skeleton]; unfold cc2__node_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverBig _)
  iexists _; isplitr
  swap; · iexact H6
  ipureintro
  exact View.read_writes_eq_canon _ _ _ (coverBig _)

/-- The proof data of the pipeline on core c: the arrays as the region finds them; after the body at point t each
    input buffer at its block and the output buffers at out5 and out6 of the blocks; the invariant is the scoped rest
    and the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 4 t)
    | ⟨6, _⟩ => out6 (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) :
    (dat V c).after 5 t = out5 (iblk V c 0 t) (iblk V c 1 t) (iblk V c 4 t) := by dsimp only [dat]
theorem after6 (c : Dev nD) (t : Fin cfg2.N) :
    (dat V c).after 6 t = out6 (iblk V c 0 t) (iblk V c 1 t) (iblk V c 2 t) (iblk V c 3 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the input buffers hold their blocks, so the triple applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KiR3.lean ====
import proofs.«429222_j11897059409948_3_alg».proof.Proof.Gen.KernelIdeal.Launch
import proofs.«429222_j11897059409948_3_alg».proof.Proof.Gen.KernelIdeal.Skeleton
import proofs.«429222_j11897059409948_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The combine region (pipeline 3): at every grid point the body reads one 2000 x 64 block of the aggregate, the
  matching block of the self term and the 2000 x 1 block of the degree scale, and stores one 2000 x 64 block.
  Stated at a parameter V, the contents of the core's buffers when the region is entered: the block each window
  holds at a point, what the body leaves in the output buffer, the body's triple, the proof data and the body
  obligation at every point.
-/

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: every point fetches it. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole 2000 x 64 rectangle and the whole 2000 x 1 rectangle: every access of the body goes through one of them. -/
abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0

/-- What the body leaves in the output buffer: its one store, of the payload of the three loaded blocks. -/
def out3 (x0 x1 : Vec F S2000x64 .f32) (x2 : Vec F S2000x1 .f32) : Vec F S2000x64 .f32 :=
  View.canon [⟨rBig, k3_pay1 (View.ld x0 rBig) (View.ld x2 rCol) (View.ld x1 rBig)⟩]

/-- The one store covers the buffer. -/
theorem cover3 (p0 : Vec F S2000x64 .f32) (y : S2000x64.Idx) :
    ∃ pc ∈ ([⟨rBig, p0⟩] : List (View.Piece (Elt F) S2000x64 .f32)), y ∈ pc.1.set :=
  View.cover_of_tiled [⟨rBig, p0⟩] S2000x64.size (by rfl) y

set_option maxHeartbeats 1000000 in
/-- The body on whole staging buffers, the inputs at x0, x1, x2 and the output at anything, runs to the end holding the
    inputs as they were and the output at out3 of them. -/
theorem sound_kernel (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S2000x1 .f32) (harg3 : arg3.IsWhole) (arg4 : Memref sig .tc .vmem S2000x64 .f32) (harg4 : arg4.IsWhole)
    (x0 x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__combine_kernel_norelu i arg1 harg1 arg2 harg2 arg3 harg3 arg4 harg4) K := by
  simp only [cc3__combine_kernel_norelu_eq_skeleton]; unfold cc3__combine_kernel_norelu_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The proof data of the pipeline on core c: the arrays as the region finds them; after the body at point t each
    input buffer at its block and the output buffer at out3 of the three blocks; the invariant is the scoped rest
    and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := by
  dsimp only [dat]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) :
    (dat V c).after 3 t = out3 (iblk V c 0 t) (iblk V c 1 t) (iblk V c 2 t) := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d

/-- What the body is called with at point t, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

/-- The body at any point: the input buffers hold their blocks, so the triple applies; the invariant and what the core
    owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W3, bigSep_W3]
  exact sound_body V c t

end Cert.KernelIdeal.R3

end
-- ==== Proof.KiR4.lean ====
import proofs.«429222_j11897059409948_3_alg».proof.Proof.Gen.KernelIdeal.Launch
import proofs.«429222_j11897059409948_3_alg».proof.Proof.Gen.KernelIdeal.Skeleton
import proofs.«429222_j11897059409948_3_alg».proof.Proof.Gen.KernelIdeal.Points
import proofs.«429222_j11897059409948_3_alg».proof.Proof.LibReadNewest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The pooling region (pipeline 4): at every grid point the body reads one 2000 x 64 block of the node features and
  the 2000 x 1 block of graph ids, and adds into two accumulators kept in scratch between the points (per graph, the
  sum of its nodes' rows and the number of its nodes), which the first point resets; the last point divides, applies
  the linear layer and the softmax and stores the 64 x 3 result, the only block of the output that is written back.
  Stated at a parameter V, the contents of the core's buffers when the region is entered.
-/

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The two branch conditions of the body, from the grid coordinates. -/
abbrev cond1 (i : grid4.Coords) : Prop := (Scalar.cmpi .ne (Scalar.extui (Scalar.cmpi .eq (BitVec.ofNat 32 (i 0).val) 0#32)) 0#32) = 1#1
theorem hcond1 : ∀ t : Fin cfg4.N, cond1 (grid4.coords t) ↔ t.val = 0 :=
  (by decide +kernel : ∀ t : Fin grid4.N, cond1 (grid4.coords t) ↔ t.val = 0)
abbrev cond2 (i : grid4.Coords) : Prop := k4_cond2 i = 1#1
theorem hcond2 : ∀ t : Fin cfg4.N, cond2 (grid4.coords t) ↔ t.val = 49 :=
  (by decide +kernel : ∀ t : Fin grid4.N, cond2 (grid4.coords t) ↔ t.val = 49)

theorem liveAt (w : Fin 4) : ∀ t : Fin cfg4.N, cfg4.idle (w.castSucc) (grid4.coords t) = false := by
  revert w; decide +kernel
theorem idleAt4 : ∀ t : Fin cfg4.N, ¬cond2 (grid4.coords t) → cfg4.idle 4 (grid4.coords t) = true := by decide +kernel
theorem noFlush4 : ∀ t : Fin cfg4.N, ¬cond2 (grid4.coords t) → (cfg4.win 4).flush t = false := by decide +kernel
theorem liveAt4 : ∀ t : Fin cfg4.N, cond2 (grid4.coords t) → cfg4.idle 4 (grid4.coords t) = false := by decide +kernel

abbrev rBig : Rect S2000x64 := Rect.unit (s := S2000x64) ![0, 0] S2000x64.size inb_S2000x64_S2000x64_0_0
abbrev rCol : Rect S2000x1 := Rect.unit (s := S2000x1) ![0, 0] S2000x1.size inb_S2000x1_S2000x1_0_0
abbrev rAcc : Rect S64x64 := Rect.unit (s := S64x64) ![0, 0] S64x64.size inb_S64x64_S64x64_0_0
abbrev rCnt : Rect S64x1 := Rect.unit (s := S64x1) ![0, 0] S64x1.size inb_S64x1_S64x1_0_0
abbrev rWl : Rect S64x3 := Rect.unit (s := S64x3) ![0, 0] S64x3.size inb_S64x3_S64x3_0_0
abbrev rBl : Rect S1x3 := Rect.unit (s := S1x3) ![0, 0] S1x3.size inb_S1x3_S1x3_0_0

/-- The two scratch accumulators, whole scoped buffers of the kernel's own. -/
abbrev scM0 : Memref sig .tc .vmem S64x64 .f32 := Memref.whole cc4_scratch0
abbrev scM1 : Memref sig .tc .vmem S64x1 .f32 := Memref.whole cc4_scratch1

theorem hz2 : (![0, 0] : Fin 2 → ℕ) = fun _ => 0 := by funext a; fin_cases a <;> rfl

/-- What a point after the first leaves in the two accumulators, from the point's feature block x0, its graph-id
    block x1 and what the accumulators held (s0, s1); at the first point they are reset first (the zero payloads). -/
def accB (x0 : Vec F S2000x64 .f32) (x1 : Vec F S2000x1 .i32) (s0 : Vec F S64x64 .f32) : Vec F S64x64 .f32 :=
  k4_pay4 (View.ld x1 rCol) (View.ld x0 rBig) (View.ld s0 rAcc)
def cntB (x1 : Vec F S2000x1 .i32) (s1 : Vec F S64x1 .f32) : Vec F S64x1 .f32 :=
  k4_pay5 (View.ld x1 rCol) (View.ld s1 rCnt)
def accA (x0 : Vec F S2000x64 .f32) (x1 : Vec F S2000x1 .i32) : Vec F S64x64 .f32 :=
  k4_pay4 (View.ld x1 rCol) (View.ld x0 rBig) (k4_pay1 (F := F))
def cntA (x1 : Vec F S2000x1 .i32) : Vec F S64x1 .f32 :=
  k4_pay5 (View.ld x1 rCol) (k4_pay2 (F := F))
/-- What the last point stores in the output buffer, from the accumulators as the point leaves them (a0, a1), the
    weight block x2 and the bias block x3. -/
def outC (a0 : Vec F S64x64 .f32) (a1 : Vec F S64x1 .f32) (x2 : Vec F S64x3 .f32) (x3 : Vec F S1x3 .f32) : Vec F S64x3 .f32 :=
  k4_pay6 a0 a1 (View.ld x2 rWl) (View.ld x3 rBl)

/-- A buffer whose newest store went through the whole rectangle reads back that store's payload. -/
theorem read_newest {Val : EltTy → Type} [∀ e, Nonempty (Val e)] {κ : Kind} {sp : Space} {S : Shape} {e : EltTy}
    (v : View sig κ sp S e) {off : Fin S.rank → Nat} (h : off = fun _ => 0)
    (inb : ∀ a, off a + S.size a ≤ S.size a) (f) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩),
    View.canon_cons_unit_zero rfl]

set_option maxHeartbeats 2000000 in
/-- A point that is neither the first nor the last: the accumulators are added into; the output buffer is untouched. -/
theorem sound_kernelB (c : Dev nD) (E : Set ℕ) (i : grid4.Coords) (hc1 : ¬cond1 i) (hc2 : ¬cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32) (x4 : Vec F S64x3 .f32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (accB x0 x1 s0) ∗ owns (c : Thread nD τ) arg7 fullShare (cntB x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_newest _ hz2 _ _ _ _).trans rfl
  iexists _; isplitr
  swap; · iexact H6
  ipureintro
  exact (read_newest _ hz2 _ _ _ _).trans rfl

set_option maxHeartbeats 2000000 in
/-- The first point: the accumulators are reset, then added into; the output buffer is untouched. -/
theorem sound_kernelA (c : Dev nD) (E : Set ℕ) (i : grid4.Coords) (hc1 : cond1 i) (hc2 : ¬cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32) (x4 : Vec F S64x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (accA x0 x1) ∗ owns (c : Thread nD τ) arg7 fullShare (cntA x1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [ReadNewest.readCov_cons_unit_zero _ hz2]
    exact (read_newest _ hz2 _ _ _ _).trans rfl
  iexists _; isplitr
  swap; · iexact H6
  ipureintro
  sl_unfold_words
  rw [ReadNewest.readCov_cons_unit_zero _ hz2]
  exact (read_newest _ hz2 _ _ _ _).trans rfl

set_option maxHeartbeats 2000000 in
/-- The last point: the accumulators are added into, then read back and the result stored in the output buffer. -/
theorem sound_kernelC (c : Dev nD) (E : Set ℕ) (i : grid4.Coords) (hc1 : ¬cond1 i) (hc2 : cond2 i)
    (arg1 : Memref sig .tc .vmem S2000x64 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S1x3 .f32) (harg4 : arg4.IsWhole)
    (arg5 : Memref sig .tc .vmem S64x3 .f32) (harg5 : arg5.IsWhole) (arg6 : Memref sig .tc .vmem S64x64 .f32) (harg6 : arg6.IsWhole)
    (arg7 : Memref sig .tc .vmem S64x1 .f32) (harg7 : arg7.IsWhole)
    (x0 : Vec F S2000x64 .f32) (x1 : Vec F S2000x1 .i32) (x2 : Vec F S64x3 .f32) (x3 : Vec F S1x3 .f32)
    (s0 : Vec F S64x64 .f32) (s1 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outC (accB x0 x1 s0) (cntB x1 s1) x2 x3)
            ∗ owns (c : Thread nD τ) arg6 fullShare (accB x0 x1 s0) ∗ owns (c : Thread nD τ) arg7 fullShare (cntB x1 s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [ReadNewest.readCov_cons_unit_zero _ hz2, ReadNewest.readCov_cons_unit_zero _ hz2]
    exact (read_newest _ hz2 _ _ _ _).trans rfl
  isplitl [H5]
  · iexists _; isplitr
    swap; · iexact H5
    ipureintro
    sl_unfold_words
    exact (read_newest _ hz2 _ _ _ _).trans rfl
  iexists _; isplitr
  swap; · iexact H6
  ipureintro
  sl_unfold_words
  exact (read_newest _ hz2 _ _ _ _).trans rfl

/-! ## The accumulators after each point, the invariant and the proof data -/

/-- What the two accumulators hold after point n: reset and added into at the first point, added into afterwards. -/
def accAt (c : Dev nD) : (n : ℕ) → n < cfg4.N → Vec F S64x64 .f32 × Vec F S64x1 .f32
  | 0, h => (accA (iblk V c 0 ⟨0, h⟩) (iblk V c 1 ⟨0, h⟩), cntA (iblk V c 1 ⟨0, h⟩))
  | n + 1, h => (accB (iblk V c 0 ⟨n + 1, h⟩) (iblk V c 1 ⟨n + 1, h⟩) (accAt c n (Nat.lt_of_succ_lt h)).1,
      cntB (iblk V c 1 ⟨n + 1, h⟩) (accAt c n (Nat.lt_of_succ_lt h)).2)

theorem accAt_zero (c : Dev nD) (t : Fin cfg4.N) (h0 : t.val = 0) :
    accAt V c t.val t.isLt = (accA (iblk V c 0 t) (iblk V c 1 t), cntA (iblk V c 1 t)) := by
  obtain ⟨n, hn⟩ := t
  cases n with
  | zero => rfl
  | succ n => exact absurd h0 (Nat.succ_ne_zero n)

theorem accAt_pos (c : Dev nD) (t : Fin cfg4.N) (h0 : t.val ≠ 0) :
    accAt V c t.val t.isLt = (accB (iblk V c 0 t) (iblk V c 1 t) (accAt V c (t.val - 1) (Nat.lt_of_le_of_lt (Nat.sub_le _ _) t.isLt)).1,
      cntB (iblk V c 1 t) (accAt V c (t.val - 1) (Nat.lt_of_le_of_lt (Nat.sub_le _ _) t.isLt)).2) := by
  obtain ⟨n, hn⟩ := t
  cases n with
  | zero => exact absurd rfl h0
  | succ n => rfl

/-- The class invariant with the two accumulators split out of the scoped rest. -/
theorem PhiA_eq (c : Dev nD) :
    (Pipeline.ΦA spec4 c : sProp 𝕄)
      = iprop(iprop(iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM0, scM1, owns_whole]; try rfl

/-- The region's invariant before position n: before the first point the class's (the accumulators at anything);
    afterwards the accumulators at what the point before left, the rest of the scoped buffers and the generator register. -/
def Phi (c : Dev nD) : (n : ℕ) → n ≤ cfg4.N → sProp 𝕄
  | 0, _ => Pipeline.ΦA spec4 c
  | n + 1, hn => iprop(iprop(iprop(owns (c : Thread nD τ) scM0 fullShare (accAt V c n hn).1 ∗ owns (c : Thread nD τ) scM1 fullShare (accAt V c n hn).2)
      ∗ Pipeline.scopedRestBut (Ix := Unit) (Name := ℕ) (U := UR sig nD τ) (Lvl := ℕ) (Val := Elt F) spec4 c [cc4_scratch0, cc4_scratch1])
      ∗ (∃ r, prngReg c r))

theorem Phi_zero (c : Dev nD) (n : ℕ) (h : n ≤ cfg4.N) (hz : n = 0) : Phi V c n h = Pipeline.ΦA spec4 c := by
  subst hz; rfl
theorem Phi_succ (c : Dev nD) (n : ℕ) (hn : n < cfg4.N) :
    Phi V c (n + 1) hn = iprop(iprop(iprop(owns (c : Thread nD τ) scM0 fullShare (accAt V c n hn).1 ∗ owns (c : Thread nD τ) scM1 fullShare (accAt V c n hn).2)
      ∗ Pipeline.scopedRestBut (Ix := Unit) (Name := ℕ) (U := UR sig nD τ) (Lvl := ℕ) (Val := Elt F) spec4 c [cc4_scratch0, cc4_scratch1])
      ∗ (∃ r, prngReg c r)) := rfl
theorem Phi_pos (c : Dev nD) (n : ℕ) (h : n ≤ cfg4.N) (hz : n ≠ 0) :
    Phi V c n h = iprop(iprop(iprop(owns (c : Thread nD τ) scM0 fullShare (accAt V c (n - 1) (by omega)).1 ∗ owns (c : Thread nD τ) scM1 fullShare (accAt V c (n - 1) (by omega)).2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The proof data of the pipeline on core c: the arrays as the region finds them; after the body at point t each
    input buffer at its block, and the output buffer at the result computed from the accumulators as the point leaves
    them (only the last point stores it and only there is it written back); the invariant tracks the accumulators. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => outC (accAt V c t.val t.isLt).1 (accAt V c t.val t.isLt).2 (iblk V c 2 t) (iblk V c 3 t)
  Φ t := Phi V c t.val (Nat.le_of_lt_succ t.isLt)
  q _ := fullShare
  owed _ := 0

theorem A_eq (c : Dev nD) (w : Fin cfg4.W) : (dat V c).A w = V c (Pipeline.arrRef spec4 w) := by
  dsimp only [dat]

theorem Phi_castSucc (c : Dev nD) (t : Fin cfg4.N) :
    (dat V c).Φ t.castSucc = Phi V c t.val (Nat.le_of_lt t.isLt) := by
  dsimp only [dat]; simp only [Fin.coe_castSucc]

theorem after0 (c : Dev nD) (t : Fin cfg4.N) : (dat V c).after 0 t = iblk V c 0 t := by dsimp only [dat]
theorem after1 (c : Dev nD) (t : Fin cfg4.N) : (dat V c).after 1 t = iblk V c 1 t := by dsimp only [dat]
theorem after2 (c : Dev nD) (t : Fin cfg4.N) : (dat V c).after 2 t = iblk V c 2 t := by dsimp only [dat]
theorem after3 (c : Dev nD) (t : Fin cfg4.N) : (dat V c).after 3 t = iblk V c 3 t := by dsimp only [dat]
theorem after4 (c : Dev nD) (t : Fin cfg4.N) :
    (dat V c).after 4 t = outC (accAt V c t.val t.isLt).1 (accAt V c t.val t.isLt).2 (iblk V c 2 t) (iblk V c 3 t) := by dsimp only [dat]

theorem before0 (c : Dev nD) (t : Fin cfg4.N) (d) : (dat V c).before 0 t d = iblk V c 0 t :=
  before0_of V (dat V c) (A_eq V c 0) (after0 V c) t d
theorem before1 (c : Dev nD) (t : Fin cfg4.N) (d) : (dat V c).before 1 t d = iblk V c 1 t :=
  before1_of V (dat V c) (A_eq V c 1) (after1 V c) t d
theorem before2 (c : Dev nD) (t : Fin cfg4.N) (d) : (dat V c).before 2 t d = iblk V c 2 t :=
  before2_of V (dat V c) (A_eq V c 2) (after2 V c) t d
theorem before3 (c : Dev nD) (t : Fin cfg4.N) (d) : (dat V c).before 3 t d = iblk V c 3 t :=
  before3_of V (dat V c) (A_eq V c 3) (after3 V c) t d

/-- What the body is called with at point t, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem live0 : ∀ t : Fin cfg4.N, cfg4.idle 0 (grid4.coords t) = false := by decide +kernel
theorem live1 : ∀ t : Fin cfg4.N, cfg4.idle 1 (grid4.coords t) = false := by decide +kernel
theorem live2 : ∀ t : Fin cfg4.N, cfg4.idle 2 (grid4.coords t) = false := by decide +kernel
theorem live3 : ∀ t : Fin cfg4.N, cfg4.idle 3 (grid4.coords t) = false := by decide +kernel
theorem leaves0 (c : Dev nD) (t : Fin cfg4.N) : (dat V c).leavesExact 0 t = owns (c : Thread nD τ) (st4_0 t) fullShare ((dat V c).after 0 t) := by
  unfold Dat.leavesExact; rw [live0 t]
theorem leaves1 (c : Dev nD) (t : Fin cfg4.N) : (dat V c).leavesExact 1 t = owns (c : Thread nD τ) (st4_1 t) fullShare ((dat V c).after 1 t) := by
  unfold Dat.leavesExact; rw [live1 t]
theorem leaves2 (c : Dev nD) (t : Fin cfg4.N) : (dat V c).leavesExact 2 t = owns (c : Thread nD τ) (st4_2 t) fullShare ((dat V c).after 2 t) := by
  unfold Dat.leavesExact; rw [live2 t]
theorem leaves3 (c : Dev nD) (t : Fin cfg4.N) : (dat V c).leavesExact 3 t = owns (c : Thread nD τ) (st4_3 t) fullShare ((dat V c).after 3 t) := by
  unfold Dat.leavesExact; rw [live3 t]

set_option maxHeartbeats 4000000 in
/-- The body at any point, by the three cases of the two conditions: the input buffers hold their blocks; the
    invariant hands the body the accumulators (at anything at the first point, at what the point before left
    afterwards) and takes them back at this point's contents; the output buffer is stored only at the last point
    and handed back as found at the others. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3]
  rw [show (dat V c).owesAt () t.succ = (dat V c).owesAt () t.castSucc from rfl]
  rw [show (dat V c).Φ t.succ = Phi V c (t.val + 1) t.isLt from rfl, Phi_succ]
  rw [leaves0, leaves1, leaves2, leaves3, after0, after1, after2, after3]
  have hN : t.val < 50 := lt_of_lt_of_eq t.isLt (show cfg4.N = 50 from N_4)
  by_cases h0 : t.val = 0
  · have hc1 : cond1 (grid4.coords t) := (hcond1 t).mpr h0
    have hc2 : ¬cond2 (grid4.coords t) := fun h => by have := (hcond2 t).mp h; omega
    rw [Dat.leavesExact_idle (dat V c) 4 t (idleAt4 t hc2) (noFlush4 t hc2)]
    rw [accAt_zero V c t h0]; dsimp only
    rw [Phi_castSucc V c t, Phi_zero V c _ _ h0, PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernelA c Set.univ (grid4.coords t) hc1 hc2 _ _ _ _ _ _ _ _ _ _ _ _ _ _ (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexists _; iexact H4
  · have hc1 : ¬cond1 (grid4.coords t) := fun h => h0 ((hcond1 t).mp h)
    by_cases h49 : t.val = 49
    · have hc2 : cond2 (grid4.coords t) := (hcond2 t).mpr h49
      rw [show (dat V c).leavesExact 4 t = owns (c : Thread nD τ) (st4_4 t) fullShare ((dat V c).after 4 t) from by
        unfold Dat.leavesExact; rw [liveAt4 t hc2], after4]
      rw [accAt_pos V c t h0]; dsimp only
      rw [Phi_castSucc V c t, Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernelC c Set.univ (grid4.coords t) hc1 hc2 _ _ _ _ _ _ _ _ _ _ _ _ _ _ (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · have hc2 : ¬cond2 (grid4.coords t) := fun h => h49 ((hcond2 t).mp h)
      rw [Dat.leavesExact_idle (dat V c) 4 t (idleAt4 t hc2) (noFlush4 t hc2)]
      rw [accAt_pos V c t h0]; dsimp only
      rw [Phi_castSucc V c t, Phi_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernelB c Set.univ (grid4.coords t) hc1 hc2 _ _ _ _ _ _ _ _ _ _ _ _ _ _ (iblk V c 0 t) (iblk V c 1 t) (iblk V c 2 t) (iblk V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem Phi_in (c : Dev nD) : Pipeline.ΦA spec4 c ⊢ (dat V c).Φ 0 := by
  rw [show (dat V c).Φ 0 = Phi V c 0 (Nat.zero_le _) from rfl, Phi_zero V c 0 _ rfl]
  try exact Idealize.SL.BI.Entails.refl _

/-- After the last point the invariant gives the class's back: what the accumulators hold is forgotten. -/
theorem Phi_out (c : Dev nD) : (dat V c).Φ (Fin.last cfg4.N) ⊢ Pipeline.ΦA spec4 c := by
  rw [show (dat V c).Φ (Fin.last cfg4.N) = Phi V c (Fin.last cfg4.N).val (Nat.le_of_lt_succ (Fin.last cfg4.N).isLt) from rfl,
    Phi_pos V c _ _ (by rw [Fin.val_last]; have : cfg4.N = 50 := N_4; omega), PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.R4

end
-- ==== Proof.KiRun.lean ====
import proofs.«429222_j11897059409948_3_alg».proof.Proof.KiRegionsV
import proofs.«429222_j11897059409948_3_alg».proof.Proof.KiR0
import proofs.«429222_j11897059409948_3_alg».proof.Proof.KiR1
import proofs.«429222_j11897059409948_3_alg».proof.Proof.KiR2
import proofs.«429222_j11897059409948_3_alg».proof.Proof.KiR3
import proofs.«429222_j11897059409948_3_alg».proof.Proof.KiR4
import proofs.«429222_j11897059409948_3_alg».proof.Proof.LibRegionRecord

/-!
  The five regions put together. The contents of the core's buffers at each boundary between two items of the
  program are built from the launch memory: a stretch of host operations applies them; a region leaves each of its
  output arrays at what its pipeline's write-backs leave (read off that region's proof data) and every other buffer
  as it found it. Each region is then a segment record between two such boundaries.
-/

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-! ## The contents at each boundary -/

/-- After the first host stretch (region 0's entry). -/
abbrev U1 (c : Dev nD) : Valuation τ sig (Elt F) := V1 m c
/-- What region 0 leaves: its arrays at what its write-backs leave. -/
def o2 (r : Ref sig .tc) (c : Dev nD) : Buf (Elt F) ((c : Thread nD τ).loc r) :=
  Pipeline.withArrays spec0 c (U1 m c) (fun w => (R0.dat (atTc (U1 m)) c).arrAt w cfg0.N) r
abbrev U2 (c : Dev nD) : Valuation τ sig (Elt F) := Function.update (Function.update (U1 m c) main_v21_0 (o2 m main_v21_0 c)) main_v21_1 (o2 m main_v21_1 c)
abbrev U3 (c : Dev nD) : Valuation τ sig (Elt F) := StableHlo.after hostOps1 (U2 m c)
def o4 (r : Ref sig .tc) (c : Dev nD) : Buf (Elt F) ((c : Thread nD τ).loc r) :=
  Pipeline.withArrays spec1 c (U3 m c) (fun w => (R1.dat (atTc (U3 m)) c).arrAt w cfg1.N) r
abbrev U4 (c : Dev nD) : Valuation τ sig (Elt F) := Function.update (U3 m c) main_v32 (o4 m main_v32 c)
def o5 (r : Ref sig .tc) (c : Dev nD) : Buf (Elt F) ((c : Thread nD τ).loc r) :=
  Pipeline.withArrays spec2 c (U4 m c) (fun w => (R2.dat (atTc (U4 m)) c).arrAt w cfg2.N) r
abbrev U5 (c : Dev nD) : Valuation τ sig (Elt F) := Function.update (Function.update (U4 m c) main_v33_0 (o5 m main_v33_0 c)) main_v33_1 (o5 m main_v33_1 c)
abbrev U6 (c : Dev nD) : Valuation τ sig (Elt F) := StableHlo.after hostOps3 (U5 m c)
def o7 (r : Ref sig .tc) (c : Dev nD) : Buf (Elt F) ((c : Thread nD τ).loc r) :=
  Pipeline.withArrays spec3 c (U6 m c) (fun w => (R3.dat (atTc (U6 m)) c).arrAt w cfg3.N) r
abbrev U7 (c : Dev nD) : Valuation τ sig (Elt F) := Function.update (U6 m c) main_v44 (o7 m main_v44 c)
def o8 (r : Ref sig .tc) (c : Dev nD) : Buf (Elt F) ((c : Thread nD τ).loc r) :=
  Pipeline.withArrays spec4 c (U7 m c) (fun w => (R4.dat (atTc (U7 m)) c).arrAt w cfg4.N) r
abbrev U8 (c : Dev nD) : Valuation τ sig (Elt F) := Function.update (U7 m c) main_v45 (o8 m main_v45 c)

/-- What the regions leave, as the unknowns the generated boundary contents are written over. -/
def outs : Outs (F := F) := fun J r c =>
  match J with
  | 2 => o2 m r c
  | 4 => o4 m r c
  | 5 => o5 m r c
  | 7 => o7 m r c
  | 8 => o8 m r c
  | _ => V0 m c r

theorem V2_eq (c : Dev nD) : V2 m (outs m) c = U2 m c := rfl
theorem V3_eq (c : Dev nD) : V3 m (outs m) c = U3 m c := rfl
theorem V4_eq (c : Dev nD) : V4 m (outs m) c = U4 m c := rfl
theorem V5_eq (c : Dev nD) : V5 m (outs m) c = U5 m c := rfl
theorem V6_eq (c : Dev nD) : V6 m (outs m) c = U6 m c := rfl
theorem V7_eq (c : Dev nD) : V7 m (outs m) c = U7 m c := rfl
theorem V8_eq (c : Dev nD) : V8 m (outs m) c = U8 m c := rfl

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => R0.dat (atTc (U1 m)) c
  | ⟨1, _⟩ => fun c => R1.dat (atTc (U3 m)) c
  | ⟨2, _⟩ => fun c => R2.dat (atTc (U4 m)) c
  | ⟨3, _⟩ => fun c => R3.dat (atTc (U6 m)) c
  | ⟨4, _⟩ => fun c => R4.dat (atTc (U7 m)) c

abbrev 𝒱₀ : Variants := Variants.none
abbrev L : GSem nD τ sig → Finset Unit := fun _ => ∅
abbrev lv : GSem nD τ sig → Unit → ℕ := fun _ _ => 0

/-! ## Region 0: two output arrays -/

theorem o2_0 (c : Dev nD) : o2 m main_v21_0 c = (R0.dat (atTc (U1 m)) c).arrAt 5 cfg0.N :=
  Pipeline.withArrays_arr spec0 launch0.win.arr_inj c _ _ 5
theorem o2_1 (c : Dev nD) : o2 m main_v21_1 c = (R0.dat (atTc (U1 m)) c).arrAt 6 cfg0.N :=
  Pipeline.withArrays_arr spec0 launch0.win.arr_inj c _ _ 6

/-- At the region's exit each of its arrays holds what the pipeline leaves: an input array is never written and its
    buffer is none of the two outputs'; the outputs' by the two updates. -/
theorem hF0 (c : Dev nD) (w : Fin cfg0.W) : (R0.dat (atTc (U1 m)) c).arrAt w cfg0.N = U2 m c (Pipeline.arrRef spec0 w) := by
  have hin : ∀ w : Fin cfg0.W, (cfg0.win w).isOut = false → Pipeline.arrRef spec0 w ≠ main_v21_0 → Pipeline.arrRef spec0 w ≠ main_v21_1 →
      (R0.dat (atTc (U1 m)) c).arrAt w cfg0.N = U2 m c (Pipeline.arrRef spec0 w) := fun w hw h0 h1 => by
    rw [(R0.dat (atTc (U1 m)) c).arrAt_in w hw, R0.A_eq]
    exact ((Function.update_of_ne (StableHlo.devRef_ne_of_ne h1) _ _).trans (Function.update_of_ne (StableHlo.devRef_ne_of_ne h0) _ _)).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ =>
    show _ = Function.update (Function.update (U1 m c) main_v21_0 (o2 m main_v21_0 c)) main_v21_1 (o2 m main_v21_1 c) main_v21_0
    rw [Function.update_of_ne (StableHlo.devRef_ne_of_ne (by decide : (main_v21_0 : Ref sig .tc) ≠ main_v21_1)), Function.update_self]
    exact (o2_0 m c).symm
  | ⟨6, _⟩ =>
    show _ = Function.update (Function.update (U1 m c) main_v21_0 (o2 m main_v21_0 c)) main_v21_1 (o2 m main_v21_1 c) main_v21_1
    rw [Function.update_self]
    exact (o2_1 m c).symm

/-- and every buffer that is none of its arrays holds what it held. -/
theorem hrest0 (c : Dev nD) (b : Ref sig .tc) (hb : b ∉ Finset.univ.image (Pipeline.arrRef spec0)) : U2 m c b = U1 m c b :=
  (Function.update_of_ne (StableHlo.devRef_ne_of_ne fun e => hb (Finset.mem_image.mpr ⟨6, Finset.mem_univ _, e.symm⟩)) _ _).trans
    (Function.update_of_ne (StableHlo.devRef_ne_of_ne fun e => hb (Finset.mem_image.mpr ⟨5, Finset.mem_univ _, e.symm⟩)) _ _)

/-! ## Region 1: one output array -/

theorem o4_0 (c : Dev nD) : o4 m main_v32 c = (R1.dat (atTc (U3 m)) c).arrAt 3 cfg1.N :=
  Pipeline.withArrays_arr spec1 launch1.win.arr_inj c _ _ 3

theorem hF1 (c : Dev nD) (w : Fin cfg1.W) : (R1.dat (atTc (U3 m)) c).arrAt w cfg1.N = U4 m c (Pipeline.arrRef spec1 w) := by
  have hin : ∀ w : Fin cfg1.W, (cfg1.win w).isOut = false → Pipeline.arrRef spec1 w ≠ main_v32 →
      (R1.dat (atTc (U3 m)) c).arrAt w cfg1.N = U4 m c (Pipeline.arrRef spec1 w) := fun w hw h0 => by
    rw [(R1.dat (atTc (U3 m)) c).arrAt_in w hw, R1.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ =>
    show _ = Function.update (U3 m c) main_v32 (o4 m main_v32 c) main_v32
    rw [Function.update_self]
    exact (o4_0 m c).symm

theorem hrest1 (c : Dev nD) (b : Ref sig .tc) (hb : b ∉ Finset.univ.image (Pipeline.arrRef spec1)) : U4 m c b = U3 m c b :=
  Function.update_of_ne (StableHlo.devRef_ne_of_ne fun e => hb (Finset.mem_image.mpr ⟨3, Finset.mem_univ _, e.symm⟩)) _ _

/-! ## Region 2: two output arrays -/

theorem o5_0 (c : Dev nD) : o5 m main_v33_0 c = (R2.dat (atTc (U4 m)) c).arrAt 5 cfg2.N :=
  Pipeline.withArrays_arr spec2 launch2.win.arr_inj c _ _ 5
theorem o5_1 (c : Dev nD) : o5 m main_v33_1 c = (R2.dat (atTc (U4 m)) c).arrAt 6 cfg2.N :=
  Pipeline.withArrays_arr spec2 launch2.win.arr_inj c _ _ 6

/-- At the region's exit each of its arrays holds what the pipeline leaves: an input array is never written and its
    buffer is none of the two outputs'; the outputs' by the two updates. -/
theorem hF2 (c : Dev nD) (w : Fin cfg2.W) : (R2.dat (atTc (U4 m)) c).arrAt w cfg2.N = U5 m c (Pipeline.arrRef spec2 w) := by
  have hin : ∀ w : Fin cfg2.W, (cfg2.win w).isOut = false → Pipeline.arrRef spec2 w ≠ main_v33_0 → Pipeline.arrRef spec2 w ≠ main_v33_1 →
      (R2.dat (atTc (U4 m)) c).arrAt w cfg2.N = U5 m c (Pipeline.arrRef spec2 w) := fun w hw h0 h1 => by
    rw [(R2.dat (atTc (U4 m)) c).arrAt_in w hw, R2.A_eq]
    exact ((Function.update_of_ne (StableHlo.devRef_ne_of_ne h1) _ _).trans (Function.update_of_ne (StableHlo.devRef_ne_of_ne h0) _ _)).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ =>
    show _ = Function.update (Function.update (U4 m c) main_v33_0 (o5 m main_v33_0 c)) main_v33_1 (o5 m main_v33_1 c) main_v33_0
    rw [Function.update_of_ne (StableHlo.devRef_ne_of_ne (by decide : (main_v33_0 : Ref sig .tc) ≠ main_v33_1)), Function.update_self]
    exact (o5_0 m c).symm
  | ⟨6, _⟩ =>
    show _ = Function.update (Function.update (U4 m c) main_v33_0 (o5 m main_v33_0 c)) main_v33_1 (o5 m main_v33_1 c) main_v33_1
    rw [Function.update_self]
    exact (o5_1 m c).symm

/-- and every buffer that is none of its arrays holds what it held. -/
theorem hrest2 (c : Dev nD) (b : Ref sig .tc) (hb : b ∉ Finset.univ.image (Pipeline.arrRef spec2)) : U5 m c b = U4 m c b :=
  (Function.update_of_ne (StableHlo.devRef_ne_of_ne fun e => hb (Finset.mem_image.mpr ⟨6, Finset.mem_univ _, e.symm⟩)) _ _).trans
    (Function.update_of_ne (StableHlo.devRef_ne_of_ne fun e => hb (Finset.mem_image.mpr ⟨5, Finset.mem_univ _, e.symm⟩)) _ _)

/-! ## Region 3: one output array -/

theorem o7_0 (c : Dev nD) : o7 m main_v44 c = (R3.dat (atTc (U6 m)) c).arrAt 3 cfg3.N :=
  Pipeline.withArrays_arr spec3 launch3.win.arr_inj c _ _ 3

theorem hF3 (c : Dev nD) (w : Fin cfg3.W) : (R3.dat (atTc (U6 m)) c).arrAt w cfg3.N = U7 m c (Pipeline.arrRef spec3 w) := by
  have hin : ∀ w : Fin cfg3.W, (cfg3.win w).isOut = false → Pipeline.arrRef spec3 w ≠ main_v44 →
      (R3.dat (atTc (U6 m)) c).arrAt w cfg3.N = U7 m c (Pipeline.arrRef spec3 w) := fun w hw h0 => by
    rw [(R3.dat (atTc (U6 m)) c).arrAt_in w hw, R3.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ =>
    show _ = Function.update (U6 m c) main_v44 (o7 m main_v44 c) main_v44
    rw [Function.update_self]
    exact (o7_0 m c).symm

theorem hrest3 (c : Dev nD) (b : Ref sig .tc) (hb : b ∉ Finset.univ.image (Pipeline.arrRef spec3)) : U7 m c b = U6 m c b :=
  Function.update_of_ne (StableHlo.devRef_ne_of_ne fun e => hb (Finset.mem_image.mpr ⟨3, Finset.mem_univ _, e.symm⟩)) _ _

/-! ## Region 4: one output array -/

theorem o8_0 (c : Dev nD) : o8 m main_v45 c = (R4.dat (atTc (U7 m)) c).arrAt 4 cfg4.N :=
  Pipeline.withArrays_arr spec4 launch4.win.arr_inj c _ _ 4

theorem hF4 (c : Dev nD) (w : Fin cfg4.W) : (R4.dat (atTc (U7 m)) c).arrAt w cfg4.N = U8 m c (Pipeline.arrRef spec4 w) := by
  have hin : ∀ w : Fin cfg4.W, (cfg4.win w).isOut = false → Pipeline.arrRef spec4 w ≠ main_v45 →
      (R4.dat (atTc (U7 m)) c).arrAt w cfg4.N = U8 m c (Pipeline.arrRef spec4 w) := fun w hw h0 => by
    rw [(R4.dat (atTc (U7 m)) c).arrAt_in w hw, R4.A_eq]
    exact (Function.update_of_ne (StableHlo.devRef_ne_of_ne h0) _ _).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ =>
    show _ = Function.update (U7 m c) main_v45 (o8 m main_v45 c) main_v45
    rw [Function.update_self]
    exact (o8_0 m c).symm

theorem hrest4 (c : Dev nD) (b : Ref sig .tc) (hb : b ∉ Finset.univ.image (Pipeline.arrRef spec4)) : U8 m c b = U7 m c b :=
  Function.update_of_ne (StableHlo.devRef_ne_of_ne fun e => hb (Finset.mem_image.mpr ⟨4, Finset.mem_univ _, e.symm⟩)) _ _

set_option backward.isDefEq.respectTransparency.types false in
/-- Region 0 as a segment between its two boundaries. -/
def reg0 : RegionSeg (pcfgs (F := F)) adm (pdats m) () defs₀ 𝒱₀ L lv 0 :=
  LibRegionRecord.regionRecord (pcfgs (F := F)) adm (pdats m) () defs₀ 𝒱₀ L lv 0
    launch0.win.to₀ launch0.win launch0.block_pos launch0.arr_whole launch0.stage_whole ⟨fun k => k.elim0⟩
    (fun _ _ => rfl) (fun _ _ => rfl) (fun _ => rfl)
    (fun c => R0.body_obligation (atTc (U1 m)) c)
    (fun c => U1 m c) (fun c => U2 m c)
    (fun c w => R0.A_eq (atTc (U1 m)) c w) (hF0 m) (hrest0 m)
    (fun c => LibRegionRecord.ΦA_in spec0 c) (fun c => LibRegionRecord.ΦA_out spec0 c)

set_option backward.isDefEq.respectTransparency.types false in
/-- Region 1 as a segment between its two boundaries. -/
def reg1 : RegionSeg (pcfgs (F := F)) adm (pdats m) () defs₀ 𝒱₀ L lv 1 :=
  LibRegionRecord.regionRecord (pcfgs (F := F)) adm (pdats m) () defs₀ 𝒱₀ L lv 1
    launch1.win.to₀ launch1.win launch1.block_pos launch1.arr_whole launch1.stage_whole ⟨fun k => k.elim0⟩
    (fun _ _ => rfl) (fun _ _ => rfl) (fun _ => rfl)
    (fun c => R1.body_obligation (atTc (U3 m)) c)
    (fun c => U3 m c) (fun c => U4 m c)
    (fun c w => R1.A_eq (atTc (U3 m)) c w) (hF1 m) (hrest1 m)
    (fun c => LibRegionRecord.ΦA_in spec1 c) (fun c => LibRegionRecord.ΦA_out spec1 c)

set_option backward.isDefEq.respectTransparency.types false in
/-- Region 2 as a segment between its two boundaries. -/
def reg2 : RegionSeg (pcfgs (F := F)) adm (pdats m) () defs₀ 𝒱₀ L lv 2 :=
  LibRegionRecord.regionRecord (pcfgs (F := F)) adm (pdats m) () defs₀ 𝒱₀ L lv 2
    launch2.win.to₀ launch2.win launch2.block_pos launch2.arr_whole launch2.stage_whole ⟨fun k => k.elim0⟩
    (fun _ _ => rfl) (fun _ _ => rfl) (fun _ => rfl)
    (fun c => R2.body_obligation (atTc (U4 m)) c)
    (fun c => U4 m c) (fun c => U5 m c)
    (fun c w => R2.A_eq (atTc (U4 m)) c w) (hF2 m) (hrest2 m)
    (fun c => LibRegionRecord.ΦA_in spec2 c) (fun c => LibRegionRecord.ΦA_out spec2 c)

set_option backward.isDefEq.respectTransparency.types false in
/-- Region 3 as a segment between its two boundaries. -/
def reg3 : RegionSeg (pcfgs (F := F)) adm (pdats m) () defs₀ 𝒱₀ L lv 3 :=
  LibRegionRecord.regionRecord (pcfgs (F := F)) adm (pdats m) () defs₀ 𝒱₀ L lv 3
    launch3.win.to₀ launch3.win launch3.block_pos launch3.arr_whole launch3.stage_whole ⟨fun k => k.elim0⟩
    (fun _ _ => rfl) (fun _ _ => rfl) (fun _ => rfl)
    (fun c => R3.body_obligation (atTc (U6 m)) c)
    (fun c => U6 m c) (fun c => U7 m c)
    (fun c w => R3.A_eq (atTc (U6 m)) c w) (hF3 m) (hrest3 m)
    (fun c => LibRegionRecord.ΦA_in spec3 c) (fun c => LibRegionRecord.ΦA_out spec3 c)

set_option backward.isDefEq.respectTransparency.types false in
/-- Region 4 as a segment between its two boundaries: its invariant is entered from the class's and gives it back. -/
def reg4 : RegionSeg (pcfgs (F := F)) adm (pdats m) () defs₀ 𝒱₀ L lv 4 :=
  LibRegionRecord.regionRecord (pcfgs (F := F)) adm (pdats m) () defs₀ 𝒱₀ L lv 4
    launch4.win.to₀ launch4.win launch4.block_pos launch4.arr_whole launch4.stage_whole ⟨fun k => k.elim0⟩
    (fun _ _ => rfl) (fun _ _ => rfl) (fun _ => rfl)
    (fun c => R4.body_obligation (atTc (U7 m)) c)
    (fun c => U7 m c) (fun c => U8 m c)
    (fun c w => R4.A_eq (atTc (U7 m)) c w) (hF4 m) (hrest4 m)
    (fun c => (LibRegionRecord.ΦA_in spec4 c).trans (R4.Phi_in (atTc (U7 m)) c))
    (fun c => (R4.Phi_out (atTc (U7 m)) c).trans (LibRegionRecord.ΦA_out spec4 c))

/-! ## The launch -/

/-- What rides beside the buffers between two items: the generator register at some state, nothing owed. -/
abbrev rest (c : Dev nD) : sProp 𝕄 := LibRegionRecord.rest (Ix := Unit) (Name := ℕ) (U := UR sig nD τ) (Lvl := ℕ) (Val := Elt F) (τ := τ) (sig := sig) c

set_option backward.isDefEq.respectTransparency.types false in
/-- Every weakly fair execution of the program from the memory m with zero counters terminates, and every final
    memory holds the result at the last boundary's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v45) = V8 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => rest c) : sProp 𝕄) := by
        have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ rest c := fun c => by
          iintro ⟨-, HO, -, Hp, -⟩
          isplitl [Hp]; · iexists _; iexact Hp
          iexists ∅; iexact HO
        exact bigSep_mono fun c _ => hc c
      iintro ⟨H, -⟩
      ihave H' := hmono $$ H
      imodintro
      iexact H')
    (hE5 := fun c => by
      iintro ⟨-, HO⟩
      iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)
    (R4 := reg4 m) (hpre4 := fun c => .rfl) (hpost4 := fun c => .rfl)

/-- The result the program ends with is what the last pipeline's write-backs leave in its output array. -/
theorem result_eq (c : Dev nD) : V8 m (outs m) c main_v45 = (R4.dat (atTc (U7 m)) c).arrAt 4 cfg4.N :=
  (Function.update_self _ _ _).trans (o8_0 m c)

/-- The frame: the program runs to the end and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Run

end
-- ==== Proof.Spec.lean ====
import Idealize.ShloMosaic.PureOps.Ideal
import Idealize.ShloMosaic.Lib.ValueIdx

/-!
  The graph network as index-by-index functions on the extended reals, in the kernel's arrangement and in the
  reference's, and the law that joins them.

  One convolution layer over features H (already multiplied by the layer's weight), with d i the inverse square root
  of node i's degree, g e the row the edge e's source reads, and the edges with key i those that add into row i:

    the kernel:     (Σ_{e with key i} H (g e) · d (g e)) · d i  +  (H i · (d i · d i) + b)
    the reference:  ((Σ_{e with key i} H (g e) · (d (g e) · d (g' e))) + H i · (d i · d i)) + b

  where g' e is the row the edge's destination reads. They are equal because an edge with key i has g' e = i, and
  because d i is a nonnegative real, so multiplying by it distributes over the sum whatever extended reals the
  summands are.
-/

noncomputable section

namespace Cert.Spec

open Idealize.ShloMosaic
open scoped BigOperators

variable {N E C : ℕ}

/-- A node's degree: one for its self loop plus the number of edges whose key is the node. -/
def deg (kd : Fin E → Int) (i : Fin N) : EReal :=
  1 + ∑ e ∈ Finset.univ.filter (fun e : Fin E => kd e = (i.val : Int)), (1 : EReal)

/-- Its inverse square root. -/
def dinv (kd : Fin E → Int) (i : Fin N) : EReal := Ideal.rsqrt (deg kd i)

/-- A node's features times a weight matrix. -/
def lin (X : Fin N → Fin C → EReal) (W : Fin C → Fin C → EReal) (i : Fin N) (j : Fin C) : EReal :=
  ∑ k : Fin C, X i k * W k j

/-- One layer in the kernel's arrangement. -/
def layerK (d : Fin N → EReal) (gs : Fin E → Fin N) (ks : Fin E → Int) (H : Fin N → Fin C → EReal) (b : Fin C → EReal)
    (i : Fin N) (j : Fin C) : EReal :=
  (∑ e ∈ Finset.univ.filter (fun e : Fin E => ks e = (i.val : Int)), H (gs e) j * d (gs e)) * d i + (H i j * (d i * d i) + b j)

/-- One layer in the reference's arrangement. -/
def layerR (d : Fin N → EReal) (gs gd : Fin E → Fin N) (ks : Fin E → Int) (H : Fin N → Fin C → EReal) (b : Fin C → EReal)
    (i : Fin N) (j : Fin C) : EReal :=
  ((∑ e ∈ Finset.univ.filter (fun e : Fin E => ks e = (i.val : Int)), H (gs e) j * (d (gs e) * d (gd e))) + H i j * (d i * d i)) + b j

/-- A sum of extended reals times a nonnegative real is the sum of the products. -/
theorem sum_mul_of_nonneg {ι : Type*} (S : Finset ι) (a : ι → EReal) {x : EReal} (h0 : 0 ≤ x) (ht : x ≠ ⊤) :
    (∑ e ∈ S, a e) * x = ∑ e ∈ S, a e * x := by
  classical
  induction S using Finset.induction_on with
  | empty => simp
  | insert e S he ih => rw [Finset.sum_insert he, Finset.sum_insert he, EReal.right_distrib_of_nonneg_of_ne_top h0 ht, ih]

/-- THE LAW: the two arrangements of a layer are one function, when every scale is a nonnegative real and an edge
    with key i reads, through its destination, row i. -/
theorem layer_eq (d : Fin N → EReal) (hd0 : ∀ i, 0 ≤ d i) (hdt : ∀ i, d i ≠ ⊤) (gs gd : Fin E → Fin N) (ks : Fin E → Int)
    (hlink : ∀ e (i : Fin N), ks e = (i.val : Int) → gd e = i) (H : Fin N → Fin C → EReal) (b : Fin C → EReal)
    (i : Fin N) (j : Fin C) : layerK d gs ks H b i j = layerR d gs gd ks H b i j := by
  unfold layerK layerR
  rw [sum_mul_of_nonneg _ _ (hd0 i) (hdt i), add_assoc]
  congr 1
  refine Finset.sum_congr rfl fun e he => ?_
  rw [hlink e i (Finset.mem_filter.mp he).2, mul_assoc]

/-- A count of edges is a nonnegative real. -/
theorem count_real {ι : Type*} (S : Finset ι) : ∃ r : ℝ, 0 ≤ r ∧ (∑ _e ∈ S, (1 : EReal)) = (r : EReal) := by
  classical
  induction S using Finset.induction_on with
  | empty => exact ⟨0, le_refl _, by simp⟩
  | insert e S he ih =>
    obtain ⟨r, hr, hs⟩ := ih
    refine ⟨1 + r, by linarith, ?_⟩
    rw [Finset.sum_insert he, hs]; norm_cast

/-- The inverse square root of a degree is a nonnegative real. -/
theorem dinv_nonneg (kd : Fin E → Int) (i : Fin N) : 0 ≤ dinv kd i ∧ dinv kd i ≠ ⊤ := by
  obtain ⟨r, hr, hs⟩ := count_real (Finset.univ.filter (fun e : Fin E => kd e = (i.val : Int)))
  have hdeg : deg kd i = ((1 + r : ℝ) : EReal) := by unfold deg; rw [hs]; norm_cast
  have hpos : (0 : ℝ) < 1 + r := by linarith
  unfold dinv
  rw [hdeg, Ideal.rsqrt_coe, if_neg (not_lt.mpr hpos.le), if_neg hpos.ne']
  exact ⟨EReal.coe_nonneg.mpr (inv_nonneg.mpr (Real.sqrt_nonneg _)), EReal.coe_ne_top _⟩

/-! ## The index words

An edge's endpoint is a 32-bit word. A read through it first adds the number of nodes to a negative word and then
clamps into range; the degree count keys on the word after that addition, read signed; the sum over incoming edges
keys on the word as it is, read signed. -/

/-- The word with the number of nodes added when it is negative. -/
def normW (w : BitVec 32) : BitVec 32 := Scalar.select (IntOp.cmpi .slt w 0#32) (IntOp.addi w 100000#32) w

/-- The row a read through the word lands on. -/
def rowOf (w : BitVec 32) : Fin 100000 := ⟨min (normW w).toInt.toNat (100000 - 1), by omega⟩

/-- A word that, read signed, is a node's number reads that node's row. -/
theorem rowOf_of_toInt (w : BitVec 32) (i : Fin 100000) (h : w.toInt = (i.val : Int)) : rowOf w = i := by
  have hi := i.isLt
  have hns : ¬ w.slt 0#32 = true := by
    rw [BitVec.slt, BitVec.toInt_zero, decide_eq_true_eq, h]; omega
  have hn : normW w = w := by
    unfold normW IntOp.cmpi
    simp only [Bool.not_eq_true] at hns
    simp [hns, Scalar.select]
  apply Fin.ext
  show min (normW w).toInt.toNat (100000 - 1) = i.val
  rw [hn, h]; omega

/-! ## The float literals the two programs share -/

theorem one_f32 : Ideal.ofBits .f32 0x3F800000#32 = 1 := by
  simp [Ideal.ofBits, Ideal.ieee]
  first | (rw [← EReal.coe_mul]; norm_num) | (norm_cast; norm_num)
theorem one_bf16 : Ideal.ofBits .bf16 0x3F80#16 = 1 := by
  simp [Ideal.ofBits, Ideal.ieee]
  first | (rw [← EReal.coe_mul]; norm_num) | (norm_cast; norm_num)

/-! ## The readout: mean pooling per graph, the linear layer, the softmax over the three actions -/

variable {G A : ℕ}

/-- The sum of the rows of the nodes whose graph word, read signed, is g. -/
def pool (bk : Fin N → Int) (H : Fin N → Fin C → EReal) (g : Fin G) (j : Fin C) : EReal :=
  ∑ n ∈ Finset.univ.filter (fun n : Fin N => bk n = (g.val : Int)), H n j

/-- The number of those nodes. -/
def cnt (bk : Fin N → Int) (g : Fin G) : EReal :=
  ∑ _n ∈ Finset.univ.filter (fun n : Fin N => bk n = (g.val : Int)), (1 : EReal)

/-- The mean row of graph g (over at least one). -/
def mean (bk : Fin N → Int) (H : Fin N → Fin C → EReal) (g : Fin G) (j : Fin C) : EReal :=
  Ideal.div (pool bk H g j) (max (cnt bk g) (Ideal.ofBits .f32 0x3F800000#32))

/-- The linear layer. -/
def logit (M : Fin G → Fin C → EReal) (Wl : Fin C → Fin A → EReal) (bl : Fin A → EReal) (g : Fin G) (a : Fin A) : EReal :=
  (∑ k : Fin C, M g k * Wl k a) + bl a

/-- A row's maximum as both programs take it: the fold of max from minus infinity, then once more against minus infinity. -/
def rowMax (L : Fin G → Fin A → EReal) (g : Fin G) : EReal :=
  max (Ideal.ofBits .f32 0xFF800000#32) ((Finset.univ : Finset (Fin A)).fold max (Ideal.ofBits .f32 0xFF800000#32) (L g))

/-- The softmax of a row. -/
def softmax (L : Fin G → Fin A → EReal) (g : Fin G) (a : Fin A) : EReal :=
  Ideal.div (Ideal.exp (L g a - rowMax L g)) (∑ a' : Fin A, Ideal.exp (L g a' - rowMax L g))

/-- The readout of node features H. -/
def head (bk : Fin N → Int) (H : Fin N → Fin C → EReal) (Wl : Fin C → Fin A → EReal) (bl : Fin A → EReal) : Fin G → Fin A → EReal :=
  softmax (logit (mean bk H) Wl bl)

/-- The rectifier between the layers. -/
def relu (x : EReal) : EReal := max x (Ideal.ofBits .f32 0x00000000#32)

/-! ## Arrays as functions of their coordinates -/

/-- A rank-2 array and a rank-1 array read at coordinates. -/
def arr2 {α : Type} {a b : ℕ} (f : (⟨2, ![a, b]⟩ : Shape).Idx → α) (i : Fin a) (j : Fin b) : α := f (ValueIdx.ix2 i j)
def arr1 {α : Type} {a : ℕ} (f : (⟨1, ![a]⟩ : Shape).Idx → α) (i : Fin a) : α := f (ValueIdx.ix1 i)

/-! ## The whole network over the program's arrays -/

section Net

variable (X : Fin 100000 → Fin 64 → EReal) (srcW dstW : Fin 1600000 → BitVec 32) (btW : Fin 100000 → BitVec 32)
  (W1 W2 : Fin 64 → Fin 64 → EReal) (b1 b2 : Fin 64 → EReal) (Wl : Fin 64 → Fin 3 → EReal) (bl : Fin 3 → EReal)

/-- The row an edge's source reads, the row its destination reads, the key of the sum over incoming edges, the key
    of the degree count, and the key of the pooling. -/
def gs (e : Fin 1600000) : Fin 100000 := rowOf (srcW e)
def gd (e : Fin 1600000) : Fin 100000 := rowOf (dstW e)
def ks (e : Fin 1600000) : Int := (dstW e).toInt
def kd (e : Fin 1600000) : Int := (normW (dstW e)).toInt
def bk (n : Fin 100000) : Int := (btW n).toInt

/-- The inverse square roots of the degrees. -/
def dv : Fin 100000 → EReal := dinv (kd dstW)

/-- The network in the kernel's arrangement -/
def netK : Fin 64 → Fin 3 → EReal :=
  head (bk btW)
    (layerK (dv dstW) (gs srcW) (ks dstW)
      (lin (fun i j => relu (layerK (dv dstW) (gs srcW) (ks dstW) (lin X W1) b1 i j)) W2) b2) Wl bl

/-- and in the reference's. -/
def netR : Fin 64 → Fin 3 → EReal :=
  head (bk btW)
    (layerR (dv dstW) (gs srcW) (gd dstW) (ks dstW)
      (lin (fun i j => relu (layerR (dv dstW) (gs srcW) (gd dstW) (ks dstW) (lin X W1) b1 i j)) W2) b2) Wl bl

theorem link (e : Fin 1600000) (i : Fin 100000) (h : ks dstW e = (i.val : Int)) : gd dstW e = i :=
  rowOf_of_toInt (dstW e) i h

/-- The two arrangements of the network are one function. -/
theorem net_eq : netK X srcW dstW btW W1 W2 b1 b2 Wl bl = netR X srcW dstW btW W1 W2 b1 b2 Wl bl := by
  have hl : ∀ (H : Fin 100000 → Fin 64 → EReal) (b : Fin 64 → EReal),
      layerK (dv dstW) (gs srcW) (ks dstW) H b = layerR (dv dstW) (gs srcW) (gd dstW) (ks dstW) H b := fun H b => by
    funext i j
    exact layer_eq _ (fun i => (dinv_nonneg _ i).1) (fun i => (dinv_nonneg _ i).2) _ _ _ (link dstW) H b i j
  unfold netK netR
  rw [hl, hl]

end Net

end Cert.Spec

end
-- ==== Proof.LibRows.lean ====
/-
  A row gather and a row scatter-add, read at an entry.

  `x[idx]` of a table x : [N, D] at a column of indices idx : [E, 1] is a gather whose result row e is the table's
  row at the start index idx[e, 0], read as a signed integer and clamped into [0, N - 1]. A segment sum of
  rows u : [E, D] into [N, D] at a column of row indices is a scatter-add: entry (n, q) of the result is the
  operand's entry plus the sum of u (e, q) over the edges e whose index, read signed, is n; an index outside
  [0, N) lands nowhere.
-/
import Idealize.ShloMosaic.PureOps.Ideal.Laws
import Idealize.ShloMosaic.Lib.ValueIdx

noncomputable section

namespace Cert.LibRows

open Idealize.ShloMosaic Idealize.ShloMosaic.ValueIdx

/-- What `x[idx]` of a table x : [N, D] at a column of indices idx : [E, 1] lowers to. -/
abbrev rowsGather (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gather_rows_apply (N E D : Nat) {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsGather N E D wf) x idx (ix2 e q)
      = x (ix2 (⟨min (idx (ix2 e 0)).toInt.toNat (N - 1), by omega⟩ : Fin N) q) := by
  have fin2 : ∀ a : Fin 2, a = 0 ∨ a = 1 := by decide
  unfold Host.gather
  congr 1
  funext a
  refine Fin.ext ?_
  show (rowsGather N E D wf).start (ix2 e q) idx a + (rowsGather N E D wf).batchCoord (ix2 e q) a
    + (rowsGather N E D wf).offCoord (ix2 e q) a = _
  rw [GatherDims.batchCoord_eq_zero _ _ _ List.not_mem_nil]
  rcases fin2 a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E D wf).startIndexMap from List.mem_singleton.mpr rfl)]
    have hsi : (rowsGather N E D wf).siIdx (ix2 e q) ⟨List.idxOf (0 : Fin 2) (rowsGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have hstart : (rowsGather N E D wf).start (ix2 e q) idx 1 = 0 := by
      unfold GatherDims.start
      rw [dif_neg (fun h => Nat.one_ne_zero (congrArg Fin.val (List.mem_singleton.mp h)))]
    rw [hstart]
    have hk : (1 : Fin 2) ∈ (rowsGather N E D wf).sKept := by
      rw [GatherDims.mem_sKept]; exact ⟨fun h => Nat.one_ne_zero (congrArg Fin.val (List.mem_singleton.mp h)), List.not_mem_nil⟩
    unfold GatherDims.offCoord
    rw [dif_pos hk]
    simp only [Nat.add_zero, Nat.zero_add]
    rfl

/-- What a segment sum of rows (updates [E, D] added into [N, D] at a column of row indices [E, 1]) lowers to. -/
abbrev rowsScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! ## The scatter's result index, in general and for a column of row indices -/

/-- The operand's kept axes are the ones that are not inserted. -/
theorem mem_sKept {s si u : Shape} (d : ScatterDims s si u) (a : Fin s.rank) :
    a ∈ d.sKept ↔ a ∉ d.insertedWindowDims := by
  simp [ScatterDims.sKept, Shape.kept, List.mem_filter, List.mem_finRange]

/-- An update index lands at `i` exactly when, on every axis, the start (read signed) plus the window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      show _ = (((d.start j idx a + (d.window j a : Int)).toNat : Nat) : Int)
      omega
    · intro hi
      funext a
      refine Fin.ext ?_
      show (d.start j idx a + (d.window j a : Int)).toNat = (i a).val
      have h1 := hi a
      omega
  · rename_i h
    constructor
    · intro hi; exact absurd hi (by simp)
    · intro hi
      exfalso; apply h
      intro a
      have h1 := hi a
      have h2 := (i a).isLt
      omega

section Rows
variable (N E D : Nat) {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the update row's index, read signed … -/
theorem rows_start0 : (rowsScatter N E D wf).start j idx 0 = (idx (ix2 (j 0) 0)).toInt := by
  unfold ScatterDims.start
  rw [dif_pos (show (0 : Fin 2) ∈ (rowsScatter N E D wf).scatterDimsToOperandDims from List.mem_singleton.mpr rfl)]
  have hsi : (rowsScatter N E D wf).siIdx j ⟨List.idxOf (0 : Fin 2) (rowsScatter N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 : (rowsScatter N E D wf).start j idx 1 = 0 := by
  unfold ScatterDims.start
  rw [dif_neg (fun h => Nat.one_ne_zero (congrArg Fin.val (List.mem_singleton.mp h)))]

/-- The row axis is inserted: no window coordinate there … -/
theorem rows_window0 : (rowsScatter N E D wf).window j 0 = 0 := by
  unfold ScatterDims.window
  rw [dif_neg (fun h => (mem_sKept _ _).mp h (List.mem_singleton.mpr rfl))]

/-- … and the column axis's window coordinate is the update's column. -/
theorem rows_window1 : (rowsScatter N E D wf).window j 1 = (j 1).val := by
  have hk : (1 : Fin 2) ∈ (rowsScatter N E D wf).sKept :=
    (mem_sKept _ _).mpr (fun h => Nat.one_ne_zero (congrArg Fin.val (List.mem_singleton.mp h)))
  unfold ScatterDims.window
  rw [dif_pos hk]
  rfl

/-- THE KEY FACT: update `(e, q')` lands at `(n, q)` exactly when the index of row `e`, read signed, is `n`, and
    `q' = q`. -/
theorem rows_resultIdx?_iff (n : Fin N) (q : Fin D) :
    (rowsScatter N E D wf).resultIdx? j idx = some (ix2 n q)
      ↔ (idx (ix2 (j 0) 0)).toInt = (n.val : Int) ∧ j 1 = q := by
  have fin2 : ∀ a : Fin 2, a = 0 ∨ a = 1 := by decide
  rw [resultIdx?_eq_some_iff]
  constructor
  · intro h
    have h0 : (rowsScatter N E D wf).start j idx 0 + ((rowsScatter N E D wf).window j 0 : Int) = (n.val : Int) := h 0
    have h1 : (rowsScatter N E D wf).start j idx 1 + ((rowsScatter N E D wf).window j 1 : Int) = (q.val : Int) := h 1
    rw [rows_start0, rows_window0] at h0
    rw [rows_start1, rows_window1] at h1
    refine ⟨by omega, Fin.ext ?_⟩
    omega
  · rintro ⟨h0, h1⟩ a
    rcases fin2 a with rfl | rfl
    · rw [rows_start0, rows_window0]
      show _ = (n.val : Int)
      omega
    · rw [rows_start1, rows_window1, h1]
      show _ = (q.val : Int)
      omega

end Rows

theorem scatterAdd_rows_apply (N E D : Nat) {w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (q : Fin D) :
    Ideal.hostScatterAdd (rowsScatter N E D wf) x idx upd (ix2 n q)
      = x (ix2 n q) + ∑ e ∈ Finset.univ.filter (fun e : Fin E => (idx (ix2 e 0)).toInt = (n.val : Int)), upd (ix2 e q) := by
  unfold Ideal.hostScatterAdd
  show x (ix2 n q) + _ = x (ix2 n q) + _
  congr 1
  have back : ∀ j : (⟨2, ![E, D]⟩ : Shape).Idx, j 1 = q → ix2 (j 0) q = j := by
    intro j hq; rw [← hq]; exact (eq_ix2 j).symm
  refine Finset.sum_nbij' (fun j => j 0) (fun e => ix2 e q) ?_ ?_ ?_ ?_ ?_
  · intro j hj
    exact Finset.mem_filter.mpr ⟨Finset.mem_univ _,
      ((rows_resultIdx?_iff N E D wf idx j n q).mp (Finset.mem_filter.mp hj).2).1⟩
  · intro e he
    exact Finset.mem_filter.mpr ⟨Finset.mem_univ _,
      (rows_resultIdx?_iff N E D wf idx (ix2 e q) n q).mpr ⟨(Finset.mem_filter.mp he).2, rfl⟩⟩
  · intro j hj
    exact back j ((rows_resultIdx?_iff N E D wf idx j n q).mp (Finset.mem_filter.mp hj).2).2
  · intro e _; rfl
  · intro j hj
    exact congrArg upd (back j ((rows_resultIdx?_iff N E D wf idx j n q).mp (Finset.mem_filter.mp hj).2).2).symm

/-- The same for the host's accumulating scatter at the ideal values, where it is that exact sum. -/
theorem host_scatterAdd_rows_apply (N E D : Nat) {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (q : Fin D) :
    Host.scatterAdd (F := Ideal) (rowsScatter N E D wf) x idx upd (ix2 n q)
      = x (ix2 n q) + ∑ e ∈ Finset.univ.filter (fun e : Fin E => (idx (ix2 e 0)).toInt = (n.val : Int)), upd (ix2 e q) :=
  scatterAdd_rows_apply N E D wf x idx upd n q

end Cert.LibRows

end
-- ==== Proof.LibVecScatter.lean ====
/-
  A vector scatter with addition, read at one entry on the extended reals.

  The operand is a vector of N entries, the updates a vector of E entries, the scatter indices an E x 1 array of
  words: update e is added into operand entry idx (e, 0), and an update whose index, read as a signed integer, is not
  in [0, N) is dropped.  So entry n of the result is the operand's entry plus the sum, over the edges e whose index is
  n, of update e: the updates have no window axis, the operand's one axis is the scattered and inserted one, so the
  result index of update e is (idx (e, 0)), which is (n) exactly when idx (e, 0) = n.

  A record of dimension numbers printed with a program is this one whenever its four lists are [], [0], [0] and 1
  (the fifth field is a proof), by reflexivity; the lemma is stated for the record vecAdd below so that it serves every such
  record, whatever N and E.
-/
import Idealize.ShloMosaic.PureOps.Ideal
import Idealize.ShloMosaic.Lib.ValueIdx
import Idealize.ShloMosaic.Lib.ValueIdxRank1

noncomputable section

open scoped BigOperators

namespace Cert.LibVecScatter

open Idealize.ShloMosaic Idealize.ShloMosaic.ValueIdx

/-- The dimension numbers of a vector scatter: the updates have no window axis, the operand's one axis is the
    scattered one and is inserted, and the index vector sits on the indices' second axis. -/
abbrev vecAdd (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index's coordinate is below the extent, written as the extent itself. -/
theorem idx1_lt0 {n : Nat} (j : (⟨1, ![n]⟩ : Shape).Idx) : (j 0).val < n := (j 0).isLt

/-! ## The start and the window coordinate of an update index

The operand's one axis is the only one the map names, so the start on it is the index word of the update, read signed;
the axis is inserted, so its window coordinate is 0. -/

section Coords
variable {N E w : Nat} (wf : ScatterDims.WF ⟨1, ![N]⟩ ⟨2, ![E, 1]⟩ ⟨1, ![E]⟩ [] [0] [0] 1)

/-- On the operand's axis the start is the index word of the update, read signed. -/
theorem vecAdd_start0 (idx : IVec ⟨2, ![E, 1]⟩ w) (jj : (⟨1, ![E]⟩ : Shape).Idx) :
    (vecAdd N E wf).start jj idx 0
      = (idx (ix2 (⟨(jj 0).val, idx1_lt0 jj⟩ : Fin E) (0 : Fin 1))).toInt := by
  unfold ScatterDims.start
  rw [dif_pos (show (0 : Fin 1) ∈ (vecAdd N E wf).scatterDimsToOperandDims from List.mem_singleton.mpr rfl)]
  have hsi : (vecAdd N E wf).siIdx jj ⟨List.idxOf (0 : Fin 1) (vecAdd N E wf).scatterDimsToOperandDims,
      List.idxOf_lt_length_iff.2 (List.mem_singleton.mpr rfl)⟩
        = ix2 (⟨(jj 0).val, idx1_lt0 jj⟩ : Fin E) (0 : Fin 1) := by
    funext b; refine Fin.ext ?_
    match b with
    | ⟨0, _⟩ => rfl
    | ⟨1, _⟩ => rfl
  rw [hsi]

/-- The operand's axis is inserted: its window coordinate is 0. -/
theorem vecAdd_window0 (jj : (⟨1, ![E]⟩ : Shape).Idx) :
    (vecAdd N E wf).window jj 0 = 0 := by
  unfold ScatterDims.window
  rw [dif_neg (show ¬ (0 : Fin 1) ∈ (vecAdd N E wf).sKept from
    (by decide : ¬ (0 : Fin 1) ∈ ([] : List (Fin 1))))]

end Coords

/-! ## Where an update lands

Update e lands at (idx (e, 0)), when that is in [0, N): so it lands at (n) exactly when the index word of e, read
signed, is n. From left to right the coordinate of the landing index is compared, the range condition making the
conversion to a natural number exact; from right to left the range condition holds because n < N. -/

section Landing
variable {N E w : Nat} (wf : ScatterDims.WF ⟨1, ![N]⟩ ⟨2, ![E, 1]⟩ ⟨1, ![E]⟩ [] [0] [0] 1)

/-- An update index lands at (n) exactly when its index word, read signed, is n. -/
theorem vecAdd_resultIdx_iff (idx : IVec ⟨2, ![E, 1]⟩ w) (jj : (⟨1, ![E]⟩ : Shape).Idx) (n : Fin N) :
    (vecAdd N E wf).resultIdx? jj idx = some (ix1 n)
      ↔ (idx (ix2 (⟨(jj 0).val, idx1_lt0 jj⟩ : Fin E) (0 : Fin 1))).toInt = (n.val : Int) := by
  unfold ScatterDims.resultIdx?
  constructor
  · intro h
    by_cases hc : ∀ a, 0 ≤ (vecAdd N E wf).start jj idx a + (vecAdd N E wf).window jj a ∧
        (vecAdd N E wf).start jj idx a + (vecAdd N E wf).window jj a < (⟨1, ![N]⟩ : Shape).size a
    · rw [dif_pos hc] at h
      have h' := Option.some.inj h
      have h0 : ((vecAdd N E wf).start jj idx 0 + (vecAdd N E wf).window jj 0).toNat = n.val :=
        congrArg (fun f => (f 0).val) h'
      have c0 := (hc 0).1
      rw [vecAdd_start0, vecAdd_window0] at h0 c0
      omega
    · rw [dif_neg hc] at h
      exact absurd h (by simp)
  · intro hA
    have hn : (n.val : Int) < (N : Int) := by have := n.isLt; omega
    have hc : ∀ a, 0 ≤ (vecAdd N E wf).start jj idx a + (vecAdd N E wf).window jj a ∧
        (vecAdd N E wf).start jj idx a + (vecAdd N E wf).window jj a < (⟨1, ![N]⟩ : Shape).size a := by
      intro a
      have ha : a = 0 := Subsingleton.elim _ _
      subst ha
      rw [vecAdd_start0, vecAdd_window0, hA]
      exact ⟨by omega, by show _ < ((N : Nat) : Int); omega⟩
    rw [dif_pos hc]
    congr 1
    funext a
    refine Fin.ext ?_
    match a with
    | ⟨0, _⟩ =>
      show ((vecAdd N E wf).start jj idx 0 + (vecAdd N E wf).window jj 0).toNat = n.val
      rw [vecAdd_start0, vecAdd_window0, hA]; omega

end Landing

/-- THE VECTOR SCATTER READ AT (n): the operand's entry plus the updates' entries e over the edges e whose index
    word, read signed, is n. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecAdd N E wf) x idx upd (ix1 n)
      = x (ix1 n) + ∑ e ∈ Finset.univ.filter (fun e : Fin E => (idx (ix2 e (0 : Fin 1))).toInt = (n.val : Int)),
          upd (ix1 e) := by
  -- The operand's entry is common to both sides; what is left is the sum over the updates that land at (n).
  unfold Ideal.hostScatterAdd
  congr 1
  -- Both filtered sums become sums of an `if`, the left one re-indexed by the update's one coordinate.
  rw [Finset.sum_filter, Finset.sum_filter,
    ← Equiv.sum_comp (idxEquiv1 (n := E)).symm
      (fun jj => if (vecAdd N E wf).resultIdx? jj idx = some (ix1 n) then upd jj else 0)]
  refine Finset.sum_congr rfl fun e _ => ?_
  show (if (vecAdd N E wf).resultIdx? (ix1 e) idx = some (ix1 n) then upd (ix1 e) else 0) = _
  by_cases hA : (idx (ix2 e (0 : Fin 1))).toInt = (n.val : Int)
  · rw [if_pos hA, if_pos ((vecAdd_resultIdx_iff wf idx (ix1 e) n).mpr hA)]
  · rw [if_neg hA, if_neg]
    intro h
    exact hA ((vecAdd_resultIdx_iff wf idx (ix1 e) n).mp h)

end Cert.LibVecScatter

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KvHost.lean ====
import proofs.«429222_j11897059409948_3_alg».proof.Proof.KiRun
import proofs.«429222_j11897059409948_3_alg».proof.Proof.Spec
import proofs.«429222_j11897059409948_3_alg».proof.Proof.LibRows
import proofs.«429222_j11897059409948_3_alg».proof.Proof.LibVecScatter
import proofs.«429222_j11897059409948_3_alg».proof.Proof.LibLayout2
import Idealize.ShloMosaic.Lib.StableHlo.Run
import Idealize.ShloMosaic.Lib.ValueIdx
import Idealize.ShloMosaic.Lib.Pipeline.Value
import Idealize.ShloMosaic.PureOps.Ideal.Laws

/-!
  What the host operations between the regions compute, at the ideal instance, index by index: the degree scales
  before the first region, and after each node-transform region the sum, over the edges arriving at a node, of the
  rows their sources read.
-/

noncomputable section

namespace Cert.KernelIdeal.HostV

open Cert.KernelIdeal Cert.KernelIdeal.Gen Cert.KernelIdeal.Run
open Idealize.ShloMosaic Idealize.ShloMosaic.TcCoe Idealize.ShloMosaic.ValueIdx Idealize.ShloMosaic.StableHlo

/-- A vector recast by a broadcast as a column reads, at (r, u), the vector's entry r. -/
theorem bcast_vec_col_apply {α : Type} {M : Nat} (b : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h b (ix2 r u) = b (ix1 r) :=
  broadcastInDim_apply ![0] h b (ix2 r u) (ix1 r) fun ax => by
    match ax with
    | ⟨0, _⟩ =>
      show r.val = if M = 1 then 0 else r.val
      split
      · have := r.isLt; omega
      · rfl

/-- The sum over incoming edges as the host computes it: the rows of hs gathered at the sources' normalized words,
    added into zeros at the destinations' words. -/
def edgeAgg (hs : FVec Ideal S100000x64 .f32) (v1 v3 : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 v3)
    (Host.gather gather_S100000x64_S1600000x1_S1600000x64_1_0_n_n_0_1_164 hs
      (broadcastInDim S1600000x1 ![0] bcast_S1600000_S1600000x1_0
        (select (cmpi .slt v1 (broadcastInDim S1600000 ![] bcast_S_S1600000 (constantI S_ 32 0#32)))
          (addi v1 (broadcastInDim S1600000 ![] bcast_S_S1600000 (constantI S_ 32 100000#32))) v1)))

/-- The normalized word of an edge endpoint, entry by entry. -/
theorem normW_apply (v : IVec S1600000 32) (e : Fin 1600000) :
    select (cmpi .slt v (broadcastInDim S1600000 ![] bcast_S_S1600000 (constantI S_ 32 0#32)))
      (addi v (broadcastInDim S1600000 ![] bcast_S_S1600000 (constantI S_ 32 100000#32))) v (ix1 e) = Spec.normW (v (ix1 e)) := rfl

theorem zeros_apply (i : S100000x64.Idx) :
    broadcastInDim S100000x64 ![] bcast_S_S100000x64 (constant (F := Ideal) S_ .f32 0x00000000#32) i = 0 :=
  (broadcastInDim_apply _ bcast_S_S100000x64 (constant (F := Ideal) S_ .f32 0x00000000#32) i (fun a => a.elim0) (fun a => a.elim0)).trans
    Ideal.ofBits_zero_f32

/-- The sum over incoming edges at an entry: the rows the sources read, over the edges whose destination word read
    signed is the row. -/
theorem edgeAgg_apply (hs : FVec Ideal S100000x64 .f32) (v1 v3 : IVec S1600000 32) (i : Fin 100000) (j : Fin 64) :
    edgeAgg hs v1 v3 (ix2 i j)
      = ∑ e ∈ Finset.univ.filter (fun e : Fin 1600000 => (v3 (ix1 e)).toInt = (i.val : Int)), hs (ix2 (Spec.rowOf (v1 (ix1 e))) j) := by
  unfold edgeAgg
  refine (Cert.LibRows.host_scatterAdd_rows_apply 100000 1600000 64 scatter_S100000x64_S1600000x1_S1600000x64_1_0_0_1_wf _ _ _ i j).trans ?_
  rw [zeros_apply, zero_add]
  have hidx : ∀ e : Fin 1600000, broadcastInDim S1600000x1 ![0] bcast_S1600000_S1600000x1_0 v3 (ix2 e (0 : Fin 1)) = v3 (ix1 e) :=
    fun e => bcast_vec_col_apply v3 _ e 0
  simp only [hidx]
  refine Finset.sum_congr rfl fun e _ => ?_
  refine (Cert.LibRows.gather_rows_apply 100000 1600000 64 (by decide) gather_S100000x64_S1600000x1_S1600000x64_1_0_n_n_0_1_164_wf hs _ e j).trans ?_
  refine congrArg (fun r => hs (ix2 r j)) (Fin.ext ?_)
  simp only [Spec.rowOf]
  rw [bcast_vec_col_apply, normW_apply]

/-! ## Before the first region: the edge words and the degree scales -/

/-- The source words and the destination words of the edges: the two rows of the edge array. -/
def srcV (x1 : IVec S2x1600000 32) : IVec S1600000 32 :=
  shapeCast _ (extractStridedSlice S1x1600000 ![0, 0] x1 slices_S2x1600000_S1x1600000_0_0) shapeCasts_S1x1600000_S1600000
def dstV (x1 : IVec S2x1600000 32) : IVec S1600000 32 :=
  shapeCast _ (extractStridedSlice S1x1600000 ![1, 0] x1 slices_S2x1600000_S1x1600000_1_0) shapeCasts_S1x1600000_S1600000

theorem srcV_apply (x1 : IVec S2x1600000 32) (e : Fin 1600000) : srcV x1 (ix1 e) = x1 (ix2 (0 : Fin 2) e) := by
  unfold srcV
  refine (shapeCast_apply _ shapeCasts_S1x1600000_S1600000 (ix1 e) (ix2 (0 : Fin 1) e)
    (by rw [Shape.rowMajor_val_two, Shape.rowMajor_val_one]; show 0 * 1600000 + e.val = e.val; omega)).trans ?_
  exact extractStridedSlice_apply ![0, 0] x1 slices_S2x1600000_S1x1600000_0_0 (ix2 (0 : Fin 1) e) (ix2 (0 : Fin 2) e) (fun a => match a with
    | ⟨0, _⟩ => by show (0 : ℕ) = 0 + 0; omega
    | ⟨1, _⟩ => by show e.val = 0 + e.val; omega)

theorem dstV_apply (x1 : IVec S2x1600000 32) (e : Fin 1600000) : dstV x1 (ix1 e) = x1 (ix2 (1 : Fin 2) e) := by
  unfold dstV
  refine (shapeCast_apply _ shapeCasts_S1x1600000_S1600000 (ix1 e) (ix2 (0 : Fin 1) e)
    (by rw [Shape.rowMajor_val_two, Shape.rowMajor_val_one]; show 0 * 1600000 + e.val = e.val; omega)).trans ?_
  exact extractStridedSlice_apply ![1, 0] x1 slices_S2x1600000_S1x1600000_1_0 (ix2 (0 : Fin 1) e) (ix2 (1 : Fin 2) e) (fun a => match a with
    | ⟨0, _⟩ => by show (1 : ℕ) = 1 + 0; omega
    | ⟨1, _⟩ => by show e.val = 0 + e.val; omega)

/-- The degrees as the host computes them: ones, plus one per edge added at the destination's normalized word. -/
def degV (v3 : IVec S1600000 32) : FVec Ideal S100000 .f32 :=
  Host.scatterAdd (F := Ideal) scatter_S100000_S1600000x1_S1600000_n_0_0_1
    (broadcastInDim S100000 ![] bcast_S_S100000 (constant (F := Ideal) S_ .f32 0x3F800000#32))
    (broadcastInDim S1600000x1 ![0] bcast_S1600000_S1600000x1_0
      (select (cmpi .slt v3 (broadcastInDim S1600000 ![] bcast_S_S1600000 (constantI S_ 32 0#32)))
        (addi v3 (broadcastInDim S1600000 ![] bcast_S_S1600000 (constantI S_ 32 100000#32))) v3))
    (broadcastInDim S1600000 ![] bcast_S_S1600000 (constant (F := Ideal) S_ .f32 0x3F800000#32))

/-- and their inverse square roots. -/
def dinvV (v3 : IVec S1600000 32) : FVec Ideal S100000 .f32 := Host.rsqrt (F := Ideal) (degV v3)

/-- The host's accumulating scatter of a vector at the ideal values, where it is the exact sum. -/
theorem host_scatterAdd_vec {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (Cert.LibVecScatter.vecAdd N E wf) x idx upd (ix1 n)
      = x (ix1 n) + ∑ e ∈ Finset.univ.filter (fun e : Fin E => (idx (ix2 e (0 : Fin 1))).toInt = (n.val : Int)), upd (ix1 e) :=
  Cert.LibVecScatter.scatterAdd_vec_apply wf x idx upd n

theorem ones100000_apply (i : S100000.Idx) :
    broadcastInDim S100000 ![] bcast_S_S100000 (constant (F := Ideal) S_ .f32 0x3F800000#32) i = 1 :=
  (broadcastInDim_apply _ bcast_S_S100000 (constant (F := Ideal) S_ .f32 0x3F800000#32) i (fun a => a.elim0) (fun a => a.elim0)).trans Spec.one_f32
theorem ones1600000_apply (i : S1600000.Idx) :
    broadcastInDim S1600000 ![] bcast_S_S1600000 (constant (F := Ideal) S_ .f32 0x3F800000#32) i = 1 :=
  (broadcastInDim_apply _ bcast_S_S1600000 (constant (F := Ideal) S_ .f32 0x3F800000#32) i (fun a => a.elim0) (fun a => a.elim0)).trans Spec.one_f32

theorem degV_apply (v3 : IVec S1600000 32) (i : Fin 100000) :
    degV v3 (ix1 i) = Spec.deg (fun e : Fin 1600000 => (Spec.normW (v3 (ix1 e))).toInt) i := by
  unfold degV Spec.deg
  refine (host_scatterAdd_vec scatter_S100000_S1600000x1_S1600000_n_0_0_1_wf _ _ _ i).trans ?_
  rw [ones100000_apply]
  refine congrArg (fun s => (1 : EReal) + s) ?_
  refine Finset.sum_congr (Finset.filter_congr fun e _ => ?_) (fun e _ => ones1600000_apply (ix1 e))
  rw [bcast_vec_col_apply, normW_apply]

/-- The host's inverse square root of a vector, entry by entry (stated at a variable vector). -/
theorem hostRsqrt_apply (y : FVec Ideal S100000 .f32) (i : S100000.Idx) :
    Host.rsqrt (F := Ideal) y i = Ideal.rsqrt (y i) := rfl

theorem dinvV_apply (v3 : IVec S1600000 32) (i : Fin 100000) :
    dinvV v3 (ix1 i) = Spec.dinv (fun e : Fin 1600000 => (Spec.normW (v3 (ix1 e))).toInt) i := by
  unfold dinvV Spec.dinv
  rw [hostRsqrt_apply, degV_apply]

variable (m : (ℓ : Loc nD τ sig) → Buf (Elt Ideal) ℓ)

theorem U3_v31 (c : Dev nD) :
    (U3 m c main_v31 : FVec Ideal S100000x64 .f32) = edgeAgg (U2 m c main_v21_0) (U2 m c main_v1) (U2 m c main_v3) := by
  show StableHlo.after hostOps1 (U2 m c) (Proc.devRef .tc main_v31) = _
  after_results
  rfl

theorem U6_v43 (c : Dev nD) :
    (U6 m c main_v43 : FVec Ideal S100000x64 .f32) = edgeAgg (U5 m c main_v33_0) (U5 m c main_v1) (U5 m c main_v3) := by
  show StableHlo.after hostOps3 (U5 m c) (Proc.devRef .tc main_v43) = _
  after_results
  rfl

end Cert.KernelIdeal.HostV

end
-- ==== Proof.KvHost0.lean ====
import proofs.«429222_j11897059409948_3_alg».proof.Proof.KvHost

/-!
  The buffers the first stretch of host operations writes and the regions read, as terms of the argument arrays.
-/

noncomputable section

namespace Cert.KernelIdeal.HostV

open Cert.KernelIdeal Cert.KernelIdeal.Gen Cert.KernelIdeal.Run
open Idealize.ShloMosaic Idealize.ShloMosaic.TcCoe Idealize.ShloMosaic.ValueIdx Idealize.ShloMosaic.StableHlo

variable (m : (ℓ : Loc nD τ sig) → Buf (Elt Ideal) ℓ)

/-- The buffers the first host stretch writes and the regions read, as terms of the argument arrays. -/
theorem U1_v1 (c : Dev nD) : (U1 m c main_v1 : IVec S1600000 32) = srcV (m ((c.tc : Thread nD τ).loc main_arg1)) := by
  show StableHlo.after hostOps0 (V0 m c) (Proc.devRef .tc main_v1) = _
  after_results
  rfl
theorem U1_v3 (c : Dev nD) : (U1 m c main_v3 : IVec S1600000 32) = dstV (m ((c.tc : Thread nD τ).loc main_arg1)) := by
  show StableHlo.after hostOps0 (V0 m c) (Proc.devRef .tc main_v3) = _
  after_results
  rfl
theorem U1_v4 (c : Dev nD) : (U1 m c main_v4 : IVec S100000x1 32) = shapeCast _ (m ((c.tc : Thread nD τ).loc main_arg2)) shapeCasts_S100000_S100000x1 := by
  show StableHlo.after hostOps0 (V0 m c) (Proc.devRef .tc main_v4) = _
  after_results
  rfl
theorem U1_v15 (c : Dev nD) : (U1 m c main_v15 : FVec Ideal S100000x1 .f32)
    = shapeCast _ (dinvV (dstV (m ((c.tc : Thread nD τ).loc main_arg1)))) shapeCasts_S100000_S100000x1 := by
  show StableHlo.after hostOps0 (V0 m c) (Proc.devRef .tc main_v15) = _
  after_results
  rfl
set_option maxHeartbeats 2000000 in
theorem U1_v17 (c : Dev nD) : (U1 m c main_v17 : FVec Ideal S100000x1 .f32)
    = shapeCast _ (mulf (dinvV (dstV (m ((c.tc : Thread nD τ).loc main_arg1)))) (dinvV (dstV (m ((c.tc : Thread nD τ).loc main_arg1))))) shapeCasts_S100000_S100000x1 := by
  show StableHlo.after hostOps0 (V0 m c) (Proc.devRef .tc main_v17) = _
  after_results
  rfl
theorem U1_v18 (c : Dev nD) : (U1 m c main_v18 : FVec Ideal S1x64 .f32) = shapeCast _ (m ((c.tc : Thread nD τ).loc main_arg4)) shapeCasts_S64_S1x64 := by
  show StableHlo.after hostOps0 (V0 m c) (Proc.devRef .tc main_v18) = _
  after_results
  rfl
theorem U1_v19 (c : Dev nD) : (U1 m c main_v19 : FVec Ideal S1x64 .f32) = shapeCast _ (m ((c.tc : Thread nD τ).loc main_arg6)) shapeCasts_S64_S1x64 := by
  show StableHlo.after hostOps0 (V0 m c) (Proc.devRef .tc main_v19) = _
  after_results
  rfl
theorem U1_v20 (c : Dev nD) : (U1 m c main_v20 : FVec Ideal S1x3 .f32) = shapeCast _ (m ((c.tc : Thread nD τ).loc main_arg8)) shapeCasts_S3_S1x3 := by
  show StableHlo.after hostOps0 (V0 m c) (Proc.devRef .tc main_v20) = _
  after_results
  rfl

end Cert.KernelIdeal.HostV

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«429222_j11897059409948_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.KvR0.lean ====
import proofs.«429222_j11897059409948_3_alg».proof.Proof.KiR0
import proofs.«429222_j11897059409948_3_alg».proof.Proof.LibPlainAny
import Idealize.ShloMosaic.Lib.ValueIdx
import Idealize.ShloMosaic.Lib.ValueLayout
import Idealize.ShloMosaic.Lib.Pipeline.Value

/-!
  The node-transform region (pipeline 0) at the extended reals, read as two arrays.
  Every grid point t of 50 handles rows 2000 t .. 2000 t + 1999 of the features, of the two scale columns and of the
  two arrays it writes, and reads the whole weight and the whole bias row; the blocks tile the arrays, and element
  (r, j) of a block is element (2000 t + r, j) of its array.
  At every entry the first payload is the row of the features times the column of the weight, summed over the 64
  inner indices, times the row's scale; the second is the same product times the row's squared scale plus the bias
  of the column. A change of float format is the identity on the extended reals, so the product of the operands cut
  to bf16 is the product of the operands. So the two arrays the region leaves hold those values at every index.
-/

noncomputable section

namespace Cert.KernelIdeal

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

namespace R0

/-- The region's arrays by their literal types: the features, the weight, the bias row, the two scale columns, and
    the two arrays the region leaves. -/
abbrev inX (c : Dev nD) : FVec Ideal S100000x64 .f32 := V c (Pipeline.arrRef spec0 0)
abbrev inW (c : Dev nD) : FVec Ideal S64x64 .f32 := V c (Pipeline.arrRef spec0 1)
abbrev inB (c : Dev nD) : FVec Ideal S1x64 .f32 := V c (Pipeline.arrRef spec0 2)
abbrev inSq (c : Dev nD) : FVec Ideal S100000x1 .f32 := V c (Pipeline.arrRef spec0 3)
abbrev inDv (c : Dev nD) : FVec Ideal S100000x1 .f32 := V c (Pipeline.arrRef spec0 4)
abbrev outHs (c : Dev nD) : FVec Ideal S100000x64 .f32 := (dat V c).arrAt 5 cfg0.N
abbrev outSelf (c : Dev nD) : FVec Ideal S100000x64 .f32 := (dat V c).arrAt 6 cfg0.N

/-- The zero offsets, however spelt. -/
theorem hz : (![0, 0] : Fin 2 → Nat) = fun _ => 0 :=
  funext fun a => by match a with | ⟨0, _⟩ => rfl | ⟨1, _⟩ => rfl

/-- The product at entry (r, j) of the block: row r of the first block times column j of the weight. The printed
    record of dimension numbers is the plain one of a 2000 x 64 by 64 x 64 product, and the operands cut to bf16 read
    as the operands. -/
theorem pay1_apply (x0 : FVec Ideal S2000x64 .f32) (x1 : FVec Ideal S64x64 .f32) (r : Fin 2000) (j : Fin 64) :
    k0_pay1 x0 x1 (ix2 r j) = ∑ k : Fin 64, x0 (ix2 r k) * x1 (ix2 k j) := by
  unfold k0_pay1
  exact Cert.LibPlainAny.matmul_plain_zero_any 2000 64 64 (truncf .bf16 x0 bitsLt_bf16_f32) (truncf .bf16 x1 bitsLt_bf16_f32) r j

/-- The first payload at entry (r, j): the product times the column's entry of row r. -/
theorem pay2_apply (x0 : FVec Ideal S2000x64 .f32) (x1 : FVec Ideal S64x64 .f32) (x4 : FVec Ideal S2000x1 .f32)
    (r : Fin 2000) (j : Fin 64) :
    k0_pay2 x0 x1 x4 (ix2 r j) = (∑ k : Fin 64, x0 (ix2 r k) * x1 (ix2 k j)) * x4 (ix2 r (0 : Fin 1)) := by
  unfold k0_pay2
  simp only [shapeCast_self]
  rw [mulf_apply, pay1_apply, Cert.LibPlainDot.broadcast_col 2000 64]

/-- The second payload at entry (r, j): the product times the column's entry of row r, plus the row's entry of
    column j. -/
theorem pay3_apply (x0 : FVec Ideal S2000x64 .f32) (x1 : FVec Ideal S64x64 .f32) (x3 : FVec Ideal S2000x1 .f32)
    (x2 : FVec Ideal S1x64 .f32) (r : Fin 2000) (j : Fin 64) :
    k0_pay3 x0 x1 x3 x2 (ix2 r j)
      = (∑ k : Fin 64, x0 (ix2 r k) * x1 (ix2 k j)) * x3 (ix2 r (0 : Fin 1)) + x2 (ix2 (0 : Fin 1) j) := by
  unfold k0_pay3
  simp only [shapeCast_self]
  rw [addf_apply, mulf_apply, pay1_apply, Cert.LibPlainDot.broadcast_col 2000 64, broadcastTo_1b_ab_apply]

/-- What the region leaves in its first output, as one function of the arrays it reads. -/
def G5 (c : Dev nD) : FVec Ideal S100000x64 .f32 := fun i =>
  (∑ k : Fin 64, inX V c (ix2 (n0 := 100000) (i 0) k) * inW V c (ix2 (n1 := 64) k (i 1)))
    * inDv V c (ix2 (n0 := 100000) (i 0) (0 : Fin 1))

/-- What the region leaves in its second output, as one function of the arrays it reads. -/
def G6 (c : Dev nD) : FVec Ideal S100000x64 .f32 := fun i =>
  (∑ k : Fin 64, inX V c (ix2 (n0 := 100000) (i 0) k) * inW V c (ix2 (n1 := 64) k (i 1)))
    * inSq V c (ix2 (n0 := 100000) (i 0) (0 : Fin 1)) + inB V c (ix2 (n1 := 64) (0 : Fin 1) (i 1))

/-- The printed index maps, decided over the grid: the block index at point t is (t, 0) for the features, the two
    scale columns and the two outputs, and (0, 0) for the weight and the bias row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to the first output is block t of G5: the output block's entry (r, j) sits at row
    2000 t + r, column j; entry (r, k) of the features' block sits at row 2000 t + r, column k; the weight's block is the
    weight; the column block's entry (r, 0) sits at row 2000 t + r. -/
theorem flushed5_eq (c : Dev nD) (t : Fin cfg0.N) :
    (dat V c).flushed 5 t = ((cfg0.win 5).blk t).view.read (Elt Ideal) (G5 V c) := by
  show (cfg0.win 5).cut (grid0.coords t) ((dat V c).after 5 t) = _
  rw [after5]
  unfold out5
  rw [View.canon_unit_zero hz]
  simp only [View.ld_unit_zero (S := S2000x64) hz, View.ld_unit_zero (S := S64x64) hz, View.ld_unit_zero (S := S2000x1) hz]
  obtain ⟨e00, e01, e10, e11, e20, e21, e30, e31, e40, e41, e50, e51, e60, e61⟩ := idx_facts t
  funext (y : S2000x64.Idx)
  obtain ⟨r, j, rfl⟩ : ∃ (r : Fin 2000) (j : Fin 64), y = ix2 r j := ⟨y 0, y 1, eq_ix2 y⟩
  show k0_pay2 (iblk V c 0 t) (iblk V c 1 t) (iblk V c 4 t) (ix2 r j) = G5 V c (((cfg0.win 5).blk t).view.emb (ix2 r j))
  rw [pay2_apply]
  have h0 : ∀ k : Fin 64, ((cfg0.win 0).blk t).view.emb (ix2 r k)
      = ix2 (n0 := 100000) ((((cfg0.win 5).blk t).view.emb (ix2 r j)) 0) k := fun k => by
    funext a; apply Fin.ext
    match a with
    | ⟨0, _⟩ => show win0_0.index t (0 : Fin 2) * 2000 + 1 * r.val = win0_5.index t (0 : Fin 2) * 2000 + 1 * r.val; omega
    | ⟨1, _⟩ => show win0_0.index t (1 : Fin 2) * 64 + 1 * k.val = k.val; omega
  have h1 : ∀ k : Fin 64, ((cfg0.win 1).blk t).view.emb (ix2 k j)
      = ix2 (n1 := 64) k ((((cfg0.win 5).blk t).view.emb (ix2 r j)) 1) := fun k => by
    funext a; apply Fin.ext
    match a with
    | ⟨0, _⟩ => show win0_1.index t (0 : Fin 2) * 64 + 1 * k.val = k.val; omega
    | ⟨1, _⟩ => show win0_1.index t (1 : Fin 2) * 64 + 1 * j.val = win0_5.index t (1 : Fin 2) * 64 + 1 * j.val; omega
  have h4 : ((cfg0.win 4).blk t).view.emb (ix2 r (0 : Fin 1))
      = ix2 (n0 := 100000) ((((cfg0.win 5).blk t).view.emb (ix2 r j)) 0) (0 : Fin 1) := by
    funext a; apply Fin.ext
    match a with
    | ⟨0, _⟩ => show win0_4.index t (0 : Fin 2) * 2000 + 1 * r.val = win0_5.index t (0 : Fin 2) * 2000 + 1 * r.val; omega
    | ⟨1, _⟩ => show win0_4.index t (1 : Fin 2) * 1 + 1 * 0 = 0; omega
  show (∑ k : Fin 64, inX V c (((cfg0.win 0).blk t).view.emb (ix2 r k)) * inW V c (((cfg0.win 1).blk t).view.emb (ix2 k j)))
      * inDv V c (((cfg0.win 4).blk t).view.emb (ix2 r (0 : Fin 1))) = _
  simp only [h0, h1, h4]
  rfl

/-- What point t writes back to the second output is block t of G6: as for the first output, with the other scale
    column; the bias row's block is the bias row. -/
theorem flushed6_eq (c : Dev nD) (t : Fin cfg0.N) :
    (dat V c).flushed 6 t = ((cfg0.win 6).blk t).view.read (Elt Ideal) (G6 V c) := by
  show (cfg0.win 6).cut (grid0.coords t) ((dat V c).after 6 t) = _
  rw [after6]
  unfold out6
  rw [View.canon_unit_zero hz]
  simp only [View.ld_unit_zero (S := S2000x64) hz, View.ld_unit_zero (S := S64x64) hz, View.ld_unit_zero (S := S2000x1) hz,
    View.ld_unit_zero (S := S1x64) hz]
  obtain ⟨e00, e01, e10, e11, e20, e21, e30, e31, e40, e41, e50, e51, e60, e61⟩ := idx_facts t
  funext (y : S2000x64.Idx)
  obtain ⟨r, j, rfl⟩ : ∃ (r : Fin 2000) (j : Fin 64), y = ix2 r j := ⟨y 0, y 1, eq_ix2 y⟩
  show k0_pay3 (iblk V c 0 t) (iblk V c 1 t) (iblk V c 3 t) (iblk V c 2 t) (ix2 r j)
    = G6 V c (((cfg0.win 6).blk t).view.emb (ix2 r j))
  rw [pay3_apply]
  have h0 : ∀ k : Fin 64, ((cfg0.win 0).blk t).view.emb (ix2 r k)
      = ix2 (n0 := 100000) ((((cfg0.win 6).blk t).view.emb (ix2 r j)) 0) k := fun k => by
    funext a; apply Fin.ext
    match a with
    | ⟨0, _⟩ => show win0_0.index t (0 : Fin 2) * 2000 + 1 * r.val = win0_6.index t (0 : Fin 2) * 2000 + 1 * r.val; omega
    | ⟨1, _⟩ => show win0_0.index t (1 : Fin 2) * 64 + 1 * k.val = k.val; omega
  have h1 : ∀ k : Fin 64, ((cfg0.win 1).blk t).view.emb (ix2 k j)
      = ix2 (n1 := 64) k ((((cfg0.win 6).blk t).view.emb (ix2 r j)) 1) := fun k => by
    funext a; apply Fin.ext
    match a with
    | ⟨0, _⟩ => show win0_1.index t (0 : Fin 2) * 64 + 1 * k.val = k.val; omega
    | ⟨1, _⟩ => show win0_1.index t (1 : Fin 2) * 64 + 1 * j.val = win0_6.index t (1 : Fin 2) * 64 + 1 * j.val; omega
  have h3 : ((cfg0.win 3).blk t).view.emb (ix2 r (0 : Fin 1))
      = ix2 (n0 := 100000) ((((cfg0.win 6).blk t).view.emb (ix2 r j)) 0) (0 : Fin 1) := by
    funext a; apply Fin.ext
    match a with
    | ⟨0, _⟩ => show win0_3.index t (0 : Fin 2) * 2000 + 1 * r.val = win0_6.index t (0 : Fin 2) * 2000 + 1 * r.val; omega
    | ⟨1, _⟩ => show win0_3.index t (1 : Fin 2) * 1 + 1 * 0 = 0; omega
  have h2 : ((cfg0.win 2).blk t).view.emb (ix2 (0 : Fin 1) j)
      = ix2 (n1 := 64) (0 : Fin 1) ((((cfg0.win 6).blk t).view.emb (ix2 r j)) 1) := by
    funext a; apply Fin.ext
    match a with
    | ⟨0, _⟩ => show win0_2.index t (0 : Fin 2) * 1 + 1 * 0 = 0; omega
    | ⟨1, _⟩ => show win0_2.index t (1 : Fin 2) * 64 + 1 * j.val = win0_6.index t (1 : Fin 2) * 64 + 1 * j.val; omega
  show (∑ k : Fin 64, inX V c (((cfg0.win 0).blk t).view.emb (ix2 r k)) * inW V c (((cfg0.win 1).blk t).view.emb (ix2 k j)))
      * inSq V c (((cfg0.win 3).blk t).view.emb (ix2 r (0 : Fin 1)))
      + inB V c (((cfg0.win 2).blk t).view.emb (ix2 (0 : Fin 1) j)) = _
  simp only [h0, h1, h3, h2]
  rfl

/-- An index of the first output is in point t's block iff each coordinate is in the block's range on its axis. -/
theorem mem_blk5 (t : Fin cfg0.N) (i : S100000x64.Idx) :
    i ∈ ((cfg0.win 5).blk t).view.set
      ↔ ∀ a : Fin 2, win0_5.index t a * S2000x64.size a ≤ (i a).val ∧ (i a).val < win0_5.index t a * S2000x64.size a + S2000x64.size a := by
  show i ∈ ((View.whole main_v21_0).slice (win0_5.rect t)).set ↔ _
  rw [View.set_slice_whole, Rect.mem_set_unit]
  exact Iff.rfl

/-- The same for the second output. -/
theorem mem_blk6 (t : Fin cfg0.N) (i : S100000x64.Idx) :
    i ∈ ((cfg0.win 6).blk t).view.set
      ↔ ∀ a : Fin 2, win0_6.index t a * S2000x64.size a ≤ (i a).val ∧ (i a).val < win0_6.index t a * S2000x64.size a + S2000x64.size a := by
  show i ∈ ((View.whole main_v21_1).slice (win0_6.rect t)).set ↔ _
  rw [View.set_slice_whole, Rect.mem_set_unit]
  exact Iff.rfl

/-- Every index of the first output is in the block of the point its row falls to: row n belongs to point n / 2000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 2000 < 50 := by omega
  obtain ⟨-, -, -, -, -, -, -, -, -, -, e50, e51, -, -⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 64 ≤ (i 1).val
      ∧ (i 1).val < win0_5.index ⟨(i 0).val / 2000, ht⟩ (1 : Fin 2) * 64 + 64
    rw [e51]; omega

/-- The same for the second output. -/
theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 2000 < 50 := by omega
  obtain ⟨-, -, -, -, -, -, -, -, -, -, -, -, e60, e61⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, ht⟩ (1 : Fin 2) * 64 ≤ (i 1).val
      ∧ (i 1).val < win0_6.index ⟨(i 0).val / 2000, ht⟩ (1 : Fin 2) * 64 + 64
    rw [e61]; omega

/-- The first array the region leaves is G5 of the arrays it reads, -/
theorem outHs_eq (c : Dev nD) : outHs V c = G5 V c :=
  (dat V c).arrAt_eq_of_cover 5 (G5 V c) (fun t _ => flushed5_eq V c t) cover5

/-- and the second is G6 of them. -/
theorem outSelf_eq (c : Dev nD) : outSelf V c = G6 V c :=
  (dat V c).arrAt_eq_of_cover 6 (G6 V c) (fun t _ => flushed6_eq V c t) cover6

/-- Entry (i, j) of the first array the region leaves. -/
theorem outHs_apply (c : Dev nD) (i : Fin 100000) (j : Fin 64) :
    outHs V c (ix2 i j) = (∑ k : Fin 64, inX V c (ix2 i k) * inW V c (ix2 k j)) * inDv V c (ix2 i (0 : Fin 1)) := by
  rw [outHs_eq]
  rfl

/-- Entry (i, j) of the second array the region leaves. -/
theorem outSelf_apply (c : Dev nD) (i : Fin 100000) (j : Fin 64) :
    outSelf V c (ix2 i j) = (∑ k : Fin 64, inX V c (ix2 i k) * inW V c (ix2 k j)) * inSq V c (ix2 i (0 : Fin 1)) + inB V c (ix2 (0 : Fin 1) j) := by
  rw [outSelf_eq]
  rfl

end R0

end Cert.KernelIdeal

end
-- ==== Proof.KvR1.lean ====
import proofs.«429222_j11897059409948_3_alg».proof.Proof.KiR1
import proofs.«429222_j11897059409948_3_alg».proof.Proof.LibPlainDot
import Idealize.ShloMosaic.Lib.ValueIdx
import Idealize.ShloMosaic.Lib.Pipeline.Value

/-!
  The combine region (pipeline 1) at the extended reals, read as one array.
  Every grid point t of 50 handles rows 2000 t .. 2000 t + 1999 of the three arrays it reads and of the array it
  writes; the blocks tile the arrays, and element (r, j) of a block is element (2000 t + r, j) of its array.
  At every entry the body's payload is the aggregate times the row's degree scale plus the self term, cut below
  at zero; so the array the region leaves holds that value at every index.
-/

noncomputable section

namespace Cert.KernelIdeal

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

namespace R1

/-- The region's arrays by their literal types: the aggregate, the self term, the degree scale column, and the
    array the region leaves. -/
abbrev inAgg (c : Dev nD) : FVec Ideal S100000x64 .f32 := V c (Pipeline.arrRef spec1 0)
abbrev inSelf (c : Dev nD) : FVec Ideal S100000x64 .f32 := V c (Pipeline.arrRef spec1 1)
abbrev inDv (c : Dev nD) : FVec Ideal S100000x1 .f32 := V c (Pipeline.arrRef spec1 2)
abbrev outC (c : Dev nD) : FVec Ideal S100000x64 .f32 := (dat V c).arrAt 3 cfg1.N

/-- The zero offsets, however spelt. -/
theorem hz : (![0, 0] : Fin 2 → Nat) = fun _ => 0 :=
  funext fun a => by match a with | ⟨0, _⟩ => rfl | ⟨1, _⟩ => rfl

/-- The body's payload at entry (r, j) of the block: the first block's entry times the column's entry of row r, plus
    the second block's entry, cut below at zero. -/
theorem pay_apply (x0 x1 : FVec Ideal S2000x64 .f32) (x2 : FVec Ideal S2000x1 .f32) (r : Fin 2000) (j : Fin 64) :
    k1_pay1 x0 x2 x1 (ix2 r j)
      = max (x0 (ix2 r j) * x2 (ix2 r (0 : Fin 1)) + x1 (ix2 r j)) (Ideal.ofBits .f32 0x00000000#32) := by
  unfold k1_pay1
  simp only [shapeCast_self]
  rw [maximumf_apply, addf_apply, mulf_apply, Cert.LibPlainDot.broadcast_col 2000 64]
  rfl

/-- What the region leaves, as one function of the arrays it reads. -/
def G (c : Dev nD) : FVec Ideal S100000x64 .f32 := fun i =>
  max (inAgg V c i * inDv V c (ix2 (n0 := 100000) (i 0) (0 : Fin 1)) + inSelf V c i) (Ideal.ofBits .f32 0x00000000#32)

/-- The printed index maps, decided over the grid: every window's block index at point t is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of G: the output block's entry (r, j) sits at row 2000 t + r, column j, and so
    do the entries of the two wide blocks it is computed from; the column block's entry (r, 0) sits at row 2000 t + r. -/
theorem flushed_eq (c : Dev nD) (t : Fin cfg1.N) :
    (dat V c).flushed 3 t = ((cfg1.win 3).blk t).view.read (Elt Ideal) (G V c) := by
  show (cfg1.win 3).cut (grid1.coords t) ((dat V c).after 3 t) = _
  rw [after3]
  unfold out3
  rw [View.canon_unit_zero hz]
  simp only [View.ld_unit_zero (S := S2000x64) hz, View.ld_unit_zero (S := S2000x1) hz]
  obtain ⟨e00, e01, e10, e11, e20, e21, e30, e31⟩ := idx_facts t
  funext (y : S2000x64.Idx)
  obtain ⟨r, j, rfl⟩ : ∃ (r : Fin 2000) (j : Fin 64), y = ix2 r j := ⟨y 0, y 1, eq_ix2 y⟩
  show k1_pay1 (iblk V c 0 t) (iblk V c 2 t) (iblk V c 1 t) (ix2 r j) = G V c (((cfg1.win 3).blk t).view.emb (ix2 r j))
  rw [pay_apply]
  have h0 : ((cfg1.win 0).blk t).view.emb (ix2 r j) = ((cfg1.win 3).blk t).view.emb (ix2 r j) := by
    funext a; apply Fin.ext
    match a with
    | ⟨0, _⟩ => show win1_0.index t (0 : Fin 2) * 2000 + 1 * r.val = win1_3.index t (0 : Fin 2) * 2000 + 1 * r.val; omega
    | ⟨1, _⟩ => show win1_0.index t (1 : Fin 2) * 64 + 1 * j.val = win1_3.index t (1 : Fin 2) * 64 + 1 * j.val; omega
  have h1 : ((cfg1.win 1).blk t).view.emb (ix2 r j) = ((cfg1.win 3).blk t).view.emb (ix2 r j) := by
    funext a; apply Fin.ext
    match a with
    | ⟨0, _⟩ => show win1_1.index t (0 : Fin 2) * 2000 + 1 * r.val = win1_3.index t (0 : Fin 2) * 2000 + 1 * r.val; omega
    | ⟨1, _⟩ => show win1_1.index t (1 : Fin 2) * 64 + 1 * j.val = win1_3.index t (1 : Fin 2) * 64 + 1 * j.val; omega
  have h2 : ((cfg1.win 2).blk t).view.emb (ix2 r (0 : Fin 1))
      = ix2 (n0 := 100000) ((((cfg1.win 3).blk t).view.emb (ix2 r j)) 0) (0 : Fin 1) := by
    funext a; apply Fin.ext
    match a with
    | ⟨0, _⟩ => show win1_2.index t (0 : Fin 2) * 2000 + 1 * r.val = win1_3.index t (0 : Fin 2) * 2000 + 1 * r.val; omega
    | ⟨1, _⟩ => show win1_2.index t (1 : Fin 2) * 1 + 1 * 0 = 0; omega
  show max (inAgg V c (((cfg1.win 0).blk t).view.emb (ix2 r j)) * inDv V c (((cfg1.win 2).blk t).view.emb (ix2 r (0 : Fin 1)))
      + inSelf V c (((cfg1.win 1).blk t).view.emb (ix2 r j))) (Ideal.ofBits .f32 0x00000000#32) = _
  rw [h0, h1, h2]
  rfl

/-- An index of the array is in point t's block iff each coordinate is in the block's range on its axis. -/
theorem mem_blk (t : Fin cfg1.N) (i : S100000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v32).slice (win1_3.rect t)).set ↔ _
  rw [View.set_slice_whole, Rect.mem_set_unit]
  exact Iff.rfl

/-- Every index is in the block of the point its row falls to: row n belongs to point n / 2000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 2000 < 50 := by omega
  obtain ⟨-, -, -, -, -, -, e30, e31⟩ := idx_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e31]; omega

/-- The array the region leaves is G of the arrays it reads. -/
theorem outC_eq (c : Dev nD) : outC V c = G V c :=
  (dat V c).arrAt_eq_of_cover 3 (G V c) (fun t _ => flushed_eq V c t) cover

/-- Entry (i, j) of the array the region leaves. -/
theorem outC_apply (c : Dev nD) (i : Fin 100000) (j : Fin 64) :
    outC V c (ix2 i j) = max (inAgg V c (ix2 i j) * inDv V c (ix2 i (0 : Fin 1)) + inSelf V c (ix2 i j)) (Ideal.ofBits .f32 0x00000000#32) := by
  rw [outC_eq]
  rfl

end R1

end Cert.KernelIdeal

end
-- ==== Proof.KvR2.lean ====
import proofs.«429222_j11897059409948_3_alg».proof.Proof.KiR2
import proofs.«429222_j11897059409948_3_alg».proof.Proof.LibPlainAny
import Idealize.ShloMosaic.Lib.ValueIdx
import Idealize.ShloMosaic.Lib.ValueLayout
import Idealize.ShloMosaic.Lib.Pipeline.Value

/-!
  The node-transform region (pipeline 2) at the extended reals, read as two arrays.
  Every grid point t of 50 handles rows 2000 t .. 2000 t + 1999 of the features, of the two scale columns and of the
  two arrays it writes, and reads the whole weight and the whole bias row; the blocks tile the arrays, and element
  (r, j) of a block is element (2000 t + r, j) of its array.
  At every entry the first payload is the row of the features times the column of the weight, summed over the 64
  inner indices, times the row's scale; the second is the same product times the row's squared scale plus the bias
  of the column. A change of float format is the identity on the extended reals, so the product of the operands cut
  to bf16 is the product of the operands. So the two arrays the region leaves hold those values at every index.
-/

noncomputable section

namespace Cert.KernelIdeal

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

namespace R2

/-- The region's arrays by their literal types: the features, the weight, the bias row, the two scale columns, and
    the two arrays the region leaves. -/
abbrev inX (c : Dev nD) : FVec Ideal S100000x64 .f32 := V c (Pipeline.arrRef spec2 0)
abbrev inW (c : Dev nD) : FVec Ideal S64x64 .f32 := V c (Pipeline.arrRef spec2 1)
abbrev inB (c : Dev nD) : FVec Ideal S1x64 .f32 := V c (Pipeline.arrRef spec2 2)
abbrev inSq (c : Dev nD) : FVec Ideal S100000x1 .f32 := V c (Pipeline.arrRef spec2 3)
abbrev inDv (c : Dev nD) : FVec Ideal S100000x1 .f32 := V c (Pipeline.arrRef spec2 4)
abbrev outHs (c : Dev nD) : FVec Ideal S100000x64 .f32 := (dat V c).arrAt 5 cfg2.N
abbrev outSelf (c : Dev nD) : FVec Ideal S100000x64 .f32 := (dat V c).arrAt 6 cfg2.N

/-- The zero offsets, however spelt. -/
theorem hz : (![0, 0] : Fin 2 → Nat) = fun _ => 0 :=
  funext fun a => by match a with | ⟨0, _⟩ => rfl | ⟨1, _⟩ => rfl

/-- The product at entry (r, j) of the block: row r of the first block times column j of the weight. The printed
    record of dimension numbers is the plain one of a 2000 x 64 by 64 x 64 product, and the operands cut to bf16 read
    as the operands. -/
theorem pay1_apply (x0 : FVec Ideal S2000x64 .f32) (x1 : FVec Ideal S64x64 .f32) (r : Fin 2000) (j : Fin 64) :
    k2_pay1 x0 x1 (ix2 r j) = ∑ k : Fin 64, x0 (ix2 r k) * x1 (ix2 k j) := by
  unfold k2_pay1
  simp only [shapeCast_self]
  exact Cert.LibPlainAny.matmul_plain_zero_any 2000 64 64 (truncf .bf16 x0 bitsLt_bf16_f32) (truncf .bf16 x1 bitsLt_bf16_f32) r j

/-- The first payload at entry (r, j): the product times the column's entry of row r. -/
theorem pay2_apply (x0 : FVec Ideal S2000x64 .f32) (x1 : FVec Ideal S64x64 .f32) (x4 : FVec Ideal S2000x1 .f32)
    (r : Fin 2000) (j : Fin 64) :
    k2_pay2 x0 x1 x4 (ix2 r j) = (∑ k : Fin 64, x0 (ix2 r k) * x1 (ix2 k j)) * x4 (ix2 r (0 : Fin 1)) := by
  unfold k2_pay2
  simp only [shapeCast_self]
  rw [mulf_apply, pay1_apply, Cert.LibPlainDot.broadcast_col 2000 64]

/-- The second payload at entry (r, j): the product times the column's entry of row r, plus the row's entry of
    column j. -/
theorem pay3_apply (x0 : FVec Ideal S2000x64 .f32) (x1 : FVec Ideal S64x64 .f32) (x3 : FVec Ideal S2000x1 .f32)
    (x2 : FVec Ideal S1x64 .f32) (r : Fin 2000) (j : Fin 64) :
    k2_pay3 x0 x1 x3 x2 (ix2 r j)
      = (∑ k : Fin 64, x0 (ix2 r k) * x1 (ix2 k j)) * x3 (ix2 r (0 : Fin 1)) + x2 (ix2 (0 : Fin 1) j) := by
  unfold k2_pay3
  simp only [shapeCast_self]
  rw [addf_apply, mulf_apply, pay1_apply, Cert.LibPlainDot.broadcast_col 2000 64, broadcastTo_1b_ab_apply]

/-- What the region leaves in its first output, as one function of the arrays it reads. -/
def G5 (c : Dev nD) : FVec Ideal S100000x64 .f32 := fun i =>
  (∑ k : Fin 64, inX V c (ix2 (n0 := 100000) (i 0) k) * inW V c (ix2 (n1 := 64) k (i 1)))
    * inDv V c (ix2 (n0 := 100000) (i 0) (0 : Fin 1))

/-- What the region leaves in its second output, as one function of the arrays it reads. -/
def G6 (c : Dev nD) : FVec Ideal S100000x64 .f32 := fun i =>
  (∑ k : Fin 64, inX V c (ix2 (n0 := 100000) (i 0) k) * inW V c (ix2 (n1 := 64) k (i 1)))
    * inSq V c (ix2 (n0 := 100000) (i 0) (0 : Fin 1)) + inB V c (ix2 (n1 := 64) (0 : Fin 1) (i 1))

/-- The printed index maps, decided over the grid: the block index at point t is (t, 0) for the features, the two
    scale columns and the two outputs, and (0, 0) for the weight and the bias row. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point t writes back to the first output is block t of G5: the output block's entry (r, j) sits at row
    2000 t + r, column j; entry (r, k) of the features' block sits at row 2000 t + r, column k; the weight's block is the
    weight; the column block's entry (r, 0) sits at row 2000 t + r. -/
theorem flushed5_eq (c : Dev nD) (t : Fin cfg2.N) :
    (dat V c).flushed 5 t = ((cfg2.win 5).blk t).view.read (Elt Ideal) (G5 V c) := by
  show (cfg2.win 5).cut (grid2.coords t) ((dat V c).after 5 t) = _
  rw [after5]
  unfold out5
  rw [View.canon_unit_zero hz]
  simp only [View.ld_unit_zero (S := S2000x64) hz, View.ld_unit_zero (S := S64x64) hz, View.ld_unit_zero (S := S2000x1) hz]
  obtain ⟨e00, e01, e10, e11, e20, e21, e30, e31, e40, e41, e50, e51, e60, e61⟩ := idx_facts t
  funext (y : S2000x64.Idx)
  obtain ⟨r, j, rfl⟩ : ∃ (r : Fin 2000) (j : Fin 64), y = ix2 r j := ⟨y 0, y 1, eq_ix2 y⟩
  show k2_pay2 (iblk V c 0 t) (iblk V c 1 t) (iblk V c 4 t) (ix2 r j) = G5 V c (((cfg2.win 5).blk t).view.emb (ix2 r j))
  rw [pay2_apply]
  have h0 : ∀ k : Fin 64, ((cfg2.win 0).blk t).view.emb (ix2 r k)
      = ix2 (n0 := 100000) ((((cfg2.win 5).blk t).view.emb (ix2 r j)) 0) k := fun k => by
    funext a; apply Fin.ext
    match a with
    | ⟨0, _⟩ => show win2_0.index t (0 : Fin 2) * 2000 + 1 * r.val = win2_5.index t (0 : Fin 2) * 2000 + 1 * r.val; omega
    | ⟨1, _⟩ => show win2_0.index t (1 : Fin 2) * 64 + 1 * k.val = k.val; omega
  have h1 : ∀ k : Fin 64, ((cfg2.win 1).blk t).view.emb (ix2 k j)
      = ix2 (n1 := 64) k ((((cfg2.win 5).blk t).view.emb (ix2 r j)) 1) := fun k => by
    funext a; apply Fin.ext
    match a with
    | ⟨0, _⟩ => show win2_1.index t (0 : Fin 2) * 64 + 1 * k.val = k.val; omega
    | ⟨1, _⟩ => show win2_1.index t (1 : Fin 2) * 64 + 1 * j.val = win2_5.index t (1 : Fin 2) * 64 + 1 * j.val; omega
  have h4 : ((cfg2.win 4).blk t).view.emb (ix2 r (0 : Fin 1))
      = ix2 (n0 := 100000) ((((cfg2.win 5).blk t).view.emb (ix2 r j)) 0) (0 : Fin 1) := by
    funext a; apply Fin.ext
    match a with
    | ⟨0, _⟩ => show win2_4.index t (0 : Fin 2) * 2000 + 1 * r.val = win2_5.index t (0 : Fin 2) * 2000 + 1 * r.val; omega
    | ⟨1, _⟩ => show win2_4.index t (1 : Fin 2) * 1 + 1 * 0 = 0; omega
  show (∑ k : Fin 64, inX V c (((cfg2.win 0).blk t).view.emb (ix2 r k)) * inW V c (((cfg2.win 1).blk t).view.emb (ix2 k j)))
      * inDv V c (((cfg2.win 4).blk t).view.emb (ix2 r (0 : Fin 1))) = _
  simp only [h0, h1, h4]
  rfl

/-- What point t writes back to the second output is block t of G6: as for the first output, with the other scale
    column; the bias row's block is the bias row. -/
theorem flushed6_eq (c : Dev nD) (t : Fin cfg2.N) :
    (dat V c).flushed 6 t = ((cfg2.win 6).blk t).view.read (Elt Ideal) (G6 V c) := by
  show (cfg2.win 6).cut (grid2.coords t) ((dat V c).after 6 t) = _
  rw [after6]
  unfold out6
  rw [View.canon_unit_zero hz]
  simp only [View.ld_unit_zero (S := S2000x64) hz, View.ld_unit_zero (S := S64x64) hz, View.ld_unit_zero (S := S2000x1) hz,
    View.ld_unit_zero (S := S1x64) hz]
  obtain ⟨e00, e01, e10, e11, e20, e21, e30, e31, e40, e41, e50, e51, e60, e61⟩ := idx_facts t
  funext (y : S2000x64.Idx)
  obtain ⟨r, j, rfl⟩ : ∃ (r : Fin 2000) (j : Fin 64), y = ix2 r j := ⟨y 0, y 1, eq_ix2 y⟩
  show k2_pay3 (iblk V c 0 t) (iblk V c 1 t) (iblk V c 3 t) (iblk V c 2 t) (ix2 r j)
    = G6 V c (((cfg2.win 6).blk t).view.emb (ix2 r j))
  rw [pay3_apply]
  have h0 : ∀ k : Fin 64, ((cfg2.win 0).blk t).view.emb (ix2 r k)
      = ix2 (n0 := 100000) ((((cfg2.win 6).blk t).view.emb (ix2 r j)) 0) k := fun k => by
    funext a; apply Fin.ext
    match a with
    | ⟨0, _⟩ => show win2_0.index t (0 : Fin 2) * 2000 + 1 * r.val = win2_6.index t (0 : Fin 2) * 2000 + 1 * r.val; omega
    | ⟨1, _⟩ => show win2_0.index t (1 : Fin 2) * 64 + 1 * k.val = k.val; omega
  have h1 : ∀ k : Fin 64, ((cfg2.win 1).blk t).view.emb (ix2 k j)
      = ix2 (n1 := 64) k ((((cfg2.win 6).blk t).view.emb (ix2 r j)) 1) := fun k => by
    funext a; apply Fin.ext
    match a with
    | ⟨0, _⟩ => show win2_1.index t (0 : Fin 2) * 64 + 1 * k.val = k.val; omega
    | ⟨1, _⟩ => show win2_1.index t (1 : Fin 2) * 64 + 1 * j.val = win2_6.index t (1 : Fin 2) * 64 + 1 * j.val; omega
  have h3 : ((cfg2.win 3).blk t).view.emb (ix2 r (0 : Fin 1))
      = ix2 (n0 := 100000) ((((cfg2.win 6).blk t).view.emb (ix2 r j)) 0) (0 : Fin 1) := by
    funext a; apply Fin.ext
    match a with
    | ⟨0, _⟩ => show win2_3.index t (0 : Fin 2) * 2000 + 1 * r.val = win2_6.index t (0 : Fin 2) * 2000 + 1 * r.val; omega
    | ⟨1, _⟩ => show win2_3.index t (1 : Fin 2) * 1 + 1 * 0 = 0; omega
  have h2 : ((cfg2.win 2).blk t).view.emb (ix2 (0 : Fin 1) j)
      = ix2 (n1 := 64) (0 : Fin 1) ((((cfg2.win 6).blk t).view.emb (ix2 r j)) 1) := by
    funext a; apply Fin.ext
    match a with
    | ⟨0, _⟩ => show win2_2.index t (0 : Fin 2) * 1 + 1 * 0 = 0; omega
    | ⟨1, _⟩ => show win2_2.index t (1 : Fin 2) * 64 + 1 * j.val = win2_6.index t (1 : Fin 2) * 64 + 1 * j.val; omega
  show (∑ k : Fin 64, inX V c (((cfg2.win 0).blk t).view.emb (ix2 r k)) * inW V c (((cfg2.win 1).blk t).view.emb (ix2 k j)))
      * inSq V c (((cfg2.win 3).blk t).view.emb (ix2 r (0 : Fin 1)))
      + inB V c (((cfg2.win 2).blk t).view.emb (ix2 (0 : Fin 1) j)) = _
  simp only [h0, h1, h3, h2]
  rfl

/-- An index of the first output is in point t's block iff each coordinate is in the block's range on its axis. -/
theorem mem_blk5 (t : Fin cfg2.N) (i : S100000x64.Idx) :
    i ∈ ((cfg2.win 5).blk t).view.set
      ↔ ∀ a : Fin 2, win2_5.index t a * S2000x64.size a ≤ (i a).val ∧ (i a).val < win2_5.index t a * S2000x64.size a + S2000x64.size a := by
  show i ∈ ((View.whole main_v33_0).slice (win2_5.rect t)).set ↔ _
  rw [View.set_slice_whole, Rect.mem_set_unit]
  exact Iff.rfl

/-- The same for the second output. -/
theorem mem_blk6 (t : Fin cfg2.N) (i : S100000x64.Idx) :
    i ∈ ((cfg2.win 6).blk t).view.set
      ↔ ∀ a : Fin 2, win2_6.index t a * S2000x64.size a ≤ (i a).val ∧ (i a).val < win2_6.index t a * S2000x64.size a + S2000x64.size a := by
  show i ∈ ((View.whole main_v33_1).slice (win2_6.rect t)).set ↔ _
  rw [View.set_slice_whole, Rect.mem_set_unit]
  exact Iff.rfl

/-- Every index of the first output is in the block of the point its row falls to: row n belongs to point n / 2000. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have ht : (i 0).val / 2000 < 50 := by omega
  obtain ⟨-, -, -, -, -, -, -, -, -, -, e50, e51, -, -⟩ := idx_facts ⟨(i 0).val / 2000, ht⟩
  refine ⟨⟨(i 0).val / 2000, ht⟩, flush2_5 _, ?_⟩
  rw [mem_blk5]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val
      ∧ (i 1).val < win2_5.index ⟨(i 0).val / 2000, ht⟩ (1 : Fin 2) * 64 + 64
    rw [e51]; omega

/-- The same for the second output. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have ht : (i 0).val / 2000 < 50 := by omega
  obtain ⟨-, -, -, -, -, -, -, -, -, -, -, -, e60, e61⟩ := idx_facts ⟨(i 0).val / 2000, ht⟩
  refine ⟨⟨(i 0).val / 2000, ht⟩, flush2_6 _, ?_⟩
  rw [mem_blk6]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win2_6.index ⟨(i 0).val / 2000, ht⟩ (1 : Fin 2) * 64 ≤ (i 1).val
      ∧ (i 1).val < win2_6.index ⟨(i 0).val / 2000, ht⟩ (1 : Fin 2) * 64 + 64
    rw [e61]; omega

/-- The first array the region leaves is G5 of the arrays it reads, -/
theorem outHs_eq (c : Dev nD) : outHs V c = G5 V c :=
  (dat V c).arrAt_eq_of_cover 5 (G5 V c) (fun t _ => flushed5_eq V c t) cover5

/-- and the second is G6 of them. -/
theorem outSelf_eq (c : Dev nD) : outSelf V c = G6 V c :=
  (dat V c).arrAt_eq_of_cover 6 (G6 V c) (fun t _ => flushed6_eq V c t) cover6

/-- Entry (i, j) of the first array the region leaves. -/
theorem outHs_apply (c : Dev nD) (i : Fin 100000) (j : Fin 64) :
    outHs V c (ix2 i j) = (∑ k : Fin 64, inX V c (ix2 i k) * inW V c (ix2 k j)) * inDv V c (ix2 i (0 : Fin 1)) := by
  rw [outHs_eq]
  rfl

/-- Entry (i, j) of the second array the region leaves. -/
theorem outSelf_apply (c : Dev nD) (i : Fin 100000) (j : Fin 64) :
    outSelf V c (ix2 i j) = (∑ k : Fin 64, inX V c (ix2 i k) * inW V c (ix2 k j)) * inSq V c (ix2 i (0 : Fin 1)) + inB V c (ix2 (0 : Fin 1) j) := by
  rw [outSelf_eq]
  rfl

end R2

end Cert.KernelIdeal

end
-- ==== Proof.KvR3.lean ====
import proofs.«429222_j11897059409948_3_alg».proof.Proof.KiR3
import proofs.«429222_j11897059409948_3_alg».proof.Proof.LibPlainDot
import Idealize.ShloMosaic.Lib.ValueIdx
import Idealize.ShloMosaic.Lib.Pipeline.Value

/-!
  The combine region (pipeline 3) at the extended reals, read as one array.
  Every grid point t of 50 handles rows 2000 t .. 2000 t + 1999 of the three arrays it reads and of the array it
  writes; the blocks tile the arrays, and element (r, j) of a block is element (2000 t + r, j) of its array.
  At every entry the body's payload is the aggregate times the row's degree scale plus the self term; so the array
  the region leaves holds that value at every index.
-/

noncomputable section

namespace Cert.KernelIdeal

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

namespace R3

/-- The region's arrays by their literal types: the aggregate, the self term, the degree scale column, and the
    array the region leaves. -/
abbrev inAgg (c : Dev nD) : FVec Ideal S100000x64 .f32 := V c (Pipeline.arrRef spec3 0)
abbrev inSelf (c : Dev nD) : FVec Ideal S100000x64 .f32 := V c (Pipeline.arrRef spec3 1)
abbrev inDv (c : Dev nD) : FVec Ideal S100000x1 .f32 := V c (Pipeline.arrRef spec3 2)
abbrev outC (c : Dev nD) : FVec Ideal S100000x64 .f32 := (dat V c).arrAt 3 cfg3.N

/-- The zero offsets, however spelt. -/
theorem hz : (![0, 0] : Fin 2 → Nat) = fun _ => 0 :=
  funext fun a => by match a with | ⟨0, _⟩ => rfl | ⟨1, _⟩ => rfl

/-- The body's payload at entry (r, j) of the block: the first block's entry times the column's entry of row r, plus
    the second block's entry. -/
theorem pay_apply (x0 x1 : FVec Ideal S2000x64 .f32) (x2 : FVec Ideal S2000x1 .f32) (r : Fin 2000) (j : Fin 64) :
    k3_pay1 x0 x2 x1 (ix2 r j)
      = x0 (ix2 r j) * x2 (ix2 r (0 : Fin 1)) + x1 (ix2 r j) := by
  unfold k3_pay1
  simp only [shapeCast_self]
  rw [addf_apply, mulf_apply, Cert.LibPlainDot.broadcast_col 2000 64]

/-- What the region leaves, as one function of the arrays it reads. -/
def G (c : Dev nD) : FVec Ideal S100000x64 .f32 := fun i =>
  inAgg V c i * inDv V c (ix2 (n0 := 100000) (i 0) (0 : Fin 1)) + inSelf V c i

/-- The printed index maps, decided over the grid: every window's block index at point t is (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of G: the output block's entry (r, j) sits at row 2000 t + r, column j, and so
    do the entries of the two wide blocks it is computed from; the column block's entry (r, 0) sits at row 2000 t + r. -/
theorem flushed_eq (c : Dev nD) (t : Fin cfg3.N) :
    (dat V c).flushed 3 t = ((cfg3.win 3).blk t).view.read (Elt Ideal) (G V c) := by
  show (cfg3.win 3).cut (grid3.coords t) ((dat V c).after 3 t) = _
  rw [after3]
  unfold out3
  rw [View.canon_unit_zero hz]
  simp only [View.ld_unit_zero (S := S2000x64) hz, View.ld_unit_zero (S := S2000x1) hz]
  obtain ⟨e00, e01, e10, e11, e20, e21, e30, e31⟩ := idx_facts t
  funext (y : S2000x64.Idx)
  obtain ⟨r, j, rfl⟩ : ∃ (r : Fin 2000) (j : Fin 64), y = ix2 r j := ⟨y 0, y 1, eq_ix2 y⟩
  show k3_pay1 (iblk V c 0 t) (iblk V c 2 t) (iblk V c 1 t) (ix2 r j) = G V c (((cfg3.win 3).blk t).view.emb (ix2 r j))
  rw [pay_apply]
  have h0 : ((cfg3.win 0).blk t).view.emb (ix2 r j) = ((cfg3.win 3).blk t).view.emb (ix2 r j) := by
    funext a; apply Fin.ext
    match a with
    | ⟨0, _⟩ => show win3_0.index t (0 : Fin 2) * 2000 + 1 * r.val = win3_3.index t (0 : Fin 2) * 2000 + 1 * r.val; omega
    | ⟨1, _⟩ => show win3_0.index t (1 : Fin 2) * 64 + 1 * j.val = win3_3.index t (1 : Fin 2) * 64 + 1 * j.val; omega
  have h1 : ((cfg3.win 1).blk t).view.emb (ix2 r j) = ((cfg3.win 3).blk t).view.emb (ix2 r j) := by
    funext a; apply Fin.ext
    match a with
    | ⟨0, _⟩ => show win3_1.index t (0 : Fin 2) * 2000 + 1 * r.val = win3_3.index t (0 : Fin 2) * 2000 + 1 * r.val; omega
    | ⟨1, _⟩ => show win3_1.index t (1 : Fin 2) * 64 + 1 * j.val = win3_3.index t (1 : Fin 2) * 64 + 1 * j.val; omega
  have h2 : ((cfg3.win 2).blk t).view.emb (ix2 r (0 : Fin 1))
      = ix2 (n0 := 100000) ((((cfg3.win 3).blk t).view.emb (ix2 r j)) 0) (0 : Fin 1) := by
    funext a; apply Fin.ext
    match a with
    | ⟨0, _⟩ => show win3_2.index t (0 : Fin 2) * 2000 + 1 * r.val = win3_3.index t (0 : Fin 2) * 2000 + 1 * r.val; omega
    | ⟨1, _⟩ => show win3_2.index t (1 : Fin 2) * 1 + 1 * 0 = 0; omega
  show inAgg V c (((cfg3.win 0).blk t).view.emb (ix2 r j)) * inDv V c (((cfg3.win 2).blk t).view.emb (ix2 r (0 : Fin 1)))
      + inSelf V c (((cfg3.win 1).blk t).view.emb (ix2 r j)) = _
  rw [h0, h1, h2]
  rfl

/-- An index of the array is in point t's block iff each coordinate is in the block's range on its axis. -/
theorem mem_blk (t : Fin cfg3.N) (i : S100000x64.Idx) :
    i ∈ ((cfg3.win 3).blk t).view.set
      ↔ ∀ a : Fin 2, win3_3.index t a * S2000x64.size a ≤ (i a).val ∧ (i a).val < win3_3.index t a * S2000x64.size a + S2000x64.size a := by
  show i ∈ ((View.whole main_v44).slice (win3_3.rect t)).set ↔ _
  rw [View.set_slice_whole, Rect.mem_set_unit]
  exact Iff.rfl

/-- Every index is in the block of the point its row falls to: row n belongs to point n / 2000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 2000 < 50 := by omega
  obtain ⟨-, -, -, -, -, -, e30, e31⟩ := idx_facts ⟨(i 0).val / 2000, ht⟩
  refine ⟨⟨(i 0).val / 2000, ht⟩, flush3_3 _, ?_⟩
  rw [mem_blk]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, ht⟩ (1 : Fin 2) * 64 ≤ (i 1).val
      ∧ (i 1).val < win3_3.index ⟨(i 0).val / 2000, ht⟩ (1 : Fin 2) * 64 + 64
    rw [e31]; omega

/-- The array the region leaves is G of the arrays it reads. -/
theorem outC_eq (c : Dev nD) : outC V c = G V c :=
  (dat V c).arrAt_eq_of_cover 3 (G V c) (fun t _ => flushed_eq V c t) cover

/-- Entry (i, j) of the array the region leaves. -/
theorem outC_apply (c : Dev nD) (i : Fin 100000) (j : Fin 64) :
    outC V c (ix2 i j) = inAgg V c (ix2 i j) * inDv V c (ix2 i (0 : Fin 1)) + inSelf V c (ix2 i j) := by
  rw [outC_eq]
  rfl

end R3

end Cert.KernelIdeal

end
-- ==== Proof.LibColPool.lean ====
/-
  Column pooling by a matrix product, on the extended reals.

  1. The product of an R x G left operand with an R x C right operand, BOTH contracted on their first axis (the left
     operand transposed), accumulated into the zero array: entry (g, j) is the sum over r of left (r, g) * right (r, j),
     whatever float formats the operands carry (a change of format is the identity on the extended reals). The contraction
     index has one axis, of extent R; re-indexed by its one coordinate r, the operand indices at output (g, j) are (r, g)
     and (r, j).
  2. A one-hot weight: the one-bit word "b = g" read unsigned is 1 when the 32-bit word b, read signed, is g, and 0
     otherwise (g below 2^31); so a sum of weight * value over all rows is the sum of the values over the rows whose
     word is g, for 0 * x = 0 and 1 * x = x hold for every extended real x, infinite ones included.
  3. A sum over T * R rows is the sum over T blocks of the sums over the R rows of each block, row r of block t being
     row t * R + r.

  A record of dimension numbers printed with a program is the one of part 1 whenever its six lists are
  [0], [0], [1], [1], [], [] (the seventh field is a proof), by reflexivity.
-/
import Idealize.ShloMosaic.PureOps.Ideal.Laws
import Idealize.ShloMosaic.Lib.ValueIdx
import Idealize.ShloMosaic.Lib.Pipeline.Value

noncomputable section

open scoped BigOperators

namespace Cert.LibColPool

open Idealize.ShloMosaic Idealize.ShloMosaic.ValueIdx

/-! ## 1. A product contracted on both operands' first axis -/

/-- The dimension numbers of left^T * right: both operands contracted on axis 0, their second axes the result's two. -/
abbrev colDims (R G C : Nat)
    (wf : DotDims.WF ⟨2, ![R, G]⟩ ⟨2, ![R, C]⟩ ⟨2, ![G, C]⟩ [0] [0] [1] [1] [] []) :
    DotDims ⟨2, ![R, G]⟩ ⟨2, ![R, C]⟩ ⟨2, ![G, C]⟩ where
  lhsContracting := [0]
  rhsContracting := [0]
  lhsNonContracting := [1]
  rhsNonContracting := [1]
  lhsBatch := []
  rhsBatch := []
  wf := wf

section Dims
variable {R G C : Nat} (wf : DotDims.WF ⟨2, ![R, G]⟩ ⟨2, ![R, C]⟩ ⟨2, ![G, C]⟩ [0] [0] [1] [1] [] [])

/-- The left operand's row coordinate is the contraction index's one coordinate. -/
theorem col_lhs_row (j : (⟨2, ![G, C]⟩ : Shape).Idx) (q : (colDims R G C wf).contr.Idx) :
    ((colDims R G C wf).lhsIdx j q 0).val = (q ⟨0, Nat.one_pos⟩).val :=
  (colDims R G C wf).lhsIdx_val_of_single rfl j q
/-- The left operand's column coordinate at output index j is j's row. -/
theorem col_lhs_col (j : (⟨2, ![G, C]⟩ : Shape).Idx) (q : (colDims R G C wf).contr.Idx) :
    ((colDims R G C wf).lhsIdx j q 1).val = (j 0).val := rfl
/-- The right operand's row coordinate is the contraction index's one coordinate. -/
theorem col_rhs_row (j : (⟨2, ![G, C]⟩ : Shape).Idx) (q : (colDims R G C wf).contr.Idx) :
    ((colDims R G C wf).rhsIdx j q 0).val = (q ⟨0, Nat.one_pos⟩).val :=
  (colDims R G C wf).rhsIdx_val_of_single rfl j q
/-- The right operand's column coordinate at output index j is j's column. -/
theorem col_rhs_col (j : (⟨2, ![G, C]⟩ : Shape).Idx) (q : (colDims R G C wf).contr.Idx) :
    ((colDims R G C wf).rhsIdx j q 1).val = (j 1).val := rfl

/-- The left operand's index at output (g, j) and contraction coordinate r is (r, g). -/
theorem col_lhsIdx (g : Fin G) (j : Fin C) (r : Fin R) :
    (colDims R G C wf).lhsIdx (ix2 g j) ((contrEquiv1 (colDims R G C wf) R rfl rfl).symm r) = ix2 r g :=
  funext fun b => Fin.ext (by
    have hr := contrEquiv1_symm_val (colDims R G C wf) R rfl rfl r
    match b with
    | ⟨0, _⟩ => exact (col_lhs_row wf _ _).trans hr
    | ⟨1, _⟩ => exact col_lhs_col wf _ _)

/-- The right operand's index at output (g, j) and contraction coordinate r is (r, j). -/
theorem col_rhsIdx (g : Fin G) (j : Fin C) (r : Fin R) :
    (colDims R G C wf).rhsIdx (ix2 g j) ((contrEquiv1 (colDims R G C wf) R rfl rfl).symm r) = ix2 r j :=
  funext fun b => Fin.ext (by
    have hr := contrEquiv1_symm_val (colDims R G C wf) R rfl rfl r
    match b with
    | ⟨0, _⟩ => exact (col_rhs_row wf _ _).trans hr
    | ⟨1, _⟩ => exact col_rhs_col wf _ _)

/-- THE PRODUCT left^T * right into the zero array, operands of any formats, at entry (g, j). -/
theorem matmul_col_zero_any {φ₁ φ₂ : FTy} (A : FVec Ideal ⟨2, ![R, G]⟩ φ₁) (B : FVec Ideal ⟨2, ![R, C]⟩ φ₂)
    (g : Fin G) (j : Fin C) :
    matmul (colDims R G C wf) none A B (constant ⟨2, ![G, C]⟩ .f32 0x00000000#32) (ix2 g j)
      = ∑ r : Fin R, (A (ix2 r g) : EReal) * (B (ix2 r j) : EReal) := by
  simp only [matmul]
  rw [Ideal.matmul_constant_zero_apply, ← Equiv.sum_comp (contrEquiv1 (colDims R G C wf) R rfl rfl).symm]
  refine Finset.sum_congr rfl fun r _ => ?_
  rw [col_lhsIdx, col_rhsIdx]

end Dims

/-! ## 2. One-hot weights -/

/-- The bit "b = g" read unsigned, as an extended real: 1 when b read signed is g, else 0. -/
theorem onehot_weight (b : BitVec 32) (g : Nat) (hg : g < 2 ^ 31) :
    (((IntOp.cmpi .eq b (BitVec.ofNat 32 g)).toNat : ℝ) : EReal) = if b.toInt = (g : Int) then 1 else 0 := by
  have hgi : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  by_cases h : b = BitVec.ofNat 32 g
  · subst h
    rw [if_pos hgi]
    have : IntOp.cmpi .eq (BitVec.ofNat 32 g) (BitVec.ofNat 32 g) = 1#1 := by simp [IntOp.cmpi]
    rw [this]; simp
  · have hne : ¬ b.toInt = (g : Int) := fun e => h (BitVec.eq_of_toInt_eq (e.trans hgi.symm))
    rw [if_neg hne]
    have : IntOp.cmpi .eq b (BitVec.ofNat 32 g) = 0#1 := by
      unfold IntOp.cmpi
      rw [show (b == BitVec.ofNat 32 g) = false from beq_eq_false_iff_ne.mpr h]
      rfl
    rw [this]; simp

/-- A sum of one-hot weight times value over all rows is the sum of the values over the rows whose word is g. -/
theorem sum_onehot_mul {N : Nat} (b : Fin N → BitVec 32) (h : Fin N → EReal) (g : Nat) (hg : g < 2 ^ 31) :
    ∑ n : Fin N, (((IntOp.cmpi .eq (b n) (BitVec.ofNat 32 g)).toNat : ℝ) : EReal) * h n
      = ∑ n ∈ Finset.univ.filter (fun n : Fin N => (b n).toInt = (g : Int)), h n := by
  rw [Finset.sum_filter]
  refine Finset.sum_congr rfl fun n _ => ?_
  rw [onehot_weight _ _ hg]
  split
  · rw [one_mul]
  · rw [zero_mul]

/-! ## 3. A sum over T * R rows, block by block -/

/-- Row r of block t, among T * R rows. -/
def blockRow {T R : Nat} (t : Fin T) (r : Fin R) : Fin (T * R) :=
  ⟨t.val * R + r.val, by
    have h1 : t.val * R + r.val < (t.val + 1) * R := by rw [Nat.succ_mul]; exact Nat.add_lt_add_left r.isLt _
    exact Nat.lt_of_lt_of_le h1 (Nat.mul_le_mul_right R t.isLt)⟩

/-- A sum over all rows is the sum over the blocks of the sums over each block's rows. -/
theorem sum_blocks {M : Type*} [AddCommMonoid M] (T R : Nat) (f : Fin (T * R) → M) :
    ∑ n : Fin (T * R), f n = ∑ t : Fin T, ∑ r : Fin R, f (blockRow t r) := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

end Cert.LibColPool

end
-- ==== Proof.KvR4.lean ====
import proofs.«429222_j11897059409948_3_alg».proof.Proof.KiR4
import proofs.«429222_j11897059409948_3_alg».proof.Proof.Spec
import proofs.«429222_j11897059409948_3_alg».proof.Proof.LibColPool
import proofs.«429222_j11897059409948_3_alg».proof.Proof.LibLayout2
import proofs.«429222_j11897059409948_3_alg».proof.Proof.LibPlainAny
import Idealize.ShloMosaic.Lib.ValueIdx
import Idealize.ShloMosaic.Lib.ValueLayout
import Idealize.ShloMosaic.Lib.Pipeline.Value
import Idealize.ShloMosaic.PureOps.Ideal.Laws

/-!
  The value of the pooling region on the extended reals.

  The region walks the 100000 rows of the node features in fifty blocks of 2000. At each block it forms, per row, the
  one-hot weights of the row's graph word against the graph numbers 0 .. 63, and adds into two accumulators: per graph
  g and feature j the sum over the block's rows of weight (row, g) * feature (row, j), and per graph the sum of the
  weights. After the last block the first accumulator is therefore the sum of the rows whose graph word, read signed,
  is g, and the second the number of those rows. The last point divides the sums by the counts (at least one), applies
  the linear layer and the softmax over the three lanes, and stores the 64 x 3 result, the one block of the output
  that is written back and the whole of its array.

  Proved here, in this order: the output array after the region is what the last point stored; a block's row r at
  point t is row 2000 t + r of its array; what one point adds to the accumulators, entry by entry; the accumulators
  after point n, by induction on n, and after the last point as the pooled sums and the counts; the stored readout at
  an entry as the softmax of the logits of the means; the region's result, entry by entry.
-/

noncomputable section

open scoped BigOperators

namespace Cert.KernelIdeal

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace R4

/-- The region's arrays by their literal types: the node features, the graph words, the weights and the bias row of
    the linear layer, and the array the region leaves. -/
abbrev inH (c : Dev nD) : FVec Ideal S100000x64 .f32 := V c (Pipeline.arrRef spec4 0)
abbrev inBt (c : Dev nD) : IVec S100000x1 32 := V c (Pipeline.arrRef spec4 1)
abbrev inWl (c : Dev nD) : FVec Ideal S64x3 .f32 := V c (Pipeline.arrRef spec4 2)
abbrev inBl (c : Dev nD) : FVec Ideal S1x3 .f32 := V c (Pipeline.arrRef spec4 3)
abbrev outP (c : Dev nD) : FVec Ideal S64x3 .f32 := (dat V c).arrAt 4 cfg4.N

/-! ## From the blocks to the arrays -/

/-- The block index maps over the grid. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem lastLt : 49 < cfg4.N := by rw [show cfg4.N = 50 from N_4]; decide
/-- The last point. -/
abbrev tL : Fin cfg4.N := ⟨49, lastLt⟩

/-- The weight window's block is the whole weight array at every point. -/
theorem iblk2_eq (c : Dev nD) (t : Fin cfg4.N) : (iblk V c 2 t : FVec Ideal S64x3 .f32) = inWl V c := by
  obtain ⟨-, -, -, -, e4, e5, -⟩ := idx_facts t
  have hz' : (fun a => win4_2.index t a * main_arg7.ty.shape.size a) = fun _ => 0 := funext fun a => by
    match a with
    | ⟨0, _⟩ => show win4_2.index t (0 : Fin 2) * 64 = 0; rw [e4]
    | ⟨1, _⟩ => show win4_2.index t (1 : Fin 2) * 3 = 0; rw [e5]
  exact Memref.read_access_unit_zero (Elt Ideal) main_arg7 hz' (fun a => by rw [congrFun hz' a]; simp) (V c (Pipeline.arrRef spec4 2))

/-- The bias window's block is the whole bias row at every point. -/
theorem iblk3_eq (c : Dev nD) (t : Fin cfg4.N) : (iblk V c 3 t : FVec Ideal S1x3 .f32) = inBl V c := by
  obtain ⟨-, -, -, -, -, -, e6, e7, -⟩ := idx_facts t
  have hz' : (fun a => win4_3.index t a * main_v20.ty.shape.size a) = fun _ => 0 := funext fun a => by
    match a with
    | ⟨0, _⟩ => show win4_3.index t (0 : Fin 2) * 1 = 0; rw [e6]
    | ⟨1, _⟩ => show win4_3.index t (1 : Fin 2) * 3 = 0; rw [e7]
  exact Memref.read_access_unit_zero (Elt Ideal) main_v20 hz' (fun a => by rw [congrFun hz' a]; simp) (V c (Pipeline.arrRef spec4 3))

/-- The output array after the region is what the last point stored: the one block written back is the whole array. -/
theorem outP_eq (c : Dev nD) :
    outP V c = outC (accAt V c 49 lastLt).1 (accAt V c 49 lastLt).2 (inWl V c) (inBl V c) := by
  obtain ⟨-, -, -, -, -, -, -, -, e8, e9⟩ := idx_facts tL
  have hz' : (fun a => win4_4.index tL a * main_v45.ty.shape.size a) = fun _ => 0 := funext fun a => by
    match a with
    | ⟨0, _⟩ => show win4_4.index tL (0 : Fin 2) * 64 = 0; rw [e8]
    | ⟨1, _⟩ => show win4_4.index tL (1 : Fin 2) * 3 = 0; rw [e9]
  refine (dat V c).arrAt_eq_of_cover 4 _ (fun t hf => ?_) (fun i => ?_)
  · have h1 : t.val = 49 := by
      have h2 := (flush4_4 t).mp hf; have h3 := t.isLt; have h4 : cfg4.N = 50 := N_4; omega
    obtain rfl : t = tL := Fin.ext h1
    show (cfg4.win 4).cut (grid4.coords tL) ((dat V c).after 4 tL) = _
    rw [after4, iblk2_eq, iblk3_eq]
    exact (Memref.read_access_unit_zero (Elt Ideal) main_v45 hz' (fun a => by rw [congrFun hz' a]; simp) _).symm
  · refine ⟨tL, (flush4_4 tL).mpr rfl, ?_⟩
    show i ∈ ((View.whole main_v45).slice (win4_4.rect tL)).set
    rw [View.set_slice_whole, Rect.mem_set_unit]
    intro a
    have h0 : (i 0 : Nat) < 64 := (i 0).isLt
    have h1 : (i 1 : Nat) < 3 := (i 1).isLt
    match a with
    | ⟨0, _⟩ =>
      show win4_4.index tL 0 * win4_4.size 0 ≤ (i 0 : Nat) ∧ (i 0 : Nat) < win4_4.index tL 0 * win4_4.size 0 + win4_4.xsize (grid4.coords tL) 0
      rw [show win4_4.index tL 0 * win4_4.size 0 = 0 from congrFun hz' 0, show win4_4.xsize (grid4.coords tL) 0 = 64 from by decide +kernel]; omega
    | ⟨1, _⟩ =>
      show win4_4.index tL 1 * win4_4.size 1 ≤ (i 1 : Nat) ∧ (i 1 : Nat) < win4_4.index tL 1 * win4_4.size 1 + win4_4.xsize (grid4.coords tL) 1
      rw [show win4_4.index tL 1 * win4_4.size 1 = 0 from congrFun hz' 1, show win4_4.xsize (grid4.coords tL) 1 = 3 from by decide +kernel]; omega

/-- A feature block's row r at point t is the features' row 2000 t + r. -/
theorem iblk0_apply (c : Dev nD) (t : Fin cfg4.N) (r : Fin 2000) (j : Fin 64) (n : Fin 100000)
    (hn : n.val = t.val * 2000 + r.val) :
    (iblk V c 0 t : FVec Ideal S2000x64 .f32) (ix2 r j) = inH V c (ix2 n j) := by
  obtain ⟨e0, e1, -⟩ := idx_facts t
  unfold iblk
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * r.val = n.val; rw [e0, hn]; omega
  | ⟨1, _⟩ => show win4_0.index t (1 : Fin 2) * 64 + 1 * j.val = j.val; rw [e1]; omega

/-- A graph-word block's row r at point t is the words' row 2000 t + r. -/
theorem iblk1_apply (c : Dev nD) (t : Fin cfg4.N) (r : Fin 2000) (n : Fin 100000)
    (hn : n.val = t.val * 2000 + r.val) :
    (iblk V c 1 t : IVec S2000x1 32) (ix2 r (0 : Fin 1)) = inBt V c (ix2 n (0 : Fin 1)) := by
  obtain ⟨-, -, e2, e3, -⟩ := idx_facts t
  unfold iblk
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * r.val = n.val; rw [e2, hn]; omega
  | ⟨1, _⟩ => show win4_1.index t (1 : Fin 2) * 1 + 1 * 0 = 0; rw [e3]

/-! ## What one point adds to the accumulators -/

/-- A one-bit word widened to 32 bits and read signed is the bit. -/
theorem toInt_setWidth_bit (b : BitVec 1) : (b.setWidth 32).toInt = (b.toNat : Int) := by
  rcases BitVec.eq_zero_or_eq_one b with h | h <;> subst h <;> decide

/-- The one-hot weight of graph g at a row whose graph word is b. -/
def wt (b : BitVec 32) (g : Fin 64) : EReal := (((IntOp.cmpi .eq b (BitVec.ofNat 32 g.val)).toNat : ℝ) : EReal)

/-- The one-hot block at (r, g): the weight of g at row r's word. -/
theorem onehot_apply (x1 : IVec S2000x1 32) (r : Fin 2000) (g : Fin 64) :
    (k4_pay3 (F := Ideal) x1 (ix2 r g) : EReal) = wt (x1 (ix2 r (0 : Fin 1))) g := by
  unfold k4_pay3
  show ((((IntOp.cmpi .eq (broadcastTo S2000x64 (shapeCast S2000x1 x1 shapeCasts_S2000x1_S2000x1) broadcasts_S2000x1_S2000x64 (ix2 r g))
      (iota .tc S2000x64 32 [1] iota_S2000x64_d1_w32 (ix2 r g))).setWidth 32).toInt : ℝ) : EReal) = _
  rw [shapeCast_self, Cert.LibPlainDot.broadcast_col, iota_single_apply, toInt_setWidth_bit]
  rfl

/-- What a later point leaves in the sums: what they held plus, per graph and feature, the block's rows weighted one-hot. -/
theorem accB_apply (x0 : FVec Ideal S2000x64 .f32) (x1 : IVec S2000x1 32) (s0 : FVec Ideal S64x64 .f32) (g j : Fin 64) :
    accB (F := Ideal) x0 x1 s0 (ix2 g j) = s0 (ix2 g j) + ∑ r : Fin 2000, wt (x1 (ix2 r (0 : Fin 1))) g * x0 (ix2 r j) := by
  unfold accB k4_pay4
  simp only [View.ld_unit_zero (S := S2000x64) hz2, View.ld_unit_zero (S := S2000x1) hz2, View.ld_unit_zero (S := S64x64) hz2, shapeCast_self]
  show s0 (ix2 g j) + matmul (Cert.LibColPool.colDims 2000 64 64 dot_S2000x64_S2000x64_S64x64_0_0_1_1_n_n_wf) none (k4_pay3 (F := Ideal) x1)
      (truncf .bf16 x0 bitsLt_bf16_f32) (constant (F := Ideal) S64x64 .f32 0x00000000#32) (ix2 g j) = _
  refine congrArg (s0 (ix2 g j) + ·) ?_
  refine (Cert.LibColPool.matmul_col_zero_any dot_S2000x64_S2000x64_S64x64_0_0_1_1_n_n_wf (k4_pay3 (F := Ideal) x1) (truncf .bf16 x0 bitsLt_bf16_f32) g j).trans ?_
  refine Finset.sum_congr rfl fun r _ => ?_
  rw [onehot_apply]; rfl

/-- What a later point leaves in the counts: what they held plus, per graph, the block's one-hot weights (each times one). -/
theorem cntB_apply (x1 : IVec S2000x1 32) (s1 : FVec Ideal S64x1 .f32) (g : Fin 64) :
    cntB (F := Ideal) x1 s1 (ix2 g (0 : Fin 1)) = s1 (ix2 g (0 : Fin 1)) + ∑ r : Fin 2000, wt (x1 (ix2 r (0 : Fin 1))) g * 1 := by
  unfold cntB k4_pay5
  simp only [View.ld_unit_zero (S := S2000x1) hz2, View.ld_unit_zero (S := S64x1) hz2, shapeCast_self]
  show s1 (ix2 g (0 : Fin 1)) + matmul (Cert.LibColPool.colDims 2000 64 1 dot_S2000x64_S2000x1_S64x1_0_0_1_1_n_n_wf) none (k4_pay3 (F := Ideal) x1)
      (broadcast S2000x1 (Scalar.ofBits (F := Ideal) .bf16 0x3F80#16)) (constant (F := Ideal) S64x1 .f32 0x00000000#32) (ix2 g (0 : Fin 1)) = _
  refine congrArg (s1 (ix2 g (0 : Fin 1)) + ·) ?_
  refine (Cert.LibColPool.matmul_col_zero_any dot_S2000x64_S2000x1_S64x1_0_0_1_1_n_n_wf (k4_pay3 (F := Ideal) x1)
    (broadcast S2000x1 (Scalar.ofBits (F := Ideal) .bf16 0x3F80#16) : FVec Ideal S2000x1 .bf16) g (0 : Fin 1)).trans ?_
  refine Finset.sum_congr rfl fun r _ => ?_
  rw [onehot_apply]
  refine congrArg (wt (x1 (ix2 r (0 : Fin 1))) g * ·) ?_
  exact Cert.Spec.one_bf16

/-- The reset sums and counts are zero. -/
theorem zeroAcc_apply (i : S64x64.Idx) : (k4_pay1 (F := Ideal)) i = 0 := by
  unfold k4_pay1; rw [shapeCast_self]; exact Ideal.ofBits_zero_f32
theorem zeroCnt_apply (i : S64x1.Idx) : (k4_pay2 (F := Ideal)) i = 0 := by
  unfold k4_pay2; rw [shapeCast_self]; exact Ideal.ofBits_zero_f32

/-- What the first point leaves: the block's own weighted rows. -/
theorem accA_apply (x0 : FVec Ideal S2000x64 .f32) (x1 : IVec S2000x1 32) (g j : Fin 64) :
    accA (F := Ideal) x0 x1 (ix2 g j) = ∑ r : Fin 2000, wt (x1 (ix2 r (0 : Fin 1))) g * x0 (ix2 r j) := by
  have h := accB_apply x0 x1 (k4_pay1 (F := Ideal)) g j
  rw [zeroAcc_apply, zero_add] at h
  exact h
theorem cntA_apply (x1 : IVec S2000x1 32) (g : Fin 64) :
    cntA (F := Ideal) x1 (ix2 g (0 : Fin 1)) = ∑ r : Fin 2000, wt (x1 (ix2 r (0 : Fin 1))) g * 1 := by
  have h := cntB_apply x1 (k4_pay2 (F := Ideal)) g
  rw [zeroCnt_apply, zero_add] at h
  exact h

/-! ## The accumulators after each point -/

/-- The sum of a function of the rows over block t's rows (nothing past the last block). -/
def blkSum (f : Fin 100000 → EReal) (t : ℕ) : EReal :=
  if h : t < 50 then ∑ r : Fin 2000, f ⟨t * 2000 + r.val, by have := r.isLt; omega⟩ else 0

/-- The fifty blocks' sums add up to the sum over all rows. -/
theorem sum_blkSum (f : Fin 100000 → EReal) : ∑ t ∈ Finset.range 50, blkSum f t = ∑ n : Fin 100000, f n := by
  rw [Finset.sum_range]
  refine ((Cert.LibColPool.sum_blocks 50 2000 f).trans ?_).symm
  refine Finset.sum_congr rfl fun t _ => ?_
  unfold blkSum
  rw [dif_pos t.isLt]
  rfl

/-- A row's weighted features, and its weight. -/
def rowF (c : Dev nD) (g j : Fin 64) (n : Fin 100000) : EReal :=
  wt (inBt V c (ix2 n (0 : Fin 1))) g * inH V c (ix2 n j)
def rowC (c : Dev nD) (g : Fin 64) (n : Fin 100000) : EReal :=
  wt (inBt V c (ix2 n (0 : Fin 1))) g * 1

/-- The weighted rows of point t's blocks are block t's part of the sum over all rows. -/
theorem blk_rowsF (c : Dev nD) (g j : Fin 64) (t : Fin cfg4.N) :
    (∑ r : Fin 2000, wt ((iblk V c 1 t : IVec S2000x1 32) (ix2 r (0 : Fin 1))) g * (iblk V c 0 t : FVec Ideal S2000x64 .f32) (ix2 r j))
      = blkSum (rowF V c g j) t.val := by
  have ht : t.val < 50 := lt_of_lt_of_eq t.isLt (show cfg4.N = 50 from N_4)
  unfold blkSum
  rw [dif_pos ht]
  refine Finset.sum_congr rfl fun r _ => ?_
  unfold rowF
  rw [iblk0_apply V c t r j ⟨t.val * 2000 + r.val, by have := r.isLt; omega⟩ rfl,
    iblk1_apply V c t r ⟨t.val * 2000 + r.val, by have := r.isLt; omega⟩ rfl]
theorem blk_rowsC (c : Dev nD) (g : Fin 64) (t : Fin cfg4.N) :
    (∑ r : Fin 2000, wt ((iblk V c 1 t : IVec S2000x1 32) (ix2 r (0 : Fin 1))) g * 1)
      = blkSum (rowC V c g) t.val := by
  have ht : t.val < 50 := lt_of_lt_of_eq t.isLt (show cfg4.N = 50 from N_4)
  unfold blkSum
  rw [dif_pos ht]
  refine Finset.sum_congr rfl fun r _ => ?_
  unfold rowC
  rw [iblk1_apply V c t r ⟨t.val * 2000 + r.val, by have := r.isLt; omega⟩ rfl]

/-- After point n the sums and the counts hold the first n + 1 blocks' parts. -/
theorem acc_upto (c : Dev nD) (g j : Fin 64) : ∀ (n : ℕ) (h : n < cfg4.N),
    (accAt V c n h).1 (ix2 g j) = ∑ t ∈ Finset.range (n + 1), blkSum (rowF V c g j) t
    ∧ (accAt V c n h).2 (ix2 g (0 : Fin 1)) = ∑ t ∈ Finset.range (n + 1), blkSum (rowC V c g) t
  | 0, h => by
    constructor
    · show accA (iblk V c 0 ⟨0, h⟩) (iblk V c 1 ⟨0, h⟩) (ix2 g j) = _
      refine (accA_apply _ _ g j).trans ?_
      rw [Finset.sum_range_one]
      exact blk_rowsF V c g j ⟨0, h⟩
    · show cntA (iblk V c 1 ⟨0, h⟩) (ix2 g (0 : Fin 1)) = _
      refine (cntA_apply _ g).trans ?_
      rw [Finset.sum_range_one]
      exact blk_rowsC V c g ⟨0, h⟩
  | n + 1, h => by
    obtain ⟨ih1, ih2⟩ := acc_upto c g j n (Nat.lt_of_succ_lt h)
    constructor
    · show accB (iblk V c 0 ⟨n + 1, h⟩) (iblk V c 1 ⟨n + 1, h⟩) (accAt V c n (Nat.lt_of_succ_lt h)).1 (ix2 g j) = _
      refine (accB_apply _ _ _ g j).trans ?_
      rw [Finset.sum_range_succ _ (n + 1), ← ih1]
      exact congrArg ((accAt V c n (Nat.lt_of_succ_lt h)).1 (ix2 g j) + ·) (blk_rowsF V c g j ⟨n + 1, h⟩)
    · show cntB (iblk V c 1 ⟨n + 1, h⟩) (accAt V c n (Nat.lt_of_succ_lt h)).2 (ix2 g (0 : Fin 1)) = _
      refine (cntB_apply _ _ g).trans ?_
      rw [Finset.sum_range_succ _ (n + 1), ← ih2]
      exact congrArg ((accAt V c n (Nat.lt_of_succ_lt h)).2 (ix2 g (0 : Fin 1)) + ·) (blk_rowsC V c g ⟨n + 1, h⟩)

/-- After the last point the sums are the pooled rows and the counts the graphs' sizes. -/
theorem acc_last (c : Dev nD) (g j : Fin 64) :
    (accAt V c 49 lastLt).1 (ix2 g j)
      = Spec.pool (fun n : Fin 100000 => (inBt V c (ix2 n (0 : Fin 1))).toInt) (Spec.arr2 (inH V c)) g j := by
  rw [(acc_upto V c g j 49 lastLt).1, sum_blkSum]
  unfold rowF wt Spec.pool Spec.arr2
  exact Cert.LibColPool.sum_onehot_mul (fun n : Fin 100000 => inBt V c (ix2 n (0 : Fin 1))) (fun n => inH V c (ix2 n j)) g.val (by have := g.isLt; omega)
theorem cnt_last (c : Dev nD) (g : Fin 64) :
    (accAt V c 49 lastLt).2 (ix2 g (0 : Fin 1))
      = Spec.cnt (fun n : Fin 100000 => (inBt V c (ix2 n (0 : Fin 1))).toInt) g := by
  rw [(acc_upto V c g g 49 lastLt).2, sum_blkSum]
  unfold rowC wt Spec.cnt
  exact Cert.LibColPool.sum_onehot_mul (fun n : Fin 100000 => inBt V c (ix2 n (0 : Fin 1))) (fun _ => (1 : EReal)) g.val (by have := g.isLt; omega)

/-! ## The readout the last point stores -/

/-- The logits as the last point computes them from the sums a0, the counts a1, the weights wl and the bias row bl. -/
def logitsK (a0 : FVec Ideal S64x64 .f32) (a1 : FVec Ideal S64x1 .f32) (wl : FVec Ideal S64x3 .f32) (bl : FVec Ideal S1x3 .f32) :
    FVec Ideal S64x3 .f32 :=
  addf (matmul dot_S64x64_S64x3_S64x3_1_0_0_1_n_n none
      (truncf .bf16 (divf a0 (broadcastTo S64x64 (maximumf a1 (broadcast S64x1 (Scalar.ofBits (F := Ideal) .f32 0x3F800000#32))) broadcasts_S64x1_S64x64)) bitsLt_bf16_f32)
      (truncf .bf16 wl bitsLt_bf16_f32) (constant (F := Ideal) S64x3 .f32 0x00000000#32))
    (broadcastTo S64x3 (shapeCast S1x3 bl shapeCasts_S1x3_S1x3) broadcasts_S1x3_S64x3)

/-- The row maxima of an array of logits, as a column. -/
def rowMaxK (X : FVec Ideal S64x3 .f32) : FVec Ideal S64x1 .f32 :=
  shapeCast S64x1 (maximumf (broadcast S64 (Scalar.ofBits (F := Ideal) .f32 0xFF800000#32))
    (multiReduction .maximumf [1] S64 X 0xFF800000#32 reduces_S64x3_S64 (.inl rfl) rfl)) shapeCasts_S64_S64x1

/-- The exponentials of the logits less their row's maximum. -/
def expsK (X : FVec Ideal S64x3 .f32) : FVec Ideal S64x3 .f32 :=
  exp (subf X (broadcastTo S64x3 (rowMaxK X) broadcasts_S64x1_S64x3))

/-- The softmax of an array of logits, as the last point computes it. -/
def softmaxK (X : FVec Ideal S64x3 .f32) : FVec Ideal S64x3 .f32 :=
  divf (expsK X) (broadcastTo S64x3 (shapeCast S64x1
    (multiReduction .add [1] S64 (expsK X) 0x00000000#32 reduces_S64x3_S64 (.inl rfl) rfl) shapeCasts_S64_S64x1) broadcasts_S64x1_S64x3)

theorem outC_eq (a0 : FVec Ideal S64x64 .f32) (a1 : FVec Ideal S64x1 .f32) (wl : FVec Ideal S64x3 .f32) (bl : FVec Ideal S1x3 .f32) :
    outC (F := Ideal) a0 a1 wl bl = softmaxK (logitsK a0 a1 wl bl) := by
  unfold outC
  rw [View.ld_unit_zero (S := S64x3) hz2, View.ld_unit_zero (S := S1x3) hz2]
  rfl

/-- The index over (g) of a row of three logits with the lane k put back is (g, k). -/
theorem lift_row (g : Fin 64) (k : Fin 3) : reduces_S64x3_S64.lift (ix1 g) k = ix2 g k := by
  funext d
  apply Fin.ext
  match d with
  | ⟨0, _⟩ => rfl
  | ⟨1, _⟩ => rfl

theorem rowMaxK_apply (X : FVec Ideal S64x3 .f32) (g : Fin 64) (u : Fin 1) :
    rowMaxK X (ix2 g u) = Spec.rowMax (Spec.arr2 X) g := by
  unfold rowMaxK
  rw [Cert.LibLayout2.shapeCast_a_a1_apply]
  show max (Ideal.ofBits .f32 0xFF800000#32) (multiReduction .maximumf [1] S64 X 0xFF800000#32 reduces_S64x3_S64 (.inl rfl) rfl (ix1 g)) = _
  unfold Spec.rowMax
  refine congrArg (max (Ideal.ofBits .f32 0xFF800000#32) ·) ?_
  refine (Ideal.multiReduction_maximumf_single X 0xFF800000#32 reduces_S64x3_S64 (.inl rfl) rfl (ix1 g)).trans ?_
  show Finset.fold max (Ideal.ofBits .f32 0xFF800000#32) (fun k : Fin 3 => X (reduces_S64x3_S64.lift (ix1 g) k)) Finset.univ = _
  simp only [lift_row]
  rfl

theorem expsK_apply (X : FVec Ideal S64x3 .f32) (g : Fin 64) (a : Fin 3) :
    expsK X (ix2 g a) = Ideal.exp (X (ix2 g a) - Spec.rowMax (Spec.arr2 X) g) := by
  unfold expsK
  show Ideal.exp (X (ix2 g a) - broadcastTo S64x3 (rowMaxK X) broadcasts_S64x1_S64x3 (ix2 g a)) = _
  rw [Cert.LibPlainDot.broadcast_col, rowMaxK_apply]

theorem softmaxK_apply (X : FVec Ideal S64x3 .f32) (g : Fin 64) (a : Fin 3) :
    softmaxK X (ix2 g a) = Spec.softmax (Spec.arr2 X) g a := by
  unfold softmaxK Spec.softmax
  show Ideal.div (expsK X (ix2 g a)) (broadcastTo S64x3 (shapeCast S64x1
    (multiReduction .add [1] S64 (expsK X) 0x00000000#32 reduces_S64x3_S64 (.inl rfl) rfl) shapeCasts_S64_S64x1) broadcasts_S64x1_S64x3 (ix2 g a)) = _
  rw [Cert.LibPlainDot.broadcast_col, Cert.LibLayout2.shapeCast_a_a1_apply, expsK_apply]
  refine congrArg (Ideal.div _ ·) ?_
  refine (Ideal.multiReduction_add_single (expsK X) 0x00000000#32 reduces_S64x3_S64 (.inl rfl) rfl (ix1 g)).trans ?_
  show ∑ k : Fin 3, expsK X (reduces_S64x3_S64.lift (ix1 g) k) = _
  refine Finset.sum_congr rfl fun k _ => ?_
  rw [lift_row, expsK_apply]
  rfl

theorem logitsK_apply (a0 : FVec Ideal S64x64 .f32) (a1 : FVec Ideal S64x1 .f32) (wl : FVec Ideal S64x3 .f32) (bl : FVec Ideal S1x3 .f32)
    (g : Fin 64) (a : Fin 3) :
    logitsK a0 a1 wl bl (ix2 g a)
      = Spec.logit (fun (g k : Fin 64) => Ideal.div (a0 (ix2 g k)) (max (a1 (ix2 g (0 : Fin 1))) (Ideal.ofBits .f32 0x3F800000#32)))
          (Spec.arr2 wl) (fun a : Fin 3 => bl (ix2 (0 : Fin 1) a)) g a := by
  unfold logitsK Spec.logit
  show matmul (DotDims.plain 64 64 3) none
      (truncf .bf16 (divf a0 (broadcastTo S64x64 (maximumf a1 (broadcast S64x1 (Scalar.ofBits (F := Ideal) .f32 0x3F800000#32))) broadcasts_S64x1_S64x64)) bitsLt_bf16_f32)
      (truncf .bf16 wl bitsLt_bf16_f32) (constant (F := Ideal) S64x3 .f32 0x00000000#32) (ix2 g a)
    + broadcastTo S64x3 (shapeCast S1x3 bl shapeCasts_S1x3_S1x3) broadcasts_S1x3_S64x3 (ix2 g a) = _
  rw [shapeCast_self, broadcastTo_1b_ab_apply]
  refine congrArg (· + bl (ix2 (0 : Fin 1) a)) ?_
  refine (Cert.LibPlainAny.matmul_plain_zero_any 64 64 3 _ _ g a).trans ?_
  refine Finset.sum_congr rfl fun k _ => ?_
  show Ideal.div (a0 (ix2 g k)) (broadcastTo S64x64 (maximumf a1 (broadcast S64x1 (Scalar.ofBits (F := Ideal) .f32 0x3F800000#32))) broadcasts_S64x1_S64x64 (ix2 g k)) * wl (ix2 k a) = _
  rw [Cert.LibPlainDot.broadcast_col]
  rfl

/-! ## The region's result -/

/-- The region leaves, at (g, a), the readout of the node features: the softmax over the three lanes of the linear
    layer of graph g's mean row. -/
theorem outP_apply (c : Dev nD) (g : Fin 64) (a : Fin 3) :
    outP V c (ix2 g a)
      = Spec.head (fun n : Fin 100000 => (inBt V c (ix2 n (0 : Fin 1))).toInt)
          (Spec.arr2 (inH V c)) (Spec.arr2 (inWl V c)) (fun a : Fin 3 => inBl V c (ix2 (0 : Fin 1) a)) g a := by
  refine (congrFun (outP_eq V c) (ix2 g a)).trans ?_
  rw [outC_eq, softmaxK_apply]
  unfold Spec.head
  refine congrArg (fun L => Spec.softmax L g a) ?_
  funext g' a'
  refine (logitsK_apply _ _ _ _ g' a').trans ?_
  refine congrArg (fun M => Spec.logit M (Spec.arr2 (inWl V c)) (fun a : Fin 3 => inBl V c (ix2 (0 : Fin 1) a)) g' a') ?_
  funext g'' k
  unfold Spec.mean
  rw [acc_last, cnt_last]

end R4
end Cert.KernelIdeal
end
-- ==== Proof.KernelValue.lean ====
import proofs.«429222_j11897059409948_3_alg».proof.Proof.KiRun
import proofs.«429222_j11897059409948_3_alg».proof.Proof.KvHost
import proofs.«429222_j11897059409948_3_alg».proof.Proof.KvHost0
import proofs.«429222_j11897059409948_3_alg».proof.Proof.KvR0
import proofs.«429222_j11897059409948_3_alg».proof.Proof.KvR1
import proofs.«429222_j11897059409948_3_alg».proof.Proof.KvR2
import proofs.«429222_j11897059409948_3_alg».proof.Proof.KvR3
import proofs.«429222_j11897059409948_3_alg».proof.Proof.KvR4
import proofs.«429222_j11897059409948_3_alg».proof.Proof.Spec
import proofs.«429222_j11897059409948_3_alg».proof.Proof.LibLayout2
import Idealize.ShloMosaic.Lib.ValueIdx
import Idealize.ShloMosaic.Lib.Pipeline.Value

/-!
  The kernel's result, index by index, is the network in the kernel's arrangement of the argument arrays: the five
  regions' values and the host operations between them, chained from the launch memory.
-/

noncomputable section

namespace Cert.KernelIdeal.Value

open Cert.KernelIdeal Cert.KernelIdeal.Gen Cert.KernelIdeal.Run Cert.KernelIdeal.HostV
open Idealize.ShloMosaic Idealize.ShloMosaic.TcCoe Idealize.ShloMosaic.ValueIdx

variable (m : (ℓ : Loc nD τ sig) → Buf (Elt Ideal) ℓ)

/-! ## A buffer that an item does not write keeps its contents across it -/

theorem s1 (c : Dev nD) (r : Ref sig .tc) (h : r ∉ hostOps0_W) : U1 m c r = m ((c.tc : Thread nD τ).loc r) := V1_of m c r h
theorem s2 (c : Dev nD) (r : Ref sig .tc) (h : r ∉ ([main_v21_0, main_v21_1] : List (Ref sig .tc))) : U2 m c r = U1 m c r := V2_of m (outs m) c r h
theorem s3 (c : Dev nD) (r : Ref sig .tc) (h : r ∉ hostOps1_W) : U3 m c r = U2 m c r := V3_of m (outs m) c r h
theorem s4 (c : Dev nD) (r : Ref sig .tc) (h : r ∉ ([main_v32] : List (Ref sig .tc))) : U4 m c r = U3 m c r := V4_of m (outs m) c r h
theorem s5 (c : Dev nD) (r : Ref sig .tc) (h : r ∉ ([main_v33_0, main_v33_1] : List (Ref sig .tc))) : U5 m c r = U4 m c r := V5_of m (outs m) c r h
theorem s6 (c : Dev nD) (r : Ref sig .tc) (h : r ∉ hostOps3_W) : U6 m c r = U5 m c r := V6_of m (outs m) c r h
theorem s7 (c : Dev nD) (r : Ref sig .tc) (h : r ∉ ([main_v44] : List (Ref sig .tc))) : U7 m c r = U6 m c r := V7_of m (outs m) c r h

/-- From the first boundary to the entry of each later region. -/
theorem k3 (c : Dev nD) (r : Ref sig .tc) (h2 : r ∉ ([main_v21_0, main_v21_1] : List (Ref sig .tc))) (h3 : r ∉ hostOps1_W) :
    U3 m c r = U1 m c r := (s3 m c r h3).trans (s2 m c r h2)
theorem k4 (c : Dev nD) (r : Ref sig .tc) (h2 : r ∉ ([main_v21_0, main_v21_1] : List (Ref sig .tc))) (h3 : r ∉ hostOps1_W)
    (h4 : r ∉ ([main_v32] : List (Ref sig .tc))) : U4 m c r = U1 m c r := (s4 m c r h4).trans (k3 m c r h2 h3)
theorem k5 (c : Dev nD) (r : Ref sig .tc) (h2 : r ∉ ([main_v21_0, main_v21_1] : List (Ref sig .tc))) (h3 : r ∉ hostOps1_W)
    (h4 : r ∉ ([main_v32] : List (Ref sig .tc))) (h5 : r ∉ ([main_v33_0, main_v33_1] : List (Ref sig .tc))) : U5 m c r = U1 m c r :=
  (s5 m c r h5).trans (k4 m c r h2 h3 h4)
theorem k6 (c : Dev nD) (r : Ref sig .tc) (h2 : r ∉ ([main_v21_0, main_v21_1] : List (Ref sig .tc))) (h3 : r ∉ hostOps1_W)
    (h4 : r ∉ ([main_v32] : List (Ref sig .tc))) (h5 : r ∉ ([main_v33_0, main_v33_1] : List (Ref sig .tc))) (h6 : r ∉ hostOps3_W) :
    U6 m c r = U1 m c r := (s6 m c r h6).trans (k5 m c r h2 h3 h4 h5)
theorem k7 (c : Dev nD) (r : Ref sig .tc) (h2 : r ∉ ([main_v21_0, main_v21_1] : List (Ref sig .tc))) (h3 : r ∉ hostOps1_W)
    (h4 : r ∉ ([main_v32] : List (Ref sig .tc))) (h5 : r ∉ ([main_v33_0, main_v33_1] : List (Ref sig .tc))) (h6 : r ∉ hostOps3_W)
    (h7 : r ∉ ([main_v44] : List (Ref sig .tc))) : U7 m c r = U1 m c r := (s7 m c r h7).trans (k6 m c r h2 h3 h4 h5 h6)

/-! ## The arguments, and the columns and rows the first host stretch makes of them -/

abbrev aX (c : Dev nD) : FVec Ideal S100000x64 .f32 := m ((c.tc : Thread nD τ).loc main_arg0)
abbrev aE (c : Dev nD) : IVec S2x1600000 32 := m ((c.tc : Thread nD τ).loc main_arg1)
abbrev aBt (c : Dev nD) : IVec S100000 32 := m ((c.tc : Thread nD τ).loc main_arg2)
abbrev aW1 (c : Dev nD) : FVec Ideal S64x64 .f32 := m ((c.tc : Thread nD τ).loc main_arg3)
abbrev aB1 (c : Dev nD) : FVec Ideal S64 .f32 := m ((c.tc : Thread nD τ).loc main_arg4)
abbrev aW2 (c : Dev nD) : FVec Ideal S64x64 .f32 := m ((c.tc : Thread nD τ).loc main_arg5)
abbrev aB2 (c : Dev nD) : FVec Ideal S64 .f32 := m ((c.tc : Thread nD τ).loc main_arg6)
abbrev aWl (c : Dev nD) : FVec Ideal S64x3 .f32 := m ((c.tc : Thread nD τ).loc main_arg7)
abbrev aBl (c : Dev nD) : FVec Ideal S3 .f32 := m ((c.tc : Thread nD τ).loc main_arg8)

/-- The edges' source words and destination words. -/
def srcW (c : Dev nD) (e : Fin 1600000) : BitVec 32 := aE m c (ix2 (0 : Fin 2) e)
def dstW (c : Dev nD) (e : Fin 1600000) : BitVec 32 := aE m c (ix2 (1 : Fin 2) e)

/-- A vector recast as one row reads, at (u, q), the vector's entry q. -/
theorem row_cast {α : Type} {N : Nat} (x : (⟨1, ![N]⟩ : Shape).Idx → α) (h : (⟨1, ![N]⟩ : Shape).ShapeCasts ⟨2, ![1, N]⟩)
    (u : Fin 1) (q : Fin N) : shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu]; omega)

theorem dinv_eq (c : Dev nD) (i : Fin 100000) : dinvV (dstV (aE m c)) (ix1 i) = Spec.dv (dstW m c) i := by
  rw [dinvV_apply]
  exact congrArg (fun k => Spec.dinv k i) (funext fun e => by rw [dstV_apply]; rfl)

/-- The scale column, the squared-scale column, the bias rows and the graph-word column. -/
theorem dcol (c : Dev nD) (i : Fin 100000) :
    (U1 m c main_v15 : FVec Ideal S100000x1 .f32) (ix2 i (0 : Fin 1)) = Spec.dv (dstW m c) i := by
  rw [U1_v15, Cert.LibLayout2.shapeCast_a_a1_apply, dinv_eq]

theorem mulf_vec_apply (a b : FVec Ideal S100000 .f32) (i : S100000.Idx) : mulf a b i = a i * b i := rfl

theorem sqcol (c : Dev nD) (i : Fin 100000) :
    (U1 m c main_v17 : FVec Ideal S100000x1 .f32) (ix2 i (0 : Fin 1)) = Spec.dv (dstW m c) i * Spec.dv (dstW m c) i := by
  rw [U1_v17, Cert.LibLayout2.shapeCast_a_a1_apply, mulf_vec_apply, dinv_eq]

theorem b1row (c : Dev nD) (j : Fin 64) : (U1 m c main_v18 : FVec Ideal S1x64 .f32) (ix2 (0 : Fin 1) j) = aB1 m c (ix1 j) := by
  rw [U1_v18, row_cast]
theorem b2row (c : Dev nD) (j : Fin 64) : (U1 m c main_v19 : FVec Ideal S1x64 .f32) (ix2 (0 : Fin 1) j) = aB2 m c (ix1 j) := by
  rw [U1_v19, row_cast]
theorem blrow (c : Dev nD) (a : Fin 3) : (U1 m c main_v20 : FVec Ideal S1x3 .f32) (ix2 (0 : Fin 1) a) = aBl m c (ix1 a) := by
  rw [U1_v20, row_cast]
theorem btcol (c : Dev nD) (n : Fin 100000) : (U1 m c main_v4 : IVec S100000x1 32) (ix2 n (0 : Fin 1)) = aBt m c (ix1 n) := by
  rw [U1_v4, Cert.LibLayout2.shapeCast_a_a1_apply]

/-! ## One layer, from what its three items compute -/

/-- From the node-transform region's two outputs (hs, the product scaled; self, the self-loop term with the bias),
    the sum over incoming edges and the combine region's arithmetic: the layer in the kernel's arrangement. -/
theorem layer_val (c : Dev nD) (xin : FVec Ideal S100000x64 .f32) (W : FVec Ideal S64x64 .f32) (b : Fin 64 → EReal)
    (dc : FVec Ideal S100000x1 .f32) (hd : ∀ i, dc (ix2 i (0 : Fin 1)) = Spec.dv (dstW m c) i)
    (v1 v3 : IVec S1600000 32) (hv1 : ∀ e, v1 (ix1 e) = srcW m c e) (hv3 : ∀ e, v3 (ix1 e) = dstW m c e)
    (hs self : FVec Ideal S100000x64 .f32)
    (hhs : ∀ i j, hs (ix2 i j) = (∑ k : Fin 64, xin (ix2 i k) * W (ix2 k j)) * Spec.dv (dstW m c) i)
    (hself : ∀ i j, self (ix2 i j) = (∑ k : Fin 64, xin (ix2 i k) * W (ix2 k j)) * (Spec.dv (dstW m c) i * Spec.dv (dstW m c) i) + b j)
    (i : Fin 100000) (j : Fin 64) :
    edgeAgg hs v1 v3 (ix2 i j) * dc (ix2 i (0 : Fin 1)) + self (ix2 i j)
      = Spec.layerK (Spec.dv (dstW m c)) (Spec.gs (srcW m c)) (Spec.ks (dstW m c)) (Spec.lin (Spec.arr2 xin) (Spec.arr2 W)) b i j := by
  have hsum : ∑ e ∈ Finset.univ.filter (fun e : Fin 1600000 => (v3 (ix1 e)).toInt = (i.val : Int)), hs (ix2 (Spec.rowOf (v1 (ix1 e))) j)
      = ∑ e ∈ Finset.univ.filter (fun e : Fin 1600000 => Spec.ks (dstW m c) e = (i.val : Int)),
          (∑ k : Fin 64, xin (ix2 (Spec.gs (srcW m c) e) k) * W (ix2 k j)) * Spec.dv (dstW m c) (Spec.gs (srcW m c) e) :=
    Finset.sum_congr (Finset.filter_congr fun e _ => by rw [hv3]; rfl) fun e _ => by rw [hhs, hv1]; rfl
  rw [edgeAgg_apply, hd, hself, hsum]
  unfold Spec.layerK Spec.lin Spec.arr2
  rfl

/-! ## The chain -/

/-- The rectified first layer, as region 2 finds it. -/
abbrev x2A (c : Dev nD) : FVec Ideal S100000x64 .f32 := U4 m c main_v32

section Chain

variable (c : Dev nD)

/-- The edge words as every later item finds them. -/
theorem v1_at2 (e : Fin 1600000) : (U2 m c main_v1 : IVec S1600000 32) (ix1 e) = srcW m c e := by
  rw [show (U2 m c main_v1 : IVec S1600000 32) = U1 m c main_v1 from s2 m c main_v1 (by decide), U1_v1, srcV_apply]; rfl
theorem v3_at2 (e : Fin 1600000) : (U2 m c main_v3 : IVec S1600000 32) (ix1 e) = dstW m c e := by
  rw [show (U2 m c main_v3 : IVec S1600000 32) = U1 m c main_v3 from s2 m c main_v3 (by decide), U1_v3, dstV_apply]; rfl
theorem v1_at5 (e : Fin 1600000) : (U5 m c main_v1 : IVec S1600000 32) (ix1 e) = srcW m c e := by
  rw [show (U5 m c main_v1 : IVec S1600000 32) = U1 m c main_v1 from k5 m c main_v1 (by decide) (by decide) (by decide) (by decide), U1_v1, srcV_apply]; rfl
theorem v3_at5 (e : Fin 1600000) : (U5 m c main_v3 : IVec S1600000 32) (ix1 e) = dstW m c e := by
  rw [show (U5 m c main_v3 : IVec S1600000 32) = U1 m c main_v3 from k5 m c main_v3 (by decide) (by decide) (by decide) (by decide), U1_v3, dstV_apply]; rfl

/-- Region 0's two outputs. -/
theorem hs1_apply (i : Fin 100000) (j : Fin 64) :
    (U2 m c main_v21_0 : FVec Ideal S100000x64 .f32) (ix2 i j)
      = (∑ k : Fin 64, aX m c (ix2 i k) * aW1 m c (ix2 k j)) * Spec.dv (dstW m c) i := by
  have e : (U2 m c main_v21_0 : FVec Ideal S100000x64 .f32) = R0.outHs (atTc (U1 m)) c := (hF0 m c 5).symm
  have hx : R0.inX (atTc (U1 m)) c = aX m c := s1 m c main_arg0 (by decide)
  have hw : R0.inW (atTc (U1 m)) c = aW1 m c := s1 m c main_arg3 (by decide)
  have hd : R0.inDv (atTc (U1 m)) c (ix2 i (0 : Fin 1)) = Spec.dv (dstW m c) i := dcol m c i
  rw [e, R0.outHs_apply, hx, hw, hd]

theorem self1_apply (i : Fin 100000) (j : Fin 64) :
    (U2 m c main_v21_1 : FVec Ideal S100000x64 .f32) (ix2 i j)
      = (∑ k : Fin 64, aX m c (ix2 i k) * aW1 m c (ix2 k j)) * (Spec.dv (dstW m c) i * Spec.dv (dstW m c) i) + Spec.arr1 (aB1 m c) j := by
  have e : (U2 m c main_v21_1 : FVec Ideal S100000x64 .f32) = R0.outSelf (atTc (U1 m)) c := (hF0 m c 6).symm
  have hx : R0.inX (atTc (U1 m)) c = aX m c := s1 m c main_arg0 (by decide)
  have hw : R0.inW (atTc (U1 m)) c = aW1 m c := s1 m c main_arg3 (by decide)
  have hq : R0.inSq (atTc (U1 m)) c (ix2 i (0 : Fin 1)) = Spec.dv (dstW m c) i * Spec.dv (dstW m c) i := sqcol m c i
  have hb : R0.inB (atTc (U1 m)) c (ix2 (0 : Fin 1) j) = aB1 m c (ix1 j) := b1row m c j
  rw [e, R0.outSelf_apply, hx, hw, hq, hb]; rfl

/-- Region 1's output: the first layer, rectified. -/
theorem x2_apply (i : Fin 100000) (j : Fin 64) :
    x2A m c (ix2 i j)
      = Spec.relu (Spec.layerK (Spec.dv (dstW m c)) (Spec.gs (srcW m c)) (Spec.ks (dstW m c))
          (Spec.lin (Spec.arr2 (aX m c)) (Spec.arr2 (aW1 m c))) (Spec.arr1 (aB1 m c)) i j) := by
  have e : x2A m c = R1.outC (atTc (U3 m)) c := (hF1 m c 3).symm
  have hA : R1.inAgg (atTc (U3 m)) c = edgeAgg (U2 m c main_v21_0) (U2 m c main_v1) (U2 m c main_v3) := U3_v31 m c
  have hD : R1.inDv (atTc (U3 m)) c = (U1 m c main_v15 : FVec Ideal S100000x1 .f32) := k3 m c main_v15 (by decide) (by decide)
  have hS : R1.inSelf (atTc (U3 m)) c = (U2 m c main_v21_1 : FVec Ideal S100000x64 .f32) := s3 m c main_v21_1 (by decide)
  rw [e, R1.outC_apply, hA, hD, hS]
  unfold Spec.relu
  exact congrArg (fun z => max z (Ideal.ofBits .f32 0x00000000#32))
    (layer_val m c (aX m c) (aW1 m c) (Spec.arr1 (aB1 m c)) (U1 m c main_v15) (dcol m c) (U2 m c main_v1) (U2 m c main_v3)
      (v1_at2 m c) (v3_at2 m c) (U2 m c main_v21_0) (U2 m c main_v21_1) (hs1_apply m c) (self1_apply m c) i j)

/-- Region 2's two outputs. -/
theorem hs2_apply (i : Fin 100000) (j : Fin 64) :
    (U5 m c main_v33_0 : FVec Ideal S100000x64 .f32) (ix2 i j)
      = (∑ k : Fin 64, x2A m c (ix2 i k) * aW2 m c (ix2 k j)) * Spec.dv (dstW m c) i := by
  have e : (U5 m c main_v33_0 : FVec Ideal S100000x64 .f32) = R2.outHs (atTc (U4 m)) c := (hF2 m c 5).symm
  have hw : R2.inW (atTc (U4 m)) c = aW2 m c := (k4 m c main_arg5 (by decide) (by decide) (by decide)).trans (s1 m c main_arg5 (by decide))
  have hd : R2.inDv (atTc (U4 m)) c (ix2 i (0 : Fin 1)) = Spec.dv (dstW m c) i := by
    rw [show R2.inDv (atTc (U4 m)) c = (U1 m c main_v15 : FVec Ideal S100000x1 .f32) from k4 m c main_v15 (by decide) (by decide) (by decide)]
    exact dcol m c i
  rw [e, R2.outHs_apply, hw, hd]

theorem self2_apply (i : Fin 100000) (j : Fin 64) :
    (U5 m c main_v33_1 : FVec Ideal S100000x64 .f32) (ix2 i j)
      = (∑ k : Fin 64, x2A m c (ix2 i k) * aW2 m c (ix2 k j)) * (Spec.dv (dstW m c) i * Spec.dv (dstW m c) i)
        + Spec.arr1 (aB2 m c) j := by
  have e : (U5 m c main_v33_1 : FVec Ideal S100000x64 .f32) = R2.outSelf (atTc (U4 m)) c := (hF2 m c 6).symm
  have hw : R2.inW (atTc (U4 m)) c = aW2 m c := (k4 m c main_arg5 (by decide) (by decide) (by decide)).trans (s1 m c main_arg5 (by decide))
  have hq : R2.inSq (atTc (U4 m)) c (ix2 i (0 : Fin 1)) = Spec.dv (dstW m c) i * Spec.dv (dstW m c) i := by
    rw [show R2.inSq (atTc (U4 m)) c = (U1 m c main_v17 : FVec Ideal S100000x1 .f32) from k4 m c main_v17 (by decide) (by decide) (by decide)]
    exact sqcol m c i
  have hb : R2.inB (atTc (U4 m)) c (ix2 (0 : Fin 1) j) = aB2 m c (ix1 j) := by
    rw [show R2.inB (atTc (U4 m)) c = (U1 m c main_v19 : FVec Ideal S1x64 .f32) from k4 m c main_v19 (by decide) (by decide) (by decide)]
    exact b2row m c j
  rw [e, R2.outSelf_apply, hw, hq, hb]; rfl

/-- Region 3's output: the second layer. -/
theorem out2_apply (i : Fin 100000) (j : Fin 64) :
    (U7 m c main_v44 : FVec Ideal S100000x64 .f32) (ix2 i j)
      = Spec.layerK (Spec.dv (dstW m c)) (Spec.gs (srcW m c)) (Spec.ks (dstW m c))
          (Spec.lin (Spec.arr2 (x2A m c)) (Spec.arr2 (aW2 m c))) (Spec.arr1 (aB2 m c)) i j := by
  have e : (U7 m c main_v44 : FVec Ideal S100000x64 .f32) = R3.outC (atTc (U6 m)) c := (hF3 m c 3).symm
  have hA : R3.inAgg (atTc (U6 m)) c = edgeAgg (U5 m c main_v33_0) (U5 m c main_v1) (U5 m c main_v3) := U6_v43 m c
  have hD : R3.inDv (atTc (U6 m)) c = (U1 m c main_v15 : FVec Ideal S100000x1 .f32) :=
    k6 m c main_v15 (by decide) (by decide) (by decide) (by decide) (by decide)
  have hS : R3.inSelf (atTc (U6 m)) c = (U5 m c main_v33_1 : FVec Ideal S100000x64 .f32) := s6 m c main_v33_1 (by decide)
  rw [e, R3.outC_apply, hA, hD, hS]
  exact layer_val m c (x2A m c) (aW2 m c) (Spec.arr1 (aB2 m c)) (U1 m c main_v15) (dcol m c) (U5 m c main_v1) (U5 m c main_v3)
    (v1_at5 m c) (v3_at5 m c) (U5 m c main_v33_0) (U5 m c main_v33_1) (hs2_apply m c) (self2_apply m c) i j

/-- THE KERNEL'S RESULT: what the last pipeline leaves in its output array is the network in the kernel's
    arrangement of the argument arrays. -/
theorem ker_eq (g : Fin 64) (a : Fin 3) :
    R4.outP (atTc (U7 m)) c (ix2 g a)
      = Spec.netK (Spec.arr2 (aX m c)) (srcW m c) (dstW m c) (Spec.arr1 (aBt m c)) (Spec.arr2 (aW1 m c)) (Spec.arr2 (aW2 m c))
          (Spec.arr1 (aB1 m c)) (Spec.arr1 (aB2 m c)) (Spec.arr2 (aWl m c)) (Spec.arr1 (aBl m c)) g a := by
  have hH : Spec.arr2 (R4.inH (atTc (U7 m)) c)
      = Spec.layerK (Spec.dv (dstW m c)) (Spec.gs (srcW m c)) (Spec.ks (dstW m c))
          (Spec.lin (fun i j => Spec.relu (Spec.layerK (Spec.dv (dstW m c)) (Spec.gs (srcW m c)) (Spec.ks (dstW m c))
            (Spec.lin (Spec.arr2 (aX m c)) (Spec.arr2 (aW1 m c))) (Spec.arr1 (aB1 m c)) i j)) (Spec.arr2 (aW2 m c))) (Spec.arr1 (aB2 m c)) := by
    funext i j
    have hx2 : Spec.arr2 (x2A m c)
        = fun i j => Spec.relu (Spec.layerK (Spec.dv (dstW m c)) (Spec.gs (srcW m c)) (Spec.ks (dstW m c))
            (Spec.lin (Spec.arr2 (aX m c)) (Spec.arr2 (aW1 m c))) (Spec.arr1 (aB1 m c)) i j) := by
      funext i j; exact x2_apply m c i j
    rw [← hx2]
    exact out2_apply m c i j
  have hBt : (fun n : Fin 100000 => (R4.inBt (atTc (U7 m)) c (ix2 n (0 : Fin 1))).toInt) = Spec.bk (Spec.arr1 (aBt m c)) := by
    funext n
    rw [show R4.inBt (atTc (U7 m)) c = (U1 m c main_v4 : IVec S100000x1 32) from
      k7 m c main_v4 (by decide) (by decide) (by decide) (by decide) (by decide) (by decide), btcol]
    rfl
  have hWl : R4.inWl (atTc (U7 m)) c = aWl m c :=
    (k7 m c main_arg7 (by decide) (by decide) (by decide) (by decide) (by decide) (by decide)).trans (s1 m c main_arg7 (by decide))
  have hBl : (fun a : Fin 3 => R4.inBl (atTc (U7 m)) c (ix2 (0 : Fin 1) a)) = Spec.arr1 (aBl m c) := by
    funext a
    rw [show R4.inBl (atTc (U7 m)) c = (U1 m c main_v20 : FVec Ideal S1x3 .f32) from
      k7 m c main_v20 (by decide) (by decide) (by decide) (by decide) (by decide) (by decide), blrow]
    rfl
  rw [R4.outP_apply, hH, hBt, hWl, hBl]
  rfl

end Chain

end Cert.KernelIdeal.Value

end
-- ==== Proof.RefValue.lean ====
import proofs.«429222_j11897059409948_3_alg».proof.Proof.Gen.ReferenceIdeal.Run
import proofs.«429222_j11897059409948_3_alg».proof.Proof.Gen.ReferenceIdeal.Read
import proofs.«429222_j11897059409948_3_alg».proof.Proof.Spec
import proofs.«429222_j11897059409948_3_alg».proof.Proof.LibRows
import proofs.«429222_j11897059409948_3_alg».proof.Proof.LibVecScatter
import Idealize.ShloMosaic.Lib.ValueIdx
import Idealize.ShloMosaic.PureOps.Ideal.Laws

/-!
  The reference program read index by index.

  Every stage of the reference is read at an index built from literal coordinates; the gathers, the scatters with
  addition and the maximum over a row are read from the dimension numbers, and the rest from the stage-by-stage
  equations of the program. Chained together the stages are the network in the reference's arrangement.
-/

noncomputable section
namespace Cert.RefValue

open Cert.ReferenceIdeal Cert.ReferenceIdeal.Gen Cert.ReferenceIdeal.Read
open Idealize.ShloMosaic Idealize.ShloMosaic.TcCoe Idealize.ShloMosaic.ValueIdx
open scoped BigOperators

/-! ## The operations whose element depends on an operand's values -/

/-- The dimension numbers of a vector gather: one entry per index word. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A vector gathered at a column of index words reads, at e, the entry at word e read signed and clamped. -/
theorem gather_vec_apply (N E : Nat) {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e 0)).toInt.toNat (N - 1), by omega⟩ : Fin N)) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The program's vector gather at a column of normalized words reads the entry of the word's row. -/
theorem gatherVec_at (x : FVec Ideal S100000 .f32) (idx : IVec S1600000x1 32) (e : Fin 1600000) (w : BitVec 32)
    (hw : idx (ix2 e 0) = Spec.normW w) :
    Host.gather gather_S100000_S1600000x1_S1600000_n_0_n_n_0_1_1 x idx (ix1 e) = x (ix1 (Spec.rowOf w)) := by
  refine (gather_vec_apply 100000 1600000 (by decide) gather_S100000_S1600000x1_S1600000_n_0_n_n_0_1_1_wf x idx e).trans ?_
  refine congrArg (fun r : Fin 100000 => x (ix1 r)) (Fin.ext ?_)
  show min (idx (ix2 e 0)).toInt.toNat (100000 - 1) = (Spec.rowOf w).val
  rw [hw]; rfl

/-- The program's row gather at a column of normalized words reads the word's row. -/
theorem gatherRows_at (x : FVec Ideal S100000x64 .f32) (idx : IVec S1600000x1 32) (e : Fin 1600000) (q : Fin 64)
    (w : BitVec 32) (hw : idx (ix2 e 0) = Spec.normW w) :
    Host.gather gather_S100000x64_S1600000x1_S1600000x64_1_0_n_n_0_1_164 x idx (ix2 e q)
      = x (ix2 (Spec.rowOf w) q) := by
  refine (LibRows.gather_rows_apply 100000 1600000 64 (by decide)
    gather_S100000x64_S1600000x1_S1600000x64_1_0_n_n_0_1_164_wf x idx e q).trans ?_
  refine congrArg (fun r : Fin 100000 => x (ix2 r q)) (Fin.ext ?_)
  show min (idx (ix2 e 0)).toInt.toNat (100000 - 1) = (Spec.rowOf w).val
  rw [hw]; rfl

/-- The degree's scatter: the operand's entry plus the updates of the edges whose word, read signed, is n. -/
theorem scatterDeg_at (x : FVec Ideal S100000 .f32) (idx : IVec S1600000x1 32) (upd : FVec Ideal S1600000 .f32)
    (n : Fin 100000) :
    Host.scatterAdd (F := Ideal) scatter_S100000_S1600000x1_S1600000_n_0_0_1 x idx upd (ix1 n)
      = x (ix1 n) + ∑ e ∈ Finset.univ.filter (fun e : Fin 1600000 => (idx (ix2 e (0 : Fin 1))).toInt = (n.val : Int)),
          upd (ix1 e) :=
  LibVecScatter.scatterAdd_vec_apply scatter_S100000_S1600000x1_S1600000_n_0_0_1_wf x idx upd n

/-- The count's scatter. -/
theorem scatterCnt_at (x : FVec Ideal S64 .f32) (idx : IVec S100000x1 32) (upd : FVec Ideal S100000 .f32)
    (n : Fin 64) :
    Host.scatterAdd (F := Ideal) scatter_S64_S100000x1_S100000_n_0_0_1 x idx upd (ix1 n)
      = x (ix1 n) + ∑ e ∈ Finset.univ.filter (fun e : Fin 100000 => (idx (ix2 e (0 : Fin 1))).toInt = (n.val : Int)),
          upd (ix1 e) :=
  LibVecScatter.scatterAdd_vec_apply scatter_S64_S100000x1_S100000_n_0_0_1_wf x idx upd n

/-- The sum over incoming edges: a scatter of rows. -/
theorem scatterRows_at (x : FVec Ideal S100000x64 .f32) (idx : IVec S1600000x1 32) (upd : FVec Ideal S1600000x64 .f32)
    (n : Fin 100000) (q : Fin 64) :
    Host.scatterAdd (F := Ideal) scatter_S100000x64_S1600000x1_S1600000x64_1_0_0_1 x idx upd (ix2 n q)
      = x (ix2 n q) + ∑ e ∈ Finset.univ.filter (fun e : Fin 1600000 => (idx (ix2 e 0)).toInt = (n.val : Int)),
          upd (ix2 e q) :=
  LibRows.host_scatterAdd_rows_apply 100000 1600000 64
    scatter_S100000x64_S1600000x1_S1600000x64_1_0_0_1_wf x idx upd n q

/-- The pooling: a scatter of rows into the graphs. -/
theorem scatterPool_at (x : FVec Ideal S64x64 .f32) (idx : IVec S100000x1 32) (upd : FVec Ideal S100000x64 .f32)
    (n : Fin 64) (q : Fin 64) :
    Host.scatterAdd (F := Ideal) scatter_S64x64_S100000x1_S100000x64_1_0_0_1 x idx upd (ix2 n q)
      = x (ix2 n q) + ∑ e ∈ Finset.univ.filter (fun e : Fin 100000 => (idx (ix2 e 0)).toInt = (n.val : Int)),
          upd (ix2 e q) :=
  LibRows.host_scatterAdd_rows_apply 64 100000 64
    scatter_S64x64_S100000x1_S100000x64_1_0_0_1_wf x idx upd n q

/-! ## The index words -/

section Words
variable (x1 : IVec S2x1600000 32)

/-- The source words and the destination words are the two rows of the edge array. -/
theorem v1_at (e : Fin 1600000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

theorem v3_at (e : Fin 1600000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The destination word normalized (the degree's key, and the row its reads land on). -/
theorem v10_at (e : Fin 1600000) : val_main_v10 (F := Ideal) x1 (ix1 e) = Spec.normW (x1 (ix2 (1 : Fin 2) e)) := by
  simp only [val_main_v10_apply, val_main_v7_apply, val_main_v9_apply, val_main_v6_apply, val_main_v8_apply,
    val_main_c_apply, val_main_c_0_apply, v3_at]
  rfl

theorem v11_at (e : Fin 1600000) : val_main_v11 (F := Ideal) x1 (ix2 e 0) = Spec.normW (x1 (ix2 (1 : Fin 2) e)) := by
  rw [val_main_v11_apply]
  refine (congrArg (val_main_v10 (F := Ideal) x1) (?_ : idx_main_v11 (ix2 e 0) = ix1 e)).trans (v10_at x1 e)
  funext a; match a with | ⟨0, _⟩ => rfl

end Words

/-- Two words that are equal have the same key. -/
theorem key_iff {a b : BitVec 32} (h : a = b) (n : Int) : a.toInt = n ↔ b.toInt = n := by rw [h]

/-- The two rows of the edge array as functions of the edge. -/
abbrev srcW (x1 : IVec S2x1600000 32) : Fin 1600000 → BitVec 32 := fun e => x1 (ix2 (0 : Fin 2) e)
abbrev dstW (x1 : IVec S2x1600000 32) : Fin 1600000 → BitVec 32 := fun e => x1 (ix2 (1 : Fin 2) e)

/-! ## The first layer -/

section Layer1
variable (x0 : FVec Ideal S100000x64 .f32) (x1 : IVec S2x1600000 32) (x3 : FVec Ideal S64x64 .f32)
  (x4 : FVec Ideal S64 .f32)

/-- The degree: one plus the number of edges whose normalized destination word is the node. -/
theorem v13_at (i : Fin 100000) : val_main_v13 (F := Ideal) x1 (ix1 i) = Spec.deg (Spec.kd (dstW x1)) i := by
  unfold val_main_v13
  rw [scatterDeg_at]
  unfold Spec.deg
  refine congrArg₂ (· + ·) ?_ (Finset.sum_congr (Finset.filter_congr fun e _ => ?_) fun e _ => ?_)
  · rw [val_main_v5_apply, val_main_cst_apply]; exact Spec.one_f32
  · exact key_iff (v11_at x1 e) _
  · rw [val_main_v12_apply, val_main_cst_1_apply]; exact Spec.one_f32

/-- Its inverse square root. -/
theorem v14_at (i : Fin 100000) : val_main_v14 (F := Ideal) x1 (ix1 i) = Spec.dv (dstW x1) i := by
  rw [val_main_v14_apply, v13_at, Ideal.hostUnary_rsqrt_def]
  unfold Spec.dv Spec.dinv
  rfl

/-- The normalized source word, as a column. -/
theorem v20_at (e : Fin 1600000) : val_main_v20 (F := Ideal) x1 (ix2 e 0) = Spec.normW (srcW x1 e) := by
  rw [val_main_v20_apply]
  refine (congrArg (val_main_v19 (F := Ideal) x1) (?_ : idx_main_v20 (ix2 e 0) = ix1 e)).trans ?_
  · funext a; match a with | ⟨0, _⟩ => rfl
  · simp only [val_main_v19_apply, val_main_v16_apply, val_main_v18_apply, val_main_v15_apply, val_main_v17_apply,
      val_main_c_2_apply, val_main_c_3_apply, v1_at]
    rfl

/-- The normalized destination word, as a column. -/
theorem v27_at (e : Fin 1600000) : val_main_v27 (F := Ideal) x1 (ix2 e 0) = Spec.normW (dstW x1 e) := by
  rw [val_main_v27_apply]
  refine (congrArg (val_main_v26 (F := Ideal) x1) (?_ : idx_main_v27 (ix2 e 0) = ix1 e)).trans ?_
  · funext a; match a with | ⟨0, _⟩ => rfl
  · simp only [val_main_v26_apply, val_main_v23_apply, val_main_v25_apply, val_main_v22_apply, val_main_v24_apply,
      val_main_c_4_apply, val_main_c_5_apply, v3_at]
    rfl

/-- The normalized source word once more, for the row gather. -/
theorem v35_at (e : Fin 1600000) : val_main_v35 (F := Ideal) x1 (ix2 e 0) = Spec.normW (srcW x1 e) := by
  rw [val_main_v35_apply]
  refine (congrArg (val_main_v34 (F := Ideal) x1) (?_ : idx_main_v35 (ix2 e 0) = ix1 e)).trans ?_
  · funext a; match a with | ⟨0, _⟩ => rfl
  · simp only [val_main_v34_apply, val_main_v31_apply, val_main_v33_apply, val_main_v30_apply, val_main_v32_apply,
      val_main_c_6_apply, val_main_c_7_apply, v1_at]
    rfl

/-- The raw destination word, as a column. -/
theorem v41_at (e : Fin 1600000) : val_main_v41 (F := Ideal) x1 (ix2 e 0) = dstW x1 e := by
  rw [val_main_v41_apply]
  refine (congrArg (val_main_v3 (F := Ideal) x1) (?_ : idx_main_v41 (ix2 e 0) = ix1 e)).trans (v3_at x1 e)
  funext a; match a with | ⟨0, _⟩ => rfl

/-- The scale at an edge's source and at its destination. -/
theorem v21_at (e : Fin 1600000) :
    val_main_v21 (F := Ideal) x1 (ix1 e) = Spec.dv (dstW x1) (Spec.gs (srcW x1) e) :=
  (gatherVec_at (val_main_v14 (F := Ideal) x1) (val_main_v20 (F := Ideal) x1) e _ (v20_at x1 e)).trans (v14_at x1 _)

theorem v28_at (e : Fin 1600000) :
    val_main_v28 (F := Ideal) x1 (ix1 e) = Spec.dv (dstW x1) (Spec.gd (dstW x1) e) :=
  (gatherVec_at (val_main_v14 (F := Ideal) x1) (val_main_v27 (F := Ideal) x1) e _ (v27_at x1 e)).trans (v14_at x1 _)

/-- The edge's coefficient, spread over the columns. -/
theorem v38_at (e : Fin 1600000) (j : Fin 64) :
    val_main_v38 (F := Ideal) x1 (ix2 e j)
      = Spec.dv (dstW x1) (Spec.gs (srcW x1) e) * Spec.dv (dstW x1) (Spec.gd (dstW x1) e) := by
  rw [val_main_v38_apply, val_main_v37_apply]
  refine (congrArg (val_main_v29 (F := Ideal) x1) (?_ : idx_main_v37 (idx_main_v38 (ix2 e j)) = ix1 e)).trans ?_
  · funext a; match a with | ⟨0, _⟩ => rfl
  · rw [val_main_v29_apply, v21_at, v28_at, Ideal.mulf_def]

/-- The features times the first weight matrix. -/
theorem v4_at (i : Fin 100000) (j : Fin 64) :
    val_main_v4 (F := Ideal) x0 x3 (ix2 i j) = Spec.lin (Spec.arr2 x0) (Spec.arr2 x3) i j := by
  rw [val_main_v4_apply]
  unfold Spec.lin Spec.arr2
  refine Finset.sum_congr rfl fun k _ => congrArg₂ (· * ·) (congrArg x0 ?_) (congrArg x3 ?_)
  · funext a; match a with | ⟨0, _⟩ => rfl | ⟨1, _⟩ => rfl
  · funext a; match a with | ⟨0, _⟩ => rfl | ⟨1, _⟩ => rfl

/-- The source's row of them. -/
theorem v36_at (e : Fin 1600000) (j : Fin 64) :
    val_main_v36 (F := Ideal) x0 x1 x3 (ix2 e j)
      = Spec.lin (Spec.arr2 x0) (Spec.arr2 x3) (Spec.gs (srcW x1) e) j :=
  (gatherRows_at (val_main_v4 (F := Ideal) x0 x3) (val_main_v35 (F := Ideal) x1) e j _ (v35_at x1 e)).trans
    (v4_at x0 x3 _ j)

/-- The message of an edge. -/
theorem v39_at (e : Fin 1600000) (j : Fin 64) :
    val_main_v39 (F := Ideal) x0 x1 x3 (ix2 e j)
      = Spec.lin (Spec.arr2 x0) (Spec.arr2 x3) (Spec.gs (srcW x1) e) j
          * (Spec.dv (dstW x1) (Spec.gs (srcW x1) e) * Spec.dv (dstW x1) (Spec.gd (dstW x1) e)) := by
  rw [val_main_v39_apply, v36_at, v38_at, Ideal.mulf_def]

/-- The sum of the messages of the edges whose destination word is the node. -/
theorem v42_at (i : Fin 100000) (j : Fin 64) :
    val_main_v42 (F := Ideal) x0 x1 x3 (ix2 i j)
      = ∑ e ∈ Finset.univ.filter (fun e : Fin 1600000 => Spec.ks (dstW x1) e = (i.val : Int)),
          Spec.lin (Spec.arr2 x0) (Spec.arr2 x3) (Spec.gs (srcW x1) e) j
            * (Spec.dv (dstW x1) (Spec.gs (srcW x1) e) * Spec.dv (dstW x1) (Spec.gd (dstW x1) e)) := by
  unfold val_main_v42
  rw [scatterRows_at]
  have h0 : val_main_v40 (F := Ideal) (ix2 i j) = 0 := by
    rw [val_main_v40_apply, val_main_cst_8_apply]; exact Ideal.ofBits_zero_f32
  rw [h0, zero_add]
  exact Finset.sum_congr (Finset.filter_congr fun e _ => key_iff (v41_at x1 e) _) fun e _ => v39_at x0 x1 x3 e j

/-- The self loop's scale, spread over the columns. -/
theorem v45_at (i : Fin 100000) (j : Fin 64) :
    val_main_v45 (F := Ideal) x1 (ix2 i j) = Spec.dv (dstW x1) i * Spec.dv (dstW x1) i := by
  rw [val_main_v45_apply, val_main_v44_apply]
  refine (congrArg (val_main_v43 (F := Ideal) x1) (?_ : idx_main_v44 (idx_main_v45 (ix2 i j)) = ix1 i)).trans ?_
  · funext a; match a with | ⟨0, _⟩ => rfl
  · rw [val_main_v43_apply, v14_at, Ideal.mulf_def]

/-- The bias, spread over the rows. -/
theorem v49_at (i : Fin 100000) (j : Fin 64) : val_main_v49 (F := Ideal) x4 (ix2 i j) = Spec.arr1 x4 j := by
  rw [val_main_v49_apply, val_main_v48_apply]
  refine congrArg x4 ?_
  funext a; match a with | ⟨0, _⟩ => rfl

/-- THE FIRST LAYER in the reference's arrangement. -/
theorem v50_at (i : Fin 100000) (j : Fin 64) :
    val_main_v50 (F := Ideal) x0 x1 x3 x4 (ix2 i j)
      = Spec.layerR (Spec.dv (dstW x1)) (Spec.gs (srcW x1)) (Spec.gd (dstW x1)) (Spec.ks (dstW x1))
          (Spec.lin (Spec.arr2 x0) (Spec.arr2 x3)) (Spec.arr1 x4) i j := by
  rw [val_main_v50_apply, val_main_v47_apply, val_main_v46_apply, v42_at, v4_at, v45_at, v49_at]
  simp only [Ideal.addf_def, Ideal.mulf_def]
  unfold Spec.layerR
  rfl

/-- and rectified. -/
theorem v51_at (i : Fin 100000) (j : Fin 64) :
    val_main_v51 (F := Ideal) x0 x1 x3 x4 (ix2 i j)
      = Spec.relu (Spec.layerR (Spec.dv (dstW x1)) (Spec.gs (srcW x1)) (Spec.gd (dstW x1)) (Spec.ks (dstW x1))
          (Spec.lin (Spec.arr2 x0) (Spec.arr2 x3)) (Spec.arr1 x4) i j) := by
  rw [val_main_v51_apply, v50_at, val_main_call0_v0_apply, val_main_call0_cst_apply, Ideal.maximumf_def,
    Ideal.ofBits_def]
  unfold Spec.relu
  rfl

end Layer1

/-- The first layer's output, rectified: what the second layer reads. -/
abbrev act1 (x0 : FVec Ideal S100000x64 .f32) (x1 : IVec S2x1600000 32) (x3 : FVec Ideal S64x64 .f32)
    (x4 : FVec Ideal S64 .f32) : Fin 100000 → Fin 64 → EReal := fun i j =>
  Spec.relu (Spec.layerR (Spec.dv (dstW x1)) (Spec.gs (srcW x1)) (Spec.gd (dstW x1)) (Spec.ks (dstW x1))
    (Spec.lin (Spec.arr2 x0) (Spec.arr2 x3)) (Spec.arr1 x4) i j)

/-! ## The second layer -/

section Layer2
variable (x0 : FVec Ideal S100000x64 .f32) (x1 : IVec S2x1600000 32) (x3 : FVec Ideal S64x64 .f32)
  (x4 : FVec Ideal S64 .f32) (x5 : FVec Ideal S64x64 .f32) (x6 : FVec Ideal S64 .f32)

/-- The rectified first layer times the second weight matrix. -/
theorem v52_at (i : Fin 100000) (j : Fin 64) :
    val_main_v52 (F := Ideal) x0 x1 x3 x4 x5 (ix2 i j) = Spec.lin (act1 x0 x1 x3 x4) (Spec.arr2 x5) i j := by
  rw [val_main_v52_apply]
  unfold Spec.lin Spec.arr2
  refine Finset.sum_congr rfl fun k _ => congrArg₂ (· * ·) ?_ (congrArg x5 ?_)
  · refine (congrArg (val_main_v51 (F := Ideal) x0 x1 x3 x4) (?_ : lidx_main_v52 (ix2 i j) k = ix2 i k)).trans
      (v51_at x0 x1 x3 x4 i k)
    funext a; match a with | ⟨0, _⟩ => rfl | ⟨1, _⟩ => rfl
  · funext a; match a with | ⟨0, _⟩ => rfl | ⟨1, _⟩ => rfl

/-- The normalized destination word, as a column (the degree's key). -/
theorem v59_at (e : Fin 1600000) : val_main_v59 (F := Ideal) x1 (ix2 e 0) = Spec.normW (dstW x1 e) := by
  rw [val_main_v59_apply]
  refine (congrArg (val_main_v58 (F := Ideal) x1) (?_ : idx_main_v59 (ix2 e 0) = ix1 e)).trans ?_
  · funext a; match a with | ⟨0, _⟩ => rfl
  · simp only [val_main_v58_apply, val_main_v55_apply, val_main_v57_apply, val_main_v54_apply, val_main_v56_apply,
      val_main_c_10_apply, val_main_c_11_apply, v3_at]
    rfl

/-- The degree, computed once more. -/
theorem v61_at (i : Fin 100000) : val_main_v61 (F := Ideal) x1 (ix1 i) = Spec.deg (Spec.kd (dstW x1)) i := by
  unfold val_main_v61
  rw [scatterDeg_at]
  unfold Spec.deg
  refine congrArg₂ (· + ·) ?_ (Finset.sum_congr (Finset.filter_congr fun e _ => ?_) fun e _ => ?_)
  · rw [val_main_v53_apply, val_main_cst_9_apply]; exact Spec.one_f32
  · exact key_iff (v59_at x1 e) _
  · rw [val_main_v60_apply, val_main_cst_12_apply]; exact Spec.one_f32

/-- Its inverse square root. -/
theorem v62_at (i : Fin 100000) : val_main_v62 (F := Ideal) x1 (ix1 i) = Spec.dv (dstW x1) i := by
  rw [val_main_v62_apply, v61_at, Ideal.hostUnary_rsqrt_def]
  unfold Spec.dv Spec.dinv
  rfl

/-- The normalized source word, as a column. -/
theorem v68_at (e : Fin 1600000) : val_main_v68 (F := Ideal) x1 (ix2 e 0) = Spec.normW (srcW x1 e) := by
  rw [val_main_v68_apply]
  refine (congrArg (val_main_v67 (F := Ideal) x1) (?_ : idx_main_v68 (ix2 e 0) = ix1 e)).trans ?_
  · funext a; match a with | ⟨0, _⟩ => rfl
  · simp only [val_main_v67_apply, val_main_v64_apply, val_main_v66_apply, val_main_v63_apply, val_main_v65_apply,
      val_main_c_13_apply, val_main_c_14_apply, v1_at]
    rfl

/-- The normalized destination word, as a column. -/
theorem v75_at (e : Fin 1600000) : val_main_v75 (F := Ideal) x1 (ix2 e 0) = Spec.normW (dstW x1 e) := by
  rw [val_main_v75_apply]
  refine (congrArg (val_main_v74 (F := Ideal) x1) (?_ : idx_main_v75 (ix2 e 0) = ix1 e)).trans ?_
  · funext a; match a with | ⟨0, _⟩ => rfl
  · simp only [val_main_v74_apply, val_main_v71_apply, val_main_v73_apply, val_main_v70_apply, val_main_v72_apply,
      val_main_c_15_apply, val_main_c_16_apply, v3_at]
    rfl

/-- The normalized source word once more, for the row gather. -/
theorem v83_at (e : Fin 1600000) : val_main_v83 (F := Ideal) x1 (ix2 e 0) = Spec.normW (srcW x1 e) := by
  rw [val_main_v83_apply]
  refine (congrArg (val_main_v82 (F := Ideal) x1) (?_ : idx_main_v83 (ix2 e 0) = ix1 e)).trans ?_
  · funext a; match a with | ⟨0, _⟩ => rfl
  · simp only [val_main_v82_apply, val_main_v79_apply, val_main_v81_apply, val_main_v78_apply, val_main_v80_apply,
      val_main_c_17_apply, val_main_c_18_apply, v1_at]
    rfl

/-- The raw destination word, as a column. -/
theorem v89_at (e : Fin 1600000) : val_main_v89 (F := Ideal) x1 (ix2 e 0) = dstW x1 e := by
  rw [val_main_v89_apply]
  refine (congrArg (val_main_v3 (F := Ideal) x1) (?_ : idx_main_v89 (ix2 e 0) = ix1 e)).trans (v3_at x1 e)
  funext a; match a with | ⟨0, _⟩ => rfl

/-- The scale at an edge's source and at its destination. -/
theorem v69_at (e : Fin 1600000) :
    val_main_v69 (F := Ideal) x1 (ix1 e) = Spec.dv (dstW x1) (Spec.gs (srcW x1) e) :=
  (gatherVec_at (val_main_v62 (F := Ideal) x1) (val_main_v68 (F := Ideal) x1) e _ (v68_at x1 e)).trans (v62_at x1 _)

theorem v76_at (e : Fin 1600000) :
    val_main_v76 (F := Ideal) x1 (ix1 e) = Spec.dv (dstW x1) (Spec.gd (dstW x1) e) :=
  (gatherVec_at (val_main_v62 (F := Ideal) x1) (val_main_v75 (F := Ideal) x1) e _ (v75_at x1 e)).trans (v62_at x1 _)

/-- The edge's coefficient, spread over the columns. -/
theorem v86_at (e : Fin 1600000) (j : Fin 64) :
    val_main_v86 (F := Ideal) x1 (ix2 e j)
      = Spec.dv (dstW x1) (Spec.gs (srcW x1) e) * Spec.dv (dstW x1) (Spec.gd (dstW x1) e) := by
  rw [val_main_v86_apply, val_main_v85_apply]
  refine (congrArg (val_main_v77 (F := Ideal) x1) (?_ : idx_main_v85 (idx_main_v86 (ix2 e j)) = ix1 e)).trans ?_
  · funext a; match a with | ⟨0, _⟩ => rfl
  · rw [val_main_v77_apply, v69_at, v76_at, Ideal.mulf_def]

/-- The source's row of the second layer's features. -/
theorem v84_at (e : Fin 1600000) (j : Fin 64) :
    val_main_v84 (F := Ideal) x0 x1 x3 x4 x5 (ix2 e j)
      = Spec.lin (act1 x0 x1 x3 x4) (Spec.arr2 x5) (Spec.gs (srcW x1) e) j :=
  (gatherRows_at (val_main_v52 (F := Ideal) x0 x1 x3 x4 x5) (val_main_v83 (F := Ideal) x1) e j _ (v83_at x1 e)).trans
    (v52_at x0 x1 x3 x4 x5 _ j)

/-- The message of an edge. -/
theorem v87_at (e : Fin 1600000) (j : Fin 64) :
    val_main_v87 (F := Ideal) x0 x1 x3 x4 x5 (ix2 e j)
      = Spec.lin (act1 x0 x1 x3 x4) (Spec.arr2 x5) (Spec.gs (srcW x1) e) j
          * (Spec.dv (dstW x1) (Spec.gs (srcW x1) e) * Spec.dv (dstW x1) (Spec.gd (dstW x1) e)) := by
  rw [val_main_v87_apply, v84_at, v86_at, Ideal.mulf_def]

/-- The sum of the messages of the edges whose destination word is the node. -/
theorem v90_at (i : Fin 100000) (j : Fin 64) :
    val_main_v90 (F := Ideal) x0 x1 x3 x4 x5 (ix2 i j)
      = ∑ e ∈ Finset.univ.filter (fun e : Fin 1600000 => Spec.ks (dstW x1) e = (i.val : Int)),
          Spec.lin (act1 x0 x1 x3 x4) (Spec.arr2 x5) (Spec.gs (srcW x1) e) j
            * (Spec.dv (dstW x1) (Spec.gs (srcW x1) e) * Spec.dv (dstW x1) (Spec.gd (dstW x1) e)) := by
  unfold val_main_v90
  rw [scatterRows_at]
  have h0 : val_main_v88 (F := Ideal) (ix2 i j) = 0 := by
    rw [val_main_v88_apply, val_main_cst_19_apply]; exact Ideal.ofBits_zero_f32
  rw [h0, zero_add]
  exact Finset.sum_congr (Finset.filter_congr fun e _ => key_iff (v89_at x1 e) _)
    fun e _ => v87_at x0 x1 x3 x4 x5 e j

/-- The self loop's scale, spread over the columns. -/
theorem v93_at (i : Fin 100000) (j : Fin 64) :
    val_main_v93 (F := Ideal) x1 (ix2 i j) = Spec.dv (dstW x1) i * Spec.dv (dstW x1) i := by
  rw [val_main_v93_apply, val_main_v92_apply]
  refine (congrArg (val_main_v91 (F := Ideal) x1) (?_ : idx_main_v92 (idx_main_v93 (ix2 i j)) = ix1 i)).trans ?_
  · funext a; match a with | ⟨0, _⟩ => rfl
  · rw [val_main_v91_apply, v62_at, Ideal.mulf_def]

/-- The bias, spread over the rows. -/
theorem v97_at (i : Fin 100000) (j : Fin 64) : val_main_v97 (F := Ideal) x6 (ix2 i j) = Spec.arr1 x6 j := by
  rw [val_main_v97_apply, val_main_v96_apply]
  refine congrArg x6 ?_
  funext a; match a with | ⟨0, _⟩ => rfl

/-- THE SECOND LAYER in the reference's arrangement. -/
theorem v98_at (i : Fin 100000) (j : Fin 64) :
    val_main_v98 (F := Ideal) x0 x1 x3 x4 x5 x6 (ix2 i j)
      = Spec.layerR (Spec.dv (dstW x1)) (Spec.gs (srcW x1)) (Spec.gd (dstW x1)) (Spec.ks (dstW x1))
          (Spec.lin (act1 x0 x1 x3 x4) (Spec.arr2 x5)) (Spec.arr1 x6) i j := by
  rw [val_main_v98_apply, val_main_v95_apply, val_main_v94_apply, v90_at, v52_at, v93_at, v97_at]
  simp only [Ideal.addf_def, Ideal.mulf_def]
  unfold Spec.layerR
  rfl

end Layer2

/-- The second layer's output: what the readout pools. -/
abbrev out2 (x0 : FVec Ideal S100000x64 .f32) (x1 : IVec S2x1600000 32) (x3 : FVec Ideal S64x64 .f32)
    (x4 : FVec Ideal S64 .f32) (x5 : FVec Ideal S64x64 .f32) (x6 : FVec Ideal S64 .f32) :
    Fin 100000 → Fin 64 → EReal :=
  Spec.layerR (Spec.dv (dstW x1)) (Spec.gs (srcW x1)) (Spec.gd (dstW x1)) (Spec.ks (dstW x1))
    (Spec.lin (act1 x0 x1 x3 x4) (Spec.arr2 x5)) (Spec.arr1 x6)

/-! ## The readout -/

section Head
variable (x0 : FVec Ideal S100000x64 .f32) (x1 : IVec S2x1600000 32) (x2 : IVec S100000 32)
  (x3 : FVec Ideal S64x64 .f32) (x4 : FVec Ideal S64 .f32) (x5 : FVec Ideal S64x64 .f32) (x6 : FVec Ideal S64 .f32)
  (x7 : FVec Ideal S64x3 .f32) (x8 : FVec Ideal S3 .f32)

/-- The graph words, as a column (twice). -/
theorem v100_at (n : Fin 100000) : val_main_v100 (F := Ideal) x2 (ix2 n 0) = Spec.arr1 x2 n := by
  rw [val_main_v100_apply]
  refine congrArg x2 ?_
  funext a; match a with | ⟨0, _⟩ => rfl

theorem v104_at (n : Fin 100000) : val_main_v104 (F := Ideal) x2 (ix2 n 0) = Spec.arr1 x2 n := by
  rw [val_main_v104_apply]
  refine congrArg x2 ?_
  funext a; match a with | ⟨0, _⟩ => rfl

/-- The sum of the rows of a graph's nodes. -/
theorem v101_at (g : Fin 64) (k : Fin 64) :
    val_main_v101 (F := Ideal) x0 x1 x2 x3 x4 x5 x6 (ix2 g k)
      = Spec.pool (Spec.bk (Spec.arr1 x2)) (out2 x0 x1 x3 x4 x5 x6) g k := by
  unfold val_main_v101
  rw [scatterPool_at]
  have h0 : val_main_v99 (F := Ideal) (ix2 g k) = 0 := by
    rw [val_main_v99_apply, val_main_cst_20_apply]; exact Ideal.ofBits_zero_f32
  rw [h0, zero_add]
  unfold Spec.pool
  exact Finset.sum_congr (Finset.filter_congr fun n _ => key_iff (v100_at x2 n) _)
    fun n _ => v98_at x0 x1 x3 x4 x5 x6 n k

/-- The number of a graph's nodes. -/
theorem v105_at (g : Fin 64) : val_main_v105 (F := Ideal) x2 (ix1 g) = Spec.cnt (Spec.bk (Spec.arr1 x2)) g := by
  unfold val_main_v105
  rw [scatterCnt_at]
  have h0 : val_main_v103 (F := Ideal) (ix1 g) = 0 := by
    rw [val_main_v103_apply, val_main_cst_22_apply]; exact Ideal.ofBits_zero_f32
  rw [h0, zero_add]
  unfold Spec.cnt
  refine Finset.sum_congr (Finset.filter_congr fun n _ => key_iff (v104_at x2 n) _) fun n _ => ?_
  rw [val_main_v102_apply, val_main_cst_21_apply]; exact Spec.one_f32

/-- The divisor of the mean, spread over the columns. -/
theorem v109_at (g : Fin 64) (k : Fin 64) :
    val_main_v109 (F := Ideal) x2 (ix2 g k)
      = max (Spec.cnt (Spec.bk (Spec.arr1 x2)) g) (Ideal.ofBits .f32 0x3F800000#32) := by
  rw [val_main_v109_apply, val_main_v108_apply]
  refine (congrArg (val_main_v107 (F := Ideal) x2) (?_ : idx_main_v108 (idx_main_v109 (ix2 g k)) = ix1 g)).trans ?_
  · funext a; match a with | ⟨0, _⟩ => rfl
  · rw [val_main_v107_apply, v105_at, val_main_v106_apply, val_main_cst_23_apply, Ideal.maximumf_def,
      Ideal.ofBits_def]

/-- The mean row of a graph. -/
theorem v110_at (g : Fin 64) (k : Fin 64) :
    val_main_v110 (F := Ideal) x0 x1 x2 x3 x4 x5 x6 (ix2 g k)
      = Spec.mean (Spec.bk (Spec.arr1 x2)) (out2 x0 x1 x3 x4 x5 x6) g k := by
  rw [val_main_v110_apply, v101_at, v109_at, Ideal.hostDivf_def]
  unfold Spec.mean
  rfl

/-- The logits. -/
theorem v114_at (g : Fin 64) (a : Fin 3) :
    val_main_v114 (F := Ideal) x0 x1 x2 x3 x4 x5 x6 x7 x8 (ix2 g a)
      = Spec.logit (Spec.mean (Spec.bk (Spec.arr1 x2)) (out2 x0 x1 x3 x4 x5 x6)) (Spec.arr2 x7) (Spec.arr1 x8) g a := by
  rw [val_main_v114_apply, val_main_v111_apply, Ideal.addf_def]
  unfold Spec.logit
  refine congrArg₂ (· + ·) (Finset.sum_congr rfl fun k _ => congrArg₂ (· * ·) ?_ (congrArg x7 ?_)) ?_
  · refine (congrArg (val_main_v110 (F := Ideal) x0 x1 x2 x3 x4 x5 x6)
      (?_ : lidx_main_v111 (ix2 g a) k = ix2 g k)).trans (v110_at x0 x1 x2 x3 x4 x5 x6 g k)
    funext b; match b with | ⟨0, _⟩ => rfl | ⟨1, _⟩ => rfl
  · funext b; match b with | ⟨0, _⟩ => rfl | ⟨1, _⟩ => rfl
  · rw [val_main_v113_apply, val_main_v112_apply]
    refine congrArg x8 ?_
    funext b; match b with | ⟨0, _⟩ => rfl

end Head

/-- The logits as a function of the graph and the action. -/
abbrev logits (x0 : FVec Ideal S100000x64 .f32) (x1 : IVec S2x1600000 32) (x2 : IVec S100000 32)
    (x3 : FVec Ideal S64x64 .f32) (x4 : FVec Ideal S64 .f32) (x5 : FVec Ideal S64x64 .f32) (x6 : FVec Ideal S64 .f32)
    (x7 : FVec Ideal S64x3 .f32) (x8 : FVec Ideal S3 .f32) : Fin 64 → Fin 3 → EReal :=
  Spec.logit (Spec.mean (Spec.bk (Spec.arr1 x2)) (out2 x0 x1 x3 x4 x5 x6)) (Spec.arr2 x7) (Spec.arr1 x8)

/-! ## The softmax -/

/-- The reduced index g with the action k put back is (g, k). -/
theorem lift_row (h : S64x3.Reduces [1] S64) (g : Fin 64) (k : Fin (S64x3.size 1)) :
    h.lift (ix1 g) k = ix2 g (⟨k.val, k.isLt⟩ : Fin 3) := by
  funext c; apply Fin.ext
  fin_cases c <;> rfl

section Softmax
variable (x0 : FVec Ideal S100000x64 .f32) (x1 : IVec S2x1600000 32) (x2 : IVec S100000 32)
  (x3 : FVec Ideal S64x64 .f32) (x4 : FVec Ideal S64 .f32) (x5 : FVec Ideal S64x64 .f32) (x6 : FVec Ideal S64 .f32)
  (x7 : FVec Ideal S64x3 .f32) (x8 : FVec Ideal S3 .f32)

/-- The maximum over a row, folded from minus infinity. -/
theorem v115_at (g : Fin 64) :
    val_main_v115 (F := Ideal) x0 x1 x2 x3 x4 x5 x6 x7 x8 (ix1 g)
      = (Finset.univ : Finset (Fin 3)).fold max (Ideal.ofBits .f32 0xFF800000#32)
          (logits x0 x1 x2 x3 x4 x5 x6 x7 x8 g) := by
  unfold val_main_v115
  have h : S64x3.Reduces [1] S64 := by decide
  rw [Host.reduce_eq_fold_single FloatOps.maximumf _ _ reducesTo_S64x3_S64_d1 h h_S_]
  have hf : (val_main_v114 (F := Ideal) x0 x1 x2 x3 x4 x5 x6 x7 x8 ∘ h.lift (ix1 g))
      = fun k : Fin 3 => logits x0 x1 x2 x3 x4 x5 x6 x7 x8 g k :=
    funext fun k => (congrArg (val_main_v114 (F := Ideal) x0 x1 x2 x3 x4 x5 x6 x7 x8) (lift_row h g k)).trans
      (v114_at x0 x1 x2 x3 x4 x5 x6 x7 x8 g _)
  exact congrArg (fun f => Finset.fold max (Ideal.ofBits .f32 0xFF800000#32) f (Finset.univ : Finset (Fin 3))) hf

/-- The row's maximum as the program takes it, spread over the actions. -/
theorem v119_at (g : Fin 64) (a : Fin 3) :
    val_main_v119 (F := Ideal) x0 x1 x2 x3 x4 x5 x6 x7 x8 (ix2 g a)
      = Spec.rowMax (logits x0 x1 x2 x3 x4 x5 x6 x7 x8) g := by
  rw [val_main_v119_apply, val_main_v118_apply]
  refine (congrArg (val_main_v117 (F := Ideal) x0 x1 x2 x3 x4 x5 x6 x7 x8)
    (?_ : idx_main_v118 (idx_main_v119 (ix2 g a)) = ix1 g)).trans ?_
  · funext b; match b with | ⟨0, _⟩ => rfl
  · rw [val_main_v117_apply, val_main_v116_apply, val_main_cst_25_apply, v115_at, Ideal.maximumf_def,
      Ideal.ofBits_def]
    unfold Spec.rowMax
    rfl

/-- The exponential of a logit less its row's maximum. -/
theorem v121_at (g : Fin 64) (a : Fin 3) :
    val_main_v121 (F := Ideal) x0 x1 x2 x3 x4 x5 x6 x7 x8 (ix2 g a)
      = Ideal.exp (logits x0 x1 x2 x3 x4 x5 x6 x7 x8 g a - Spec.rowMax (logits x0 x1 x2 x3 x4 x5 x6 x7 x8) g) := by
  rw [val_main_v121_apply, val_main_v120_apply, v114_at, v119_at, Ideal.hostUnary_exp_def, Ideal.subf_def]

/-- The sum of a row's exponentials, spread over the actions. -/
theorem v124_at (g : Fin 64) (a : Fin 3) :
    val_main_v124 (F := Ideal) x0 x1 x2 x3 x4 x5 x6 x7 x8 (ix2 g a)
      = ∑ a' : Fin 3, Ideal.exp (logits x0 x1 x2 x3 x4 x5 x6 x7 x8 g a'
          - Spec.rowMax (logits x0 x1 x2 x3 x4 x5 x6 x7 x8) g) := by
  rw [val_main_v124_apply, val_main_v123_apply]
  refine (congrArg (val_main_v122 (F := Ideal) x0 x1 x2 x3 x4 x5 x6 x7 x8)
    (?_ : idx_main_v123 (idx_main_v124 (ix2 g a)) = ix1 g)).trans ?_
  · funext b; match b with | ⟨0, _⟩ => rfl
  · rw [val_main_v122_apply, val_main_cst_26_apply, Ideal.ofBits_def, Ideal.ofBits_zero_f32, zero_add]
    refine Finset.sum_congr rfl fun k _ => ?_
    refine (congrArg (val_main_v121 (F := Ideal) x0 x1 x2 x3 x4 x5 x6 x7 x8)
      (?_ : idx_main_v122 (ix1 g) k = ix2 g k)).trans (v121_at x0 x1 x2 x3 x4 x5 x6 x7 x8 g k)
    funext b; match b with | ⟨0, _⟩ => rfl | ⟨1, _⟩ => rfl

/-- THE RESULT: the softmax of the logits, which is the network in the reference's arrangement. -/
theorem v125_at (g : Fin 64) (a : Fin 3) :
    val_main_v125 (F := Ideal) x0 x1 x2 x3 x4 x5 x6 x7 x8 (ix2 g a)
      = Spec.netR (Spec.arr2 x0) (srcW x1) (dstW x1) (Spec.arr1 x2) (Spec.arr2 x3) (Spec.arr2 x5)
          (Spec.arr1 x4) (Spec.arr1 x6) (Spec.arr2 x7) (Spec.arr1 x8) g a := by
  rw [val_main_v125_apply, v121_at, v124_at, Ideal.hostDivf_def]
  unfold Spec.netR Spec.head Spec.softmax
  rfl

end Softmax

/-- The reference's result, index by index, is the network in the reference's arrangement of the argument arrays. -/
theorem ref_eq (m : (ℓ : Loc nD τ sig) → Buf (Elt Ideal) ℓ) (c : Dev nD) (g : Fin 64) (a : Fin 3) :
    Cert.ReferenceIdeal.Value.res_main_v125 (F := Ideal) m c (ix2 g a)
      = Spec.netR (Spec.arr2 (m ((c.tc : Thread nD τ).loc main_arg0)))
          (fun e : Fin 1600000 => m ((c.tc : Thread nD τ).loc main_arg1) (ix2 (0 : Fin 2) e))
          (fun e : Fin 1600000 => m ((c.tc : Thread nD τ).loc main_arg1) (ix2 (1 : Fin 2) e))
          (Spec.arr1 (m ((c.tc : Thread nD τ).loc main_arg2)))
          (Spec.arr2 (m ((c.tc : Thread nD τ).loc main_arg3))) (Spec.arr2 (m ((c.tc : Thread nD τ).loc main_arg5)))
          (Spec.arr1 (m ((c.tc : Thread nD τ).loc main_arg4))) (Spec.arr1 (m ((c.tc : Thread nD τ).loc main_arg6)))
          (Spec.arr2 (m ((c.tc : Thread nD τ).loc main_arg7))) (Spec.arr1 (m ((c.tc : Thread nD τ).loc main_arg8))) g a := by
  rw [val_main_v125_eq]
  exact v125_at _ _ _ _ _ _ _ _ _ g a

end Cert.RefValue
end
-- ==== Proof.lean ====
/-
  A graph network with two convolution layers, mean pooling per graph, a linear layer and a softmax, as a Pallas
  program of five kernel regions with host gathers and segment sums between them, against its jnp reference.

  The frames: each region is a pipeline over fifty blocks of two thousand nodes; four of them are pointwise in the
  block (a matrix product with the layer's weight scaled two ways; a scale, an add and a rectifier), and the last
  keeps per-graph sums and counts in two scratch accumulators across the blocks and stores the result at the last
  block. Each region is a segment between two boundaries whose buffer contents are built from the launch memory.

  The value: at the ideal instance the kernel multiplies a node's aggregate by the node's inverse square-root degree
  after summing over the incoming edges, where the reference multiplies every edge's message by the two endpoint
  scales before summing. The scale is a nonnegative real (a degree is at least one), so the product distributes over
  the sum of extended reals, and an edge that arrives at a node reads that node's own scale. Pooling by a one-hot
  matrix product over the blocks is the segment sum. Everything else is the same function on both sides.
-/
import proofs.«429222_j11897059409948_3_alg».proof.Defs
import proofs.«429222_j11897059409948_3_alg».proof.Proof.Gen.Kernel
import proofs.«429222_j11897059409948_3_alg».proof.Proof.Gen.KernelIdeal
import proofs.«429222_j11897059409948_3_alg».proof.Proof.Gen.ReferenceIdeal
import proofs.«429222_j11897059409948_3_alg».proof.Proof.Gen.ReferenceIdeal.Run
import proofs.«429222_j11897059409948_3_alg».proof.Proof.Gen.Pre_finite_inputs
import proofs.«429222_j11897059409948_3_alg».proof.Proof.KbRun
import proofs.«429222_j11897059409948_3_alg».proof.Proof.KiRun
import proofs.«429222_j11897059409948_3_alg».proof.Proof.KernelValue
import proofs.«429222_j11897059409948_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : @Cert.frame_Kernel Cert.Kernel.Gen.facts Cert.Pre_finite_inputs.Gen.facts :=
  fun m ρ _ => Cert.Kernel.Run.frame (F := Bits) m ρ

theorem frame_ki : @Cert.frame_KernelIdeal Cert.KernelIdeal.Gen.facts Cert.Pre_finite_inputs.Gen.facts :=
  fun m ρ _ => Cert.KernelIdeal.Run.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two idealized programs end with the same result: both are the network of the argument arrays, the kernel's
    in its arrangement and the reference's in its own, and the two arrangements are one function. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.V8 m (Cert.KernelIdeal.Run.outs m) c Cert.KernelIdeal.main_v45, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨g, a, rfl⟩ : ∃ (g : Fin 64) (a : Fin 3), i = ix2 g a := ⟨i 0, i 1, eq_ix2 i⟩
  rw [Cert.RefValue.ref_eq m' c g a, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  refine (Cert.Spec.net_eq _ _ _ _ _ _ _ _ _ _).symm ▸ ?_
  refine ((Cert.KernelIdeal.Value.ker_eq m c g a).symm.trans ?_)
  exact congrFun (Cert.KernelIdeal.Run.result_eq m c).symm (ix2 g a)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
